-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part8 {F : FTy → Type} [FloatOps F] (main_arg19 : FVec F S16 .f32) (main_arg25 : FVec F S256 .f32) (main_v132 : IVec S_ 1) (main_v135 : IVec S_ 1) : IVec S_ 1 :=
  let main_v136 : IVec S_ 1 := andi main_v132 main_v135
  let main_cst_54 : FVec F S_ .f32 := constant S_ .f32 0x00000000#32
  let main_v137 : FVec F S16 .f32 := broadcastInDim S16 ![] bcast_S_S16 main_cst_54
  let main_v138 : IVec S16 1 := cmpf .oge main_arg19 main_v137
  let main_c_55 : IVec S_ 1 := constantI S_ 1 1#1
  let main_v139 : IVec S_ 1 := (fun x v => Host.reduce IntOp.andi x v reducesTo_S16_S_d0 h_S_) main_v138 main_c_55
  let main_v140 : IVec S_ 1 := andi main_v136 main_v139
  let main_cst_56 : FVec F S_ .f32 := constant S_ .f32 0x00000000#32
  let main_v141 : FVec F S256 .f32 := broadcastInDim S256 ![] bcast_S_S256 main_cst_56
  let main_v142 : IVec S256 1 := cmpf .oge main_arg25 main_v141
  let main_c_57 : IVec S_ 1 := constantI S_ 1 1#1
  let main_v143 : IVec S_ 1 := (fun x v => Host.reduce IntOp.andi x v reducesTo_S256_S_d0 h_S_) main_v142 main_c_57
  let main_v144 : IVec S_ 1 := andi main_v140 main_v143
  main_v144

def fn_part7 {F : FTy → Type} [FloatOps F] (main_arg7 : FVec F S16 .f32) (main_arg13 : FVec F S256 .f32) (main_arg19 : FVec F S16 .f32) (main_arg25 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_cst_50 : FVec F S_ .f32 := constant S_ .f32 0x00000000#32
  let main_v129 : FVec F S16 .f32 := broadcastInDim S16 ![] bcast_S_S16 main_cst_50
  let main_v130 : IVec S16 1 := cmpf .oge main_arg7 main_v129
  let main_c_51 : IVec S_ 1 := constantI S_ 1 1#1
  let main_v131 : IVec S_ 1 := (fun x v => Host.reduce IntOp.andi x v reducesTo_S16_S_d0 h_S_) main_v130 main_c_51
  let main_v132 : IVec S_ 1 := andi main_v128 main_v131
  let main_cst_52 : FVec F S_ .f32 := constant S_ .f32 0x00000000#32
  let main_v133 : FVec F S256 .f32 := broadcastInDim S256 ![] bcast_S_S256 main_cst_52
  let main_v134 : IVec S256 1 := cmpf .oge main_arg13 main_v133
  let main_c_53 : IVec S_ 1 := constantI S_ 1 1#1
  let main_v135 : IVec S_ 1 := (fun x v => Host.reduce IntOp.andi x v reducesTo_S256_S_d0 h_S_) main_v134 main_c_53
  fn_part8 (F := F) main_arg19 main_arg25 main_v132 main_v135

def fn_part6 {F : FTy → Type} [FloatOps F] (main_arg7 : FVec F S16 .f32) (main_arg13 : FVec F S256 .f32) (main_arg19 : FVec F S16 .f32) (main_arg21 : FVec F S256 .f32) (main_arg22 : FVec F S256 .f32) (main_arg23 : FVec F S256 .f32) (main_arg24 : FVec F S256 .f32) (main_arg25 : FVec F S256 .f32) (main_v98 : IVec S_ 1) (main_v101 : IVec S256x16 1) (main_c_39 : IVec S_ 1) : IVec S_ 1 :=
  let main_v102 : IVec S_ 1 := (fun x v => Host.reduce IntOp.andi x v reducesTo_S256x16_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg7 main_arg13 main_arg19 main_arg25 main_v118 main_v119

def fn_part5 {F : FTy → Type} [FloatOps F] (main_arg7 : FVec F S16 .f32) (main_arg13 : FVec F S256 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16 .f32 := Host.absf main_arg19
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S256x16 .f32 := Host.absf main_arg20
  let main_cst_38 : FVec F S_ .f32 := constant S_ .f32 0x7F800000#32
  let main_v100 : FVec F S256x16 .f32 := broadcastInDim S256x16 ![] bcast_S_S256x16 main_cst_38
  let main_v101 : IVec S256x16 1 := cmpf .olt main_v99 main_v100
  let main_c_39 : IVec S_ 1 := constantI S_ 1 1#1
  fn_part6 (F := F) main_arg7 main_arg13 main_arg19 main_arg21 main_arg22 main_arg23 main_arg24 main_arg25 main_v98 main_v101 main_c_39

def fn_part4 {F : FTy → Type} [FloatOps F] (main_arg7 : FVec F S16 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v63 : IVec S_ 1) (main_v67 : IVec S_ 1) : IVec S_ 1 :=
  let main_v68 : IVec S_ 1 := andi main_v63 main_v67
  let main_v69 : FVec F S16x256 .f32 := Host.absf main_arg14
  let main_cst_26 : FVec F S_ .f32 := constant S_ .f32 0x7F800000#32
  let main_v70 : FVec F S16x256 .f32 := broadcastInDim S16x256 ![] bcast_S_S16x256 main_cst_26
  let main_v71 : IVec S16x256 1 := cmpf .olt main_v69 main_v70
  let main_c_27 : IVec S_ 1 := constantI S_ 1 1#1
  let main_v72 : IVec S_ 1 := (fun x v => Host.reduce IntOp.andi x v reducesTo_S16x256_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg7 main_arg13 main_arg18 main_arg19 main_arg20 main_arg21 main_arg22 main_arg23 main_arg24 main_arg25 main_v83 main_v84 main_cst_32

def fn_part3 {F : FTy → Type} [FloatOps F] (main_arg7 : FVec F S16 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg7 main_arg13 main_arg14 main_arg15 main_arg16 main_arg17 main_arg18 main_arg19 main_arg20 main_arg21 main_arg22 main_arg23 main_arg24 main_arg25 main_v63 main_v67

def fn_part2 {F : FTy → Type} [FloatOps F] (main_arg7 : FVec F S16 .f32) (main_arg8 : FVec F S256x16 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S256x16 .f32 := Host.absf main_arg8
  let main_cst_14 : FVec F S_ .f32 := constant S_ .f32 0x7F800000#32
  let main_v40 : FVec F S256x16 .f32 := broadcastInDim S256x16 ![] bcast_S_S256x16 main_cst_14
  let main_v41 : IVec S256x16 1 := cmpf .olt main_v39 main_v40
  let main_c_15 : IVec S_ 1 := constantI S_ 1 1#1
  let main_v42 : IVec S_ 1 := (fun x v => Host.reduce IntOp.andi x v reducesTo_S256x16_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg7 main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S16 .f32) (main_arg5 : FVec F S16 .f32) (main_arg6 : FVec F S16 .f32) (main_arg7 : FVec F S16 .f32) (main_arg8 : FVec F S256x16 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S32x256x64x64 .f32) (main_arg1 : FVec F S32x256x64x64 .f32) (main_arg2 : FVec F S16x256 .f32) (main_arg3 : FVec F S16 .f32) (main_arg4 : FVec F S16 .f32) (main_arg5 : FVec F S16 .f32) (main_arg6 : FVec F S16 .f32) (main_arg7 : FVec F S16 .f32) (main_arg8 : FVec F S256x16 .f32) (main_arg9 : FVec F S256 .f32) (main_arg10 : FVec F S256 .f32) (main_arg11 : FVec F S256 .f32) (main_arg12 : FVec F S256 .f32) (main_arg13 : FVec F S256 .f32) (main_arg14 : FVec F S16x256 .f32) (main_arg15 : FVec F S16 .f32) (main_arg16 : FVec F S16 .f32) (main_arg17 : FVec F S16 .f32) (main_arg18 : FVec F S16 .f32) (main_arg19 : FVec F S16 .f32) (main_arg20 : FVec F S256x16 .f32) (main_arg21 : FVec F S256 .f32) (main_arg22 : FVec F S256 .f32) (main_arg23 : FVec F S256 .f32) (main_arg24 : FVec F S256 .f32) (main_arg25 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256x4096 : Shape := ⟨3, ![32, 256, 4096]⟩
abbrev S_ : Shape := ⟨0, ![]⟩
abbrev S16x1 : Shape := ⟨2, ![16, 1]⟩
abbrev S256x1 : Shape := ⟨2, ![256, 1]⟩
abbrev S1x256x4096 : Shape := ⟨3, ![1, 256, 4096]⟩
abbrev S256x4096 : Shape := ⟨2, ![256, 4096]⟩
abbrev S1 : Shape := ⟨1, ![1]⟩
abbrev S1x1 : Shape := ⟨2, ![1, 1]⟩

abbrev nBuf : Space → Nat
  | .hbm => 84
  | .vmem => 16
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S16x256, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S256x16, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S16x256, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S256x16, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S32x256x4096, .f32⟩
  | .hbm, ⟨27, _⟩ => ⟨S32x256x4096, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S16x1, .f32⟩
  | .hbm, ⟨43, _⟩ => ⟨S16x256, .f32⟩
  | .hbm, ⟨44, _⟩ => ⟨S16x256, .f32⟩
  | .hbm, ⟨45, _⟩ => ⟨S16, .f32⟩
  | .hbm, ⟨46, _⟩ => ⟨S16, .f32⟩
  | .hbm, ⟨47, _⟩ => ⟨S16x1, .f32⟩
  | .hbm, ⟨48, _⟩ => ⟨S256x1, .f32⟩
  | .hbm, ⟨49, _⟩ => ⟨S256x16, .f32⟩
  | .hbm, ⟨50, _⟩ => ⟨S256x16, .f32⟩
  | .hbm, ⟨51, _⟩ => ⟨S256, .f32⟩
  | .hbm, ⟨52, _⟩ => ⟨S256, .f32⟩
  | .hbm, ⟨53, _⟩ => ⟨S256x1, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S256, .f32⟩
  | .hbm, ⟨68, _⟩ => ⟨S16x1, .f32⟩
  | .hbm, ⟨69, _⟩ => ⟨S16x256, .f32⟩
  | .hbm, ⟨70, _⟩ => ⟨S16x256, .f32⟩
  | .hbm, ⟨71, _⟩ => ⟨S16, .f32⟩
  | .hbm, ⟨72, _⟩ => ⟨S16, .f32⟩
  | .hbm, ⟨73, _⟩ => ⟨S16x1, .f32⟩
  | .hbm, ⟨74, _⟩ => ⟨S256x1, .f32⟩
  | .hbm, ⟨75, _⟩ => ⟨S256x16, .f32⟩
  | .hbm, ⟨76, _⟩ => ⟨S256x16, .f32⟩
  | .hbm, ⟨77, _⟩ => ⟨S256, .f32⟩
  | .hbm, ⟨78, _⟩ => ⟨S256, .f32⟩
  | .hbm, ⟨79, _⟩ => ⟨S256x1, .f32⟩
  | .hbm, ⟨80, _⟩ => ⟨S32x256x4096, .f32⟩
  | .hbm, ⟨81, _⟩ => ⟨S32x256x4096, .f32⟩
  | .hbm, ⟨82, _⟩ => ⟨S32x256x64x64, .f32⟩
  | .hbm, ⟨83, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S16x256, .f32⟩
  | .local _ .vmem, ⟨5, _⟩ => ⟨S16x1, .f32⟩
  | .local _ .vmem, ⟨6, _⟩ => ⟨S256x16, .f32⟩
  | .local _ .vmem, ⟨7, _⟩ => ⟨S256x1, .f32⟩
  | .local _ .vmem, ⟨8, _⟩ => ⟨S16x256, .f32⟩
  | .local _ .vmem, ⟨9, _⟩ => ⟨S16x1, .f32⟩
  | .local _ .vmem, ⟨10, _⟩ => ⟨S256x16, .f32⟩
  | .local _ .vmem, ⟨11, _⟩ => ⟨S256x1, .f32⟩
  | .local _ .vmem, ⟨12, _⟩ => ⟨S1x256x4096, .f32⟩
  | .local _ .vmem, ⟨13, _⟩ => ⟨S1x256x4096, .f32⟩
  | .local _ .vmem, ⟨14, _⟩ => ⟨S1x256x4096, .f32⟩
  | .local _ .vmem, ⟨15, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_1 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50_0 : Ref sig .tc := ⟨.hbm, 80, rfl⟩
abbrev main_v50_1 : Ref sig .tc := ⟨.hbm, 81, rfl⟩
abbrev main_v51 : Ref sig .tc := ⟨.hbm, 82, rfl⟩
abbrev main_v52 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S32x256x64x64_S32x256x4096 : S32x256x64x64.ShapeCasts S32x256x4096
  bcast_S_S16 : S_.BroadcastsInDim S16 (![] : Fin 0 → Fin S16.rank)
  bcast_S_S256 : S_.BroadcastsInDim S256 (![] : Fin 0 → Fin S256.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x1_S1 : S256x1.Reduces [0] S1
  shapeCasts_S1_S1x1 : S1.ShapeCasts S1x1
  broadcasts_S1x1_S256x1 : S1x1.Broadcasts S256x1
  broadcasts_S256x1_S256x4096 : S256x1.Broadcasts S256x4096
  shapeCasts_S256x4096_S1x256x4096 : S256x4096.ShapeCasts S1x256x4096
  shapeCasts_S32x256x4096_S32x256x64x64 : S32x256x4096.ShapeCasts S32x256x64x64
  dot_S16x256_S256x1_S16x1_1_0_0_1_n_n_wf : DotDims.WF S16x256 S256x1 S16x1 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S256x16.size a
  hwx0_4 : ∀ i : grid0.Coords, EltTy.bits .f32 = 32 ∨ (Rect.block (s := S256x16) S256x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x256.size a
  hwx0_6 : ∀ i : grid0.Coords, EltTy.bits .f32 = 32 ∨ (Rect.block (s := S16x256) S16x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x16.size a ≤ S256x16.size a
  hwx0_8 : ∀ i : grid0.Coords, EltTy.bits .f32 = 32 ∨ (Rect.block (s := S256x16) S256x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x4096.size a ≤ S32x256x4096.size a
  hwx0_10 : ∀ i : grid0.Coords, EltTy.bits .f32 = 32 ∨ (Rect.block (s := S32x256x4096) S1x256x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x4096.size a ≤ S32x256x4096.size a
  hwx0_11 : ∀ i : grid0.Coords, EltTy.bits .f32 = 32 ∨ (Rect.block (s := S32x256x4096) S1x256x4096.size (cc0_transform_11 i) (hinb0_11 i)).WholeWords (EltTy.packing .f32)

variable [Facts₀]

def dot_S16x256_S256x1_S16x1_1_0_0_1_n_n : DotDims S16x256 S256x1 S16x1 where
  lhsContracting := [1]
  rhsContracting := [0]
  lhsNonContracting := [0]
  rhsNonContracting := [1]
  lhsBatch := []
  rhsBatch := []
  wf := dot_S16x256_S256x1_S16x1_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S256x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S16x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S256x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v50_0) S1x256x4096.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v50_1) S1x256x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S16 : Shape := ⟨1, ![16]⟩
abbrev S256x16 : Shape := ⟨2, ![256, 16]⟩
abbrev S256 : Shape := ⟨1, ![256]⟩
abbrev S32x256x4096 : Shape := ⟨3, ![32, 256, 4096]⟩
abbrev S32x256x1 : Shape := ⟨3, ![32, 256, 1]⟩
abbrev S1x256x1024 : Shape := ⟨3, ![1, 256, 1024]⟩
abbrev S1x256x1 : Shape := ⟨3, ![1, 256, 1]⟩
abbrev S1x256 : Shape := ⟨2, ![1, 256]⟩
abbrev S32x256 : Shape := ⟨2, ![32, 256]⟩
abbrev S_ : Shape := ⟨0, ![]⟩
abbrev S32x16 : Shape := ⟨2, ![32, 16]⟩
abbrev S1x16 : Shape := ⟨2, ![1, 16]⟩
abbrev S32 : Shape := ⟨1, ![32]⟩
abbrev S32x1 : Shape := ⟨2, ![32, 1]⟩
abbrev S256x1024 : Shape := ⟨2, ![256, 1024]⟩
abbrev S256x1 : Shape := ⟨2, ![256, 1]⟩

abbrev nBuf : Space → Nat
  | .hbm => 157
  | .vmem => 22
  | .smem => 0
  | _ => 0

abbrev hbmTy0_0 (i : Nat) : BufTy := match i % 128 with
  | 0 => ⟨S32x256x64x64, .f32⟩
  | 1 => ⟨S32x256x64x64, .f32⟩
  | 2 => ⟨S16x256, .f32⟩
  | 3 => ⟨S16, .f32⟩
  | 4 => ⟨S16, .f32⟩
  | 5 => ⟨S16, .f32⟩
  | 6 => ⟨S16, .f32⟩
  | 7 => ⟨S16, .f32⟩
  | 8 => ⟨S256x16, .f32⟩
  | 9 => ⟨S256, .f32⟩
  | 10 => ⟨S256, .f32⟩
  | 11 => ⟨S256, .f32⟩
  | 12 => ⟨S256, .f32⟩
  | 13 => ⟨S256, .f32⟩
  | 14 => ⟨S16x256, .f32⟩
  | 15 => ⟨S16, .f32⟩
  | 16 => ⟨S16, .f32⟩
  | 17 => ⟨S16, .f32⟩
  | 18 => ⟨S16, .f32⟩
  | 19 => ⟨S16, .f32⟩
  | 20 => ⟨S256x16, .f32⟩
  | 21 => ⟨S256, .f32⟩
  | 22 => ⟨S256, .f32⟩
  | 23 => ⟨S256, .f32⟩
  | 24 => ⟨S256, .f32⟩
  | 25 => ⟨S256, .f32⟩
  | 26 => ⟨S32x256x4096, .f32⟩
  | 27 => ⟨S32x256x4096, .f32⟩
  | 28 => ⟨S32x256x1, .f32⟩
  | 29 => ⟨S32x256x1, .f32⟩
  | 30 => ⟨S32x256, .f32⟩
  | 31 => ⟨S_, .f32⟩
  | 32 => ⟨S32x256, .f32⟩
  | 33 => ⟨S32x256, .f32⟩
  | 34 => ⟨S32x256, .f32⟩
  | 35 => ⟨S_, .f32⟩
  | 36 => ⟨S32x256, .f32⟩
  | 37 => ⟨S32x256, .f32⟩
  | 38 => ⟨S_, .f32⟩
  | 39 => ⟨S16, .f32⟩
  | 40 => ⟨S16, .f32⟩
  | 41 => ⟨S16, .f32⟩
  | 42 => ⟨S16, .f32⟩
  | 43 => ⟨S16, .f32⟩
  | 44 => ⟨S16, .f32⟩
  | 45 => ⟨S_, .f32⟩
  | 46 => ⟨S256, .f32⟩
  | 47 => ⟨S256, .f32⟩
  | 48 => ⟨S256, .f32⟩
  | 49 => ⟨S256, .f32⟩
  | 50 => ⟨S256, .f32⟩
  | 51 => ⟨S256, .f32⟩
  | 52 => ⟨S256x16, .f32⟩
  | 53 => ⟨S32x16, .f32⟩
  | 54 => ⟨S1x16, .f32⟩
  | 55 => ⟨S32x16, .f32⟩
  | 56 => ⟨S32x16, .f32⟩
  | 57 => ⟨S1x16, .f32⟩
  | 58 => ⟨S32x16, .f32⟩
  | 59 => ⟨S32x16, .f32⟩
  | 60 => ⟨S1x16, .f32⟩
  | 61 => ⟨S32x16, .f32⟩
  | 62 => ⟨S32x16, .f32⟩
  | 63 => ⟨S_, .f32⟩
  | 64 => ⟨S32x16, .f32⟩
  | 65 => ⟨S32x16, .f32⟩
  | 66 => ⟨S16x256, .f32⟩
  | 67 => ⟨S32x256, .f32⟩
  | 68 => ⟨S1x256, .f32⟩
  | 69 => ⟨S32x256, .f32⟩
  | 70 => ⟨S32x256, .f32⟩
  | 71 => ⟨S1x256, .f32⟩
  | 72 => ⟨S32x256, .f32⟩
  | 73 => ⟨S32x256, .f32⟩
  | 74 => ⟨S1x256, .f32⟩
  | 75 => ⟨S32x256, .f32⟩
  | 76 => ⟨S32x256, .f32⟩
  | 77 => ⟨S_, .f32⟩
  | 78 => ⟨S16, .f32⟩
  | 79 => ⟨S16, .f32⟩
  | 80 => ⟨S16, .f32⟩
  | 81 => ⟨S16, .f32⟩
  | 82 => ⟨S16, .f32⟩
  | 83 => ⟨S16, .f32⟩
  | 84 => ⟨S_, .f32⟩
  | 85 => ⟨S256, .f32⟩
  | 86 => ⟨S256, .f32⟩
  | 87 => ⟨S256, .f32⟩
  | 88 => ⟨S256, .f32⟩
  | 89 => ⟨S256, .f32⟩
  | 90 => ⟨S256, .f32⟩
  | 91 => ⟨S256x16, .f32⟩
  | 92 => ⟨S32x16, .f32⟩
  | 93 => ⟨S1x16, .f32⟩
  | 94 => ⟨S32x16, .f32⟩
  | 95 => ⟨S32x16, .f32⟩
  | 96 => ⟨S1x16, .f32⟩
  | 97 => ⟨S32x16, .f32⟩
  | 98 => ⟨S32x16, .f32⟩
  | 99 => ⟨S1x16, .f32⟩
  | 100 => ⟨S32x16, .f32⟩
  | 101 => ⟨S32x16, .f32⟩
  | 102 => ⟨S_, .f32⟩
  | 103 => ⟨S32x16, .f32⟩
  | 104 => ⟨S32x16, .f32⟩
  | 105 => ⟨S16x256, .f32⟩
  | 106 => ⟨S32x256, .f32⟩
  | 107 => ⟨S1x256, .f32⟩
  | 108 => ⟨S32x256, .f32⟩
  | 109 => ⟨S32x256, .f32⟩
  | 110 => ⟨S1x256, .f32⟩
  | 111 => ⟨S32x256, .f32⟩
  | 112 => ⟨S32x256, .f32⟩
  | 113 => ⟨S1x256, .f32⟩
  | 114 => ⟨S32x256, .f32⟩
  | 115 => ⟨S32x256, .f32⟩
  | 116 => ⟨S_, .f32⟩
  | 117 => ⟨S32, .f32⟩
  | 118 => ⟨S_, .f32⟩
  | 119 => ⟨S32, .f32⟩
  | 120 => ⟨S32, .f32⟩
  | 121 => ⟨S32x1, .f32⟩
  | 122 => ⟨S32x256, .f32⟩
  | 123 => ⟨S32x256, .f32⟩
  | 124 => ⟨S32x256, .f32⟩
  | 125 => ⟨S_, .f32⟩
  | 126 => ⟨S32, .f32⟩
  | 127 => ⟨S32x1, .f32⟩
  | _ => ⟨S32x256x64x64, .f32⟩

abbrev hbmTy0_1 (i : Nat) : BufTy := match i % 128 with
  | 0 => ⟨S32x256, .f32⟩
  | 1 => ⟨S32x256, .f32⟩
  | 2 => ⟨S_, .f32⟩
  | 3 => ⟨S32x256, .f32⟩
  | 4 => ⟨S32x256, .f32⟩
  | 5 => ⟨S32x256x1, .f32⟩
  | 6 => ⟨S_, .f32⟩
  | 7 => ⟨S32, .f32⟩
  | 8 => ⟨S_, .f32⟩
  | 9 => ⟨S32, .f32⟩
  | 10 => ⟨S32, .f32⟩
  | 11 => ⟨S32x1, .f32⟩
  | 12 => ⟨S32x256, .f32⟩
  | 13 => ⟨S32x256, .f32⟩
  | 14 => ⟨S32x256, .f32⟩
  | 15 => ⟨S_, .f32⟩
  | 16 => ⟨S32, .f32⟩
  | 17 => ⟨S32x1, .f32⟩
  | 18 => ⟨S32x256, .f32⟩
  | 19 => ⟨S32x256, .f32⟩
  | 20 => ⟨S_, .f32⟩
  | 21 => ⟨S32x256, .f32⟩
  | 22 => ⟨S32x256, .f32⟩
  | 23 => ⟨S32x256x1, .f32⟩
  | 24 => ⟨S32x256x1, .f32⟩
  | 25 => ⟨S32x256x4096, .f32⟩
  | 26 => ⟨S32x256x4096, .f32⟩
  | 27 => ⟨S32x256x64x64, .f32⟩
  | 28 => ⟨S32x256x64x64, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1, .f32⟩
  | .local _ .vmem, ⟨5, _⟩ => ⟨S1x256x1, .f32⟩
  | .local _ .vmem, ⟨6, _⟩ => ⟨S1x256x1, .f32⟩
  | .local _ .vmem, ⟨7, _⟩ => ⟨S1x256x1, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2_0 : Ref sig .tc := ⟨.hbm, 28, rfl⟩
abbrev main_v2_1 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_5 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_6 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_7 : Ref sig .tc := ⟨.hbm, 116, rfl⟩
abbrev main_v81 : Ref sig .tc := ⟨.hbm, 117, rfl⟩
abbrev main_cst_8 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_9 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_10 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_11 : Ref sig .tc := ⟨.hbm, 134, rfl⟩
abbrev main_v95 : Ref sig .tc := ⟨.hbm, 135, rfl⟩
abbrev main_cst_12 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_13 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_14 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110_0 : Ref sig .tc := ⟨.hbm, 153, rfl⟩
abbrev main_v110_1 : Ref sig .tc := ⟨.hbm, 154, rfl⟩
abbrev main_v111 : Ref sig .tc := ⟨.hbm, 155, rfl⟩
abbrev main_v112 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S32x256x64x64_S32x256x4096 : S32x256x64x64.ShapeCasts S32x256x4096
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  reduces_S1x256x1024_S1x256 : S1x256x1024.Reduces [2] S1x256
  shapeCasts_S1x256_S1x256x1 : S1x256.ShapeCasts S1x256x1
  shapeCasts_S32x256x1_S32x256 : S32x256x1.ShapeCasts S32x256
  bcast_S_S32x256 : S_.BroadcastsInDim S32x256 (![] : Fin 0 → Fin S32x256.rank)
  bcast_S_S16 : S_.BroadcastsInDim S16 (![] : Fin 0 → Fin S16.rank)
  bcast_S_S256 : S_.BroadcastsInDim S256 (![] : Fin 0 → Fin S256.rank)
  transposes_S16x256_S256x16_1_0 : S16x256.Transposes [1, 0] S256x16
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  transposes_S256x16_S16x256_1_0 : S256x16.Transposes [1, 0] S16x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  reducesTo_S32x256_S32_d1 : S32x256.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  shapeCasts_S32x256_S32x256x1 : S32x256.ShapeCasts S32x256x1
  shapeCasts_S1x256x1024_S256x1024 : S1x256x1024.ShapeCasts S256x1024
  shapeCasts_S1x256x1_S256x1 : S1x256x1.ShapeCasts S256x1
  broadcasts_S256x1_S256x1024 : S256x1.Broadcasts S256x1024
  shapeCasts_S256x1024_S1x256x1024 : S256x1024.ShapeCasts S1x256x1024
  shapeCasts_S32x256x4096_S32x256x64x64 : S32x256x4096.ShapeCasts S32x256x64x64
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x4096.size a
  hwx0_0 : ∀ i : grid0.Coords, EltTy.bits .f32 = 32 ∨ (Rect.block (s := S32x256x4096) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x256x4096.size a
  hwx0_1 : ∀ i : grid0.Coords, EltTy.bits .f32 = 32 ∨ (Rect.block (s := S32x256x4096) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S32x256x1.size a
  hwx0_2 : ∀ i : grid0.Coords, EltTy.bits .f32 = 32 ∨ (Rect.block (s := S32x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S32x256x1.size a
  hwx0_3 : ∀ i : grid0.Coords, EltTy.bits .f32 = 32 ∨ (Rect.block (s := S32x256x1) S1x256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S32x256x4096.size a
  hwx1_0 : ∀ i : grid1.Coords, EltTy.bits .f32 = 32 ∨ (Rect.block (s := S32x256x4096) S1x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S32x256x4096.size a
  hwx1_1 : ∀ i : grid1.Coords, EltTy.bits .f32 = 32 ∨ (Rect.block (s := S32x256x4096) S1x256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S32x256x1.size a
  hwx1_2 : ∀ i : grid1.Coords, EltTy.bits .f32 = 32 ∨ (Rect.block (s := S32x256x1) S1x256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1.size a ≤ S32x256x1.size a
  hwx1_3 : ∀ i : grid1.Coords, EltTy.bits .f32 = 32 ∨ (Rect.block (s := S32x256x1) S1x256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1.size a ≤ S32x256x1.size a
  hwx1_4 : ∀ i : grid1.Coords, EltTy.bits .f32 = 32 ∨ (Rect.block (s := S32x256x1) S1x256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S32x256x4096.size a
  hwx1_5 : ∀ i : grid1.Coords, EltTy.bits .f32 = 32 ∨ (Rect.block (s := S32x256x4096) S1x256x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S32x256x4096.size a
  hwx1_6 : ∀ i : grid1.Coords, EltTy.bits .f32 = 32 ∨ (Rect.block (s := S32x256x4096) S1x256x1024.size (cc1_transform_6 i) (hinb1_6 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v94) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v108) S1x256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v109) S1x256x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v110_0) S1x256x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v110_1) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.Spec.lean ====
/-
  What both programs compute, index by index, on the extended reals.

  Per batch element the channel means of an input slab (its global average pool) go through two small affine
  layers, each followed by a batch normalisation `y ↦ y * s + t` with `s = γ / √(v + ε)` and `t = β - μ * s`,
  a rectifier between them; the resulting channel vector `lv` gives the gate `softmax lv + 1`, and the
  outputs are `low * gate + lv` and `high * gate`.

  The two programs differ in TWO places only.  One program folds each normalisation into its layer before the
  run (`(w * s) · g + (b * s + t)`), the other applies it after the product (`(g · w + b) * s + t`); and one sums
  a slab's 4096 positions at once where the other accumulates four partial sums of 1024.  Both forms are written
  down here (`…F` for "folded", `…R` for "normalised after the product"), over families of extended reals indexed
  by literal `Fin` types; the module that joins them proves the two equal on finite inputs with non-negative
  variances.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The flattened activations: batch × channel × position. -/
abbrev S3 : Shape := ⟨3, ![32, 256, 4096]⟩

/-- The activations as the programs receive and return them: batch × channel × height × width. -/
abbrev S4 : Shape := ⟨4, ![32, 256, 64, 64]⟩
/-- An input flattened over its two spatial axes (row-major, so position `64 * h + w`). -/
def flat (x : S4.Idx → EReal) : S3.Idx → EReal := shapeCast S3 x (by decide)
/-- A flattened output brought back to height × width. -/
def unflat (y : S3.Idx → EReal) : S4.Idx → EReal := shapeCast S4 y (by decide)

/-! ## The constants the programs carry, as the extended reals their patterns denote -/

/-- The normalisation's ε: the single-precision number nearest 10⁻⁵. -/
def eps : EReal := Ideal.ofBits .f32 0x3727C5AC#32
/-- 1 / 4096, the reciprocal of a slab's number of positions (an exact dyadic). -/
def invHW : EReal := Ideal.ofBits .f32 0x39800000#32
/-- 1. -/
def one : EReal := Ideal.ofBits .f32 0x3F800000#32
/-- 0. -/
def z0 : EReal := Ideal.ofBits .f32 0x00000000#32
/-- -∞, the initial value of a running maximum. -/
def negInf : EReal := Ideal.ofBits .f32 0xFF800000#32

/-! ## One branch's parameters -/

/-- The parameters of one branch (there are two, one per input): the first layer's weight and bias and its
    normalisation's γ, β, μ, variance (16 hidden units over 256 channels), then the second layer's (256 channels
    over 16 hidden units). -/
structure Branch where
  w1 : Fin 16 → Fin 256 → EReal
  b1 : Fin 16 → EReal
  g1 : Fin 16 → EReal
  be1 : Fin 16 → EReal
  mu1 : Fin 16 → EReal
  va1 : Fin 16 → EReal
  w2 : Fin 256 → Fin 16 → EReal
  b2 : Fin 256 → EReal
  g2 : Fin 256 → EReal
  be2 : Fin 256 → EReal
  mu2 : Fin 256 → EReal
  va2 : Fin 256 → EReal

/-- A normalisation's scale `γ / √(v + ε)`. -/
def scale (g v : EReal) : EReal := Ideal.div g (Ideal.sqrt (v + eps))
/-- A normalisation's shift `β - μ * s`. -/
def shift (be mu s : EReal) : EReal := be - mu * s

namespace Branch
variable (p : Branch)
def s1 (j : Fin 16) : EReal := scale (p.g1 j) (p.va1 j)
def t1 (j : Fin 16) : EReal := shift (p.be1 j) (p.mu1 j) (p.s1 j)
def s2 (c : Fin 256) : EReal := scale (p.g2 c) (p.va2 c)
def t2 (c : Fin 256) : EReal := shift (p.be2 c) (p.mu2 c) (p.s2 c)
/-- The first layer's weight with its normalisation's scale folded in, row by row. -/
def w1f (j : Fin 16) (c : Fin 256) : EReal := p.w1 j c * p.s1 j
/-- The first layer's bias with its normalisation folded in. -/
def b1f (j : Fin 16) : EReal := p.b1 j * p.s1 j + p.t1 j
def w2f (c : Fin 256) (j : Fin 16) : EReal := p.w2 c j * p.s2 c
def b2f (c : Fin 256) : EReal := p.b2 c * p.s2 c + p.t2 c
end Branch

/-! ## The channel means -/

/-- The mean over a slab's 4096 positions, summed at once. -/
def gapF (f : Fin 256 → Fin 4096 → EReal) (c : Fin 256) : EReal := (∑ k : Fin 4096, f c k) * invHW

/-- The sum of the `q`-th quarter (1024 consecutive positions) of a row. -/
def tileSum (f : Fin 4096 → EReal) (q : Fin 4) : EReal :=
  ∑ k : Fin 1024, f ⟨q.val * 1024 + k.val, by have := q.isLt; have := k.isLt; omega⟩

/-- The running sum of a row's quarters: zero plus the first, then one more quarter at a time. -/
def accR (f : Fin 4096 → EReal) : ℕ → EReal
  | 0 => z0 + tileSum f 0
  | q + 1 => accR f q + tileSum f ⟨(q + 1) % 4, Nat.mod_lt _ (by decide)⟩

/-- The mean over a slab's positions, accumulated quarter by quarter. -/
def gapR (f : Fin 256 → Fin 4096 → EReal) (c : Fin 256) : EReal := accR (f c) 3 * invHW

/-! ## The two layers -/

/-- The hidden layer from FOLDED weights: `max (w1f · g + b1f) 0`. -/
def hidF (w1f : Fin 16 → Fin 256 → EReal) (b1f : Fin 16 → EReal) (g : Fin 256 → EReal) (j : Fin 16) : EReal :=
  max ((∑ c : Fin 256, w1f j c * g c) + b1f j) z0
/-- The channel vector from FOLDED weights: `w2f · hidden + b2f`. -/
def vecF (w1f : Fin 16 → Fin 256 → EReal) (b1f : Fin 16 → EReal) (w2f : Fin 256 → Fin 16 → EReal) (b2f : Fin 256 → EReal)
    (g : Fin 256 → EReal) (c : Fin 256) : EReal :=
  (∑ j : Fin 16, w2f c j * hidF w1f b1f g j) + b2f c
/-- The channel vector of a branch, its normalisations folded into the weights. -/
def lvF (p : Branch) (g : Fin 256 → EReal) : Fin 256 → EReal := vecF p.w1f p.b1f p.w2f p.b2f g

/-- The hidden layer, normalised AFTER the product: `max ((g · w1 + b1) * s1 + t1) 0`. -/
def hidR (p : Branch) (g : Fin 256 → EReal) (j : Fin 16) : EReal :=
  max (((∑ c : Fin 256, g c * p.w1 j c) + p.b1 j) * p.s1 j + p.t1 j) z0
/-- The channel vector, normalised after the product: `(hidden · w2 + b2) * s2 + t2`. -/
def lvR (p : Branch) (g : Fin 256 → EReal) (c : Fin 256) : EReal :=
  ((∑ j : Fin 16, hidR p g j * p.w2 c j) + p.b2 c) * p.s2 c + p.t2 c

/-! ## The gate: softmax + 1 -/

/-- The gate with the running maximum started at -∞ and the normaliser a plain sum. -/
def attF (lv : Fin 256 → EReal) (c : Fin 256) : EReal :=
  let mx := (Finset.univ : Finset (Fin 256)).fold max negInf lv
  Ideal.div (Ideal.exp (lv c - mx)) (∑ c' : Fin 256, Ideal.exp (lv c' - mx)) + one

/-- The gate with the maximum taken once more against -∞ and the normaliser summed from an initial zero. -/
def attR (lv : Fin 256 → EReal) (c : Fin 256) : EReal :=
  let mx := max negInf ((Finset.univ : Finset (Fin 256)).fold max negInf lv)
  Ideal.div (Ideal.exp (lv c - mx)) (z0 + ∑ c' : Fin 256, Ideal.exp (lv c' - mx)) + one

/-! ## The outputs, as functions of the flattened inputs -/

/-- Batch element `n`'s slab of a flattened input, as a family over channel and position. -/
def slab (x : S3.Idx → EReal) (n : Fin 32) : Fin 256 → Fin 4096 → EReal := fun c k => x (ix3 n c k)

/-- The first output (folded form): `low * gate + lv`. -/
def outLowF (p : Branch) (low : S3.Idx → EReal) (n : Fin 32) (c : Fin 256) (k : Fin 4096) : EReal :=
  low (ix3 n c k) * attF (lvF p (gapF (slab low n))) c + lvF p (gapF (slab low n)) c
/-- The second output (folded form): `high * gate`. -/
def outHighF (p : Branch) (high : S3.Idx → EReal) (n : Fin 32) (c : Fin 256) (k : Fin 4096) : EReal :=
  high (ix3 n c k) * attF (lvF p (gapF (slab high n))) c

/-- The first output (normalised-after form). -/
def outLowR (p : Branch) (low : S3.Idx → EReal) (n : Fin 32) (c : Fin 256) (k : Fin 4096) : EReal :=
  low (ix3 n c k) * attR (lvR p (gapR (slab low n))) c + lvR p (gapR (slab low n)) c
/-- The second output (normalised-after form). -/
def outHighR (p : Branch) (high : S3.Idx → EReal) (n : Fin 32) (c : Fin 256) (k : Fin 4096) : EReal :=
  high (ix3 n c k) * attR (lvR p (gapR (slab high n))) c

/-- The outputs as whole arrays over the flattened shape. -/
def GlowF (p : Branch) (low : S3.Idx → EReal) : S3.Idx → EReal := fun i => outLowF p low (i 0) (i 1) (i 2)
def GhighF (p : Branch) (high : S3.Idx → EReal) : S3.Idx → EReal := fun i => outHighF p high (i 0) (i 1) (i 2)
def GlowR (p : Branch) (low : S3.Idx → EReal) : S3.Idx → EReal := fun i => outLowR p low (i 0) (i 1) (i 2)
def GhighR (p : Branch) (high : S3.Idx → EReal) : S3.Idx → EReal := fun i => outHighR p high (i 0) (i 1) (i 2)

/-! ## When the two forms agree -/

/-- Every parameter of the branch is a real number and both variances are non-negative. -/
structure Branch.Good (p : Branch) : Prop where
  w1 : ∀ j c, ∃ r : ℝ, p.w1 j c = (r : EReal)
  b1 : ∀ j, ∃ r : ℝ, p.b1 j = (r : EReal)
  g1 : ∀ j, ∃ r : ℝ, p.g1 j = (r : EReal)
  be1 : ∀ j, ∃ r : ℝ, p.be1 j = (r : EReal)
  mu1 : ∀ j, ∃ r : ℝ, p.mu1 j = (r : EReal)
  va1 : ∀ j, ∃ r : ℝ, 0 ≤ r ∧ p.va1 j = (r : EReal)
  w2 : ∀ c j, ∃ r : ℝ, p.w2 c j = (r : EReal)
  b2 : ∀ c, ∃ r : ℝ, p.b2 c = (r : EReal)
  g2 : ∀ c, ∃ r : ℝ, p.g2 c = (r : EReal)
  be2 : ∀ c, ∃ r : ℝ, p.be2 c = (r : EReal)
  mu2 : ∀ c, ∃ r : ℝ, p.mu2 c = (r : EReal)
  va2 : ∀ c, ∃ r : ℝ, 0 ≤ r ∧ p.va2 c = (r : EReal)

end Cert.Spec

end
-- ==== Proof.KParams.lean ====
/-
  The idealized kernel program's inputs as the specification's arguments: each branch's parameters read off the
  launch memory, and the two activations flattened.
-/
import proofs.«121784_g2000609679484958_pallasbulk_1271_2_alg».proof.Proof.Gen.KernelIdeal.Frame
import proofs.«121784_g2000609679484958_pallasbulk_1271_2_alg».proof.Proof.Spec

noncomputable section

namespace Cert.KernelIdeal.KV

open Idealize.ShloMosaic Idealize.ShloMosaic.TcCoe Idealize.ShloMosaic.ValueIdx Idealize.SL.Sem
open Cert.KernelIdeal

variable (m : (ℓ : Loc nD τ sig) → Buf (Elt Ideal) ℓ)

/-- The parameters of the branch fed by the first input. -/
def brLow (c : Dev nD) : Cert.Spec.Branch where
  w1 j k := m ((c : Thread nD τ).loc main_arg2) (ix2 j k)
  b1 j := m ((c : Thread nD τ).loc main_arg3) (ix1 j)
  g1 j := m ((c : Thread nD τ).loc main_arg4) (ix1 j)
  be1 j := m ((c : Thread nD τ).loc main_arg5) (ix1 j)
  mu1 j := m ((c : Thread nD τ).loc main_arg6) (ix1 j)
  va1 j := m ((c : Thread nD τ).loc main_arg7) (ix1 j)
  w2 k j := m ((c : Thread nD τ).loc main_arg8) (ix2 k j)
  b2 k := m ((c : Thread nD τ).loc main_arg9) (ix1 k)
  g2 k := m ((c : Thread nD τ).loc main_arg10) (ix1 k)
  be2 k := m ((c : Thread nD τ).loc main_arg11) (ix1 k)
  mu2 k := m ((c : Thread nD τ).loc main_arg12) (ix1 k)
  va2 k := m ((c : Thread nD τ).loc main_arg13) (ix1 k)

/-- The parameters of the branch fed by the second input. -/
def brHigh (c : Dev nD) : Cert.Spec.Branch where
  w1 j k := m ((c : Thread nD τ).loc main_arg14) (ix2 j k)
  b1 j := m ((c : Thread nD τ).loc main_arg15) (ix1 j)
  g1 j := m ((c : Thread nD τ).loc main_arg16) (ix1 j)
  be1 j := m ((c : Thread nD τ).loc main_arg17) (ix1 j)
  mu1 j := m ((c : Thread nD τ).loc main_arg18) (ix1 j)
  va1 j := m ((c : Thread nD τ).loc main_arg19) (ix1 j)
  w2 k j := m ((c : Thread nD τ).loc main_arg20) (ix2 k j)
  b2 k := m ((c : Thread nD τ).loc main_arg21) (ix1 k)
  g2 k := m ((c : Thread nD τ).loc main_arg22) (ix1 k)
  be2 k := m ((c : Thread nD τ).loc main_arg23) (ix1 k)
  mu2 k := m ((c : Thread nD τ).loc main_arg24) (ix1 k)
  va2 k := m ((c : Thread nD τ).loc main_arg25) (ix1 k)

/-- The first input, flattened. -/
def lowIn (c : Dev nD) : Cert.Spec.S3.Idx → EReal := Cert.Spec.flat (m ((c : Thread nD τ).loc main_arg0))
/-- The second input, flattened. -/
def highIn (c : Dev nD) : Cert.Spec.S3.Idx → EReal := Cert.Spec.flat (m ((c : Thread nD τ).loc main_arg1))

end Cert.KernelIdeal.KV

end
-- ==== Proof.KHost.lean ====
/-
  The arrays the kernel region finds on entry, at the ideal values: the host lines before the region flatten the
  two activations and fold each normalisation into its layer's weight and bias.
-/
import proofs.«121784_g2000609679484958_pallasbulk_1271_2_alg».proof.Proof.KParams
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The host lines' operations read at an index

Stated over vectors of any length `n` (and rows of any length `p`), so that both layers of both branches are
instances. -/

section ReadAtIndex
variable {n p : ℕ}

/-- A scalar broadcast to a vector reads the scalar everywhere. -/
private theorem bcast0_apply (hb : S_.BroadcastsInDim ⟨1, ![n]⟩ ![]) (x : S_.Idx → EReal) (j : Fin n) :
    broadcastInDim ⟨1, ![n]⟩ ![] hb x (ix1 j) = x ix0 := by
  unfold broadcastInDim; exact congrArg x (funext fun a => a.elim0)

/-- A vector made a column reads the vector's entry on each row. -/
private theorem bcastCol_apply (hb : (⟨1, ![n]⟩ : Shape).BroadcastsInDim ⟨2, ![n, 1]⟩ ![0])
    (x : (⟨1, ![n]⟩ : Shape).Idx → EReal) (j : Fin n) (z : Fin 1) :
    broadcastInDim ⟨2, ![n, 1]⟩ ![0] hb x (ix2 j z) = x (ix1 j) := by
  refine broadcastInDim_apply _ hb x _ _ fun a => ?_
  match a with
  | ⟨0, _⟩ =>
    show j.val = if n = 1 then 0 else j.val
    have := j.isLt
    split_ifs with h
    · omega
    · rfl

/-- A column spread along the rows reads the column's entry of the same row. -/
private theorem bcastRow_apply (hb : (⟨2, ![n, 1]⟩ : Shape).BroadcastsInDim ⟨2, ![n, p]⟩ ![0, 1])
    (x : (⟨2, ![n, 1]⟩ : Shape).Idx → EReal) (j : Fin n) (k : Fin p) :
    broadcastInDim ⟨2, ![n, p]⟩ ![0, 1] hb x (ix2 j k) = x (ix2 j 0) := by
  refine broadcastInDim_apply _ hb x _ _ fun a => ?_
  match a with
  | ⟨0, _⟩ =>
    show j.val = if n = 1 then 0 else j.val
    have := j.isLt
    split_ifs with h
    · omega
    · rfl
  | ⟨1, _⟩ =>
    show 0 = if 1 = 1 then 0 else k.val
    rfl

/-- The normalisation's scale `γ / √(v + ε)`, entry by entry. -/
private theorem scaleVec_apply (h0 : S_.BroadcastsInDim ⟨1, ![n]⟩ ![]) (g v : FVec Ideal ⟨1, ![n]⟩ .f32) (j : Fin n) :
    Host.divf g (Host.sqrt (addf v (broadcastInDim ⟨1, ![n]⟩ ![] h0 (constant (F := Ideal) S_ .f32 0x3727C5AC#32)))) (ix1 j)
      = Cert.Spec.scale (g (ix1 j)) (v (ix1 j)) := by
  show Ideal.div (g (ix1 j)) (Ideal.sqrt (v (ix1 j)
      + broadcastInDim ⟨1, ![n]⟩ ![] h0 (constant (F := Ideal) S_ .f32 0x3727C5AC#32) (ix1 j))) = _
  rw [bcast0_apply]
  rfl

/-- A weight times its row's scale, the scale spread over the row. -/
private theorem foldW_apply (h0 : S_.BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, p]⟩ ![0, 1])
    (W : FVec Ideal ⟨2, ![n, p]⟩ .f32) (g v : FVec Ideal ⟨1, ![n]⟩ .f32) (j : Fin n) (k : Fin p) :
    mulf W (broadcastInDim ⟨2, ![n, p]⟩ ![0, 1] h2 (broadcastInDim ⟨2, ![n, 1]⟩ ![0] h1
      (Host.divf g (Host.sqrt (addf v (broadcastInDim ⟨1, ![n]⟩ ![] h0 (constant (F := Ideal) S_ .f32 0x3727C5AC#32)))))))
      (ix2 j k) = W (ix2 j k) * Cert.Spec.scale (g (ix1 j)) (v (ix1 j)) := by
  rw [mulf_apply, bcastRow_apply, bcastCol_apply, scaleVec_apply]

/-- A bias through its normalisation, `b * s + (β - μ * s)`, as a column. -/
private theorem foldB_apply (h0 : S_.BroadcastsInDim ⟨1, ![n]⟩ ![])
    (h1 : (⟨1, ![n]⟩ : Shape).BroadcastsInDim ⟨2, ![n, 1]⟩ ![0])
    (b g be mu v : FVec Ideal ⟨1, ![n]⟩ .f32) (j : Fin n) :
    broadcastInDim ⟨2, ![n, 1]⟩ ![0] h1
      (addf (mulf b (Host.divf g (Host.sqrt (addf v (broadcastInDim ⟨1, ![n]⟩ ![] h0 (constant (F := Ideal) S_ .f32 0x3727C5AC#32))))))
        (subf be (mulf mu (Host.divf g (Host.sqrt (addf v (broadcastInDim ⟨1, ![n]⟩ ![] h0 (constant (F := Ideal) S_ .f32 0x3727C5AC#32))))))))
      (ix2 j 0) = b (ix1 j) * Cert.Spec.scale (g (ix1 j)) (v (ix1 j))
        + (be (ix1 j) - mu (ix1 j) * Cert.Spec.scale (g (ix1 j)) (v (ix1 j))) := by
  rw [bcastCol_apply, addf_apply, mulf_apply, subf_apply, mulf_apply, scaleVec_apply]

end ReadAtIndex

/-! ## The ten arrays -/

/-- The first window's array is the first input flattened. -/
theorem V_v0 (c : Dev nD) : (V m c main_v0 : S32x256x4096.Idx → EReal) = lowIn m c := by
  show StableHlo.after hostOps0 (fun b => m (c, b)) (Proc.devRef .tc main_v0) = _
  after_results_simp
  rfl
/-- The second window's array is the second input flattened. -/
theorem V_v1 (c : Dev nD) : (V m c main_v1 : S32x256x4096.Idx → EReal) = highIn m c := by
  show StableHlo.after hostOps0 (fun b => m (c, b)) (Proc.devRef .tc main_v1) = _
  after_results_simp
  rfl

/-- The folded first-layer weight of the first branch. -/
theorem V_v16 (c : Dev nD) (j : Fin 16) (k : Fin 256) :
    (V m c main_v16 : S16x256.Idx → EReal) (ix2 j k) = (brLow m c).w1f j k := by
  show StableHlo.after hostOps0 (fun b => m (c, b)) (Proc.devRef .tc main_v16) (ix2 j k) = _
  after_results_simp
  refine (foldW_apply _ _ _ _ _ _ _ _).trans ?_
  rfl
/-- The folded first-layer bias of the first branch (a column). -/
theorem V_v19 (c : Dev nD) (j : Fin 16) :
    (V m c main_v19 : S16x1.Idx → EReal) (ix2 j 0) = (brLow m c).b1f j := by
  show StableHlo.after hostOps0 (fun b => m (c, b)) (Proc.devRef .tc main_v19) (ix2 j 0) = _
  after_results_simp
  refine (foldB_apply _ _ _ _ _ _ _ _).trans ?_
  rfl
theorem V_v22 (c : Dev nD) (k : Fin 256) (j : Fin 16) :
    (V m c main_v22 : S256x16.Idx → EReal) (ix2 k j) = (brLow m c).w2f k j := by
  show StableHlo.after hostOps0 (fun b => m (c, b)) (Proc.devRef .tc main_v22) (ix2 k j) = _
  after_results_simp
  refine (foldW_apply _ _ _ _ _ _ _ _).trans ?_
  rfl
theorem V_v25 (c : Dev nD) (k : Fin 256) :
    (V m c main_v25 : S256x1.Idx → EReal) (ix2 k 0) = (brLow m c).b2f k := by
  show StableHlo.after hostOps0 (fun b => m (c, b)) (Proc.devRef .tc main_v25) (ix2 k 0) = _
  after_results_simp
  refine (foldB_apply _ _ _ _ _ _ _ _).trans ?_
  rfl
theorem V_v40 (c : Dev nD) (j : Fin 16) (k : Fin 256) :
    (V m c main_v40 : S16x256.Idx → EReal) (ix2 j k) = (brHigh m c).w1f j k := by
  show StableHlo.after hostOps0 (fun b => m (c, b)) (Proc.devRef .tc main_v40) (ix2 j k) = _
  after_results_simp
  refine (foldW_apply _ _ _ _ _ _ _ _).trans ?_
  rfl
theorem V_v43 (c : Dev nD) (j : Fin 16) :
    (V m c main_v43 : S16x1.Idx → EReal) (ix2 j 0) = (brHigh m c).b1f j := by
  show StableHlo.after hostOps0 (fun b => m (c, b)) (Proc.devRef .tc main_v43) (ix2 j 0) = _
  after_results_simp
  refine (foldB_apply _ _ _ _ _ _ _ _).trans ?_
  rfl
theorem V_v46 (c : Dev nD) (k : Fin 256) (j : Fin 16) :
    (V m c main_v46 : S256x16.Idx → EReal) (ix2 k j) = (brHigh m c).w2f k j := by
  show StableHlo.after hostOps0 (fun b => m (c, b)) (Proc.devRef .tc main_v46) (ix2 k j) = _
  after_results_simp
  refine (foldW_apply _ _ _ _ _ _ _ _).trans ?_
  rfl
theorem V_v49 (c : Dev nD) (k : Fin 256) :
    (V m c main_v49 : S256x1.Idx → EReal) (ix2 k 0) = (brHigh m c).b2f k := by
  show StableHlo.after hostOps0 (fun b => m (c, b)) (Proc.devRef .tc main_v49) (ix2 k 0) = _
  after_results_simp
  refine (foldB_apply _ _ _ _ _ _ _ _).trans ?_
  rfl

end Cert.KernelIdeal.KV

end
-- ==== Proof.KBody.lean ====
/-
  What one grid point of the kernel leaves in its two output blocks, entry by entry, at the ideal values: the
  block's channel means, the two folded layers, the gate, and the combination with the block itself.
-/
import proofs.«121784_g2000609679484958_pallasbulk_1271_2_alg».proof.Proof.Gen.KernelIdeal.Frame
import proofs.«121784_g2000609679484958_pallasbulk_1271_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

/-- The channel vector one grid point computes from its blocks: the slab `x`, the folded weights and biases. -/
def lvBlk (x : Vec Ideal S1x256x4096 .f32) (w1 : Vec Ideal S16x256 .f32) (b1 : Vec Ideal S16x1 .f32)
    (w2 : Vec Ideal S256x16 .f32) (b2 : Vec Ideal S256x1 .f32) : Fin 256 → EReal :=
  Cert.Spec.vecF (fun j k => w1 (ix2 j k)) (fun j => b1 (ix2 j 0)) (fun k j => w2 (ix2 k j)) (fun k => b2 (ix2 k 0))
    (Cert.Spec.gapF fun k p => x (ix3 0 k p))

namespace Body

open scoped BigOperators

/-! ## Layout operations on columns, read at an entry -/

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The reductions, read at an entry -/

/-- The sum of a `[256, 4096]` array along its rows. -/
theorem rowSum_apply (X : FVec Ideal S256x4096 .f32) (k : Fin 256) :
    multiReduction .add [1] S256 X 0x00000000#32 reduces_S256x4096_S256 (.inl rfl) rfl (ix1 k) = ∑ p : Fin 4096, X (ix2 k p) := by
  refine (Ideal.multiReduction_add_single X 0x00000000#32 reduces_S256x4096_S256 (.inl rfl) rfl (ix1 k)).trans ?_
  refine Finset.sum_congr rfl fun p _ => congrArg X ?_
  funext c; apply Fin.ext
  match c with
  | ⟨0, _⟩ => rfl
  | ⟨1, _⟩ => rfl

/-- The sum of a column `[256, 1]` over its entries. -/
theorem colSum_apply (X : FVec Ideal S256x1 .f32) (u : Fin 1) :
    multiReduction .add [0] S1 X 0x00000000#32 reduces_S256x1_S1 (.inl rfl) rfl (ix1 u) = ∑ c : Fin 256, X (ix2 c (0 : Fin 1)) := by
  refine (Ideal.multiReduction_add_single X 0x00000000#32 reduces_S256x1_S1 (.inl rfl) rfl (ix1 u)).trans ?_
  refine Finset.sum_congr rfl fun p _ => congrArg X ?_
  funext c; apply Fin.ext
  match c with
  | ⟨0, _⟩ => rfl
  | ⟨1, _⟩ => show (u : ℕ) = 0; omega

/-- The running maximum of a column `[256, 1]` from -∞. -/
theorem colMax_apply (X : FVec Ideal S256x1 .f32) (u : Fin 1) :
    multiReduction .maximumf [0] S1 X 0xFF800000#32 reduces_S256x1_S1 (.inl rfl) rfl (ix1 u)
      = (Finset.univ : Finset (Fin 256)).fold max (Ideal.ofBits .f32 0xFF800000#32) (fun c => X (ix2 c (0 : Fin 1))) := by
  refine (Ideal.multiReduction_maximumf_single X 0xFF800000#32 reduces_S256x1_S1 (.inl rfl) rfl (ix1 u)).trans ?_
  refine congrArg (fun f => (Finset.univ : Finset (Fin 256)).fold max (Ideal.ofBits .f32 0xFF800000#32) f) ?_
  funext p
  refine congrArg X ?_
  funext c; apply Fin.ext
  match c with
  | ⟨0, _⟩ => rfl
  | ⟨1, _⟩ => show (u : ℕ) = 0; omega

end Body

namespace Body
open scoped BigOperators

/-! ## The two matrix–column products into the zero splat, read at an entry -/

theorem lhs1_0 (j : S16x1.Idx) (q : dot_S16x256_S256x1_S16x1_1_0_0_1_n_n.contr.Idx) :
    (dot_S16x256_S256x1_S16x1_1_0_0_1_n_n.lhsIdx j q 0 : ℕ) = (j 0 : ℕ) := by
  simp [DotDims.lhsIdx, dot_S16x256_S256x1_S16x1_1_0_0_1_n_n]; rfl

theorem lhs1_1 (j : S16x1.Idx) (q : dot_S16x256_S256x1_S16x1_1_0_0_1_n_n.contr.Idx) :
    (dot_S16x256_S256x1_S16x1_1_0_0_1_n_n.lhsIdx j q 1 : ℕ) = (q ⟨0, by decide⟩ : ℕ) :=
  DotDims.lhsIdx_val_of_single dot_S16x256_S256x1_S16x1_1_0_0_1_n_n (cl := 1) rfl j q

theorem rhs1_0 (j : S16x1.Idx) (q : dot_S16x256_S256x1_S16x1_1_0_0_1_n_n.contr.Idx) :
    (dot_S16x256_S256x1_S16x1_1_0_0_1_n_n.rhsIdx j q 0 : ℕ) = (q ⟨0, by decide⟩ : ℕ) :=
  DotDims.rhsIdx_val_of_single dot_S16x256_S256x1_S16x1_1_0_0_1_n_n (cr := 0) rfl j q

theorem rhs1_1 (j : S16x1.Idx) (q : dot_S16x256_S256x1_S16x1_1_0_0_1_n_n.contr.Idx) :
    (dot_S16x256_S256x1_S16x1_1_0_0_1_n_n.rhsIdx j q 1 : ℕ) = 0 := by
  have h : (dot_S16x256_S256x1_S16x1_1_0_0_1_n_n.rhsIdx j q 1 : ℕ) < 1 := (dot_S16x256_S256x1_S16x1_1_0_0_1_n_n.rhsIdx j q 1).isLt
  omega

/-- A `[16, 256]` matrix times a `[256, 1]` column, accumulated into zero: the sum over the contracted coordinate. -/
theorem matmul1_apply (A : FVec Ideal S16x256 .f32) (B : FVec Ideal S256x1 .f32) (j : Fin 16) (u : Fin 1) :
    matmul dot_S16x256_S256x1_S16x1_1_0_0_1_n_n none A B (constant (F := Ideal) S16x1 .f32 0x00000000#32) (ix2 j u)
      = ∑ c : Fin 256, A (ix2 j c) * B (ix2 c (0 : Fin 1)) := by
  refine (Ideal.matmul_constant_zero_apply dot_S16x256_S256x1_S16x1_1_0_0_1_n_n none A B (ix2 j u)).trans ?_
  rw [← Equiv.sum_comp (contrEquiv1 dot_S16x256_S256x1_S16x1_1_0_0_1_n_n 256 rfl rfl).symm]
  refine Finset.sum_congr rfl fun c _ => ?_
  have c2 := contrEquiv1_symm_val dot_S16x256_S256x1_S16x1_1_0_0_1_n_n 256 rfl rfl c
  have l2 : dot_S16x256_S256x1_S16x1_1_0_0_1_n_n.lhsIdx (ix2 j u) ((contrEquiv1 dot_S16x256_S256x1_S16x1_1_0_0_1_n_n 256 rfl rfl).symm c) = ix2 j c := by
    funext ax; apply Fin.ext
    match ax with
    | ⟨0, _⟩ => exact lhs1_0 _ _
    | ⟨1, _⟩ => exact (lhs1_1 _ _).trans c2
  have r2 : dot_S16x256_S256x1_S16x1_1_0_0_1_n_n.rhsIdx (ix2 j u) ((contrEquiv1 dot_S16x256_S256x1_S16x1_1_0_0_1_n_n 256 rfl rfl).symm c) = ix2 c (0 : Fin 1) := by
    funext ax; apply Fin.ext
    match ax with
    | ⟨0, _⟩ => exact (rhs1_0 _ _).trans c2
    | ⟨1, _⟩ => exact rhs1_1 _ _
  rw [l2, r2]

theorem lhs2_0 (j : S256x1.Idx) (q : dot_S256x16_S16x1_S256x1_1_0_0_1_n_n.contr.Idx) :
    (dot_S256x16_S16x1_S256x1_1_0_0_1_n_n.lhsIdx j q 0 : ℕ) = (j 0 : ℕ) := by
  simp [DotDims.lhsIdx, dot_S256x16_S16x1_S256x1_1_0_0_1_n_n]; rfl

theorem lhs2_1 (j : S256x1.Idx) (q : dot_S256x16_S16x1_S256x1_1_0_0_1_n_n.contr.Idx) :
    (dot_S256x16_S16x1_S256x1_1_0_0_1_n_n.lhsIdx j q 1 : ℕ) = (q ⟨0, by decide⟩ : ℕ) :=
  DotDims.lhsIdx_val_of_single dot_S256x16_S16x1_S256x1_1_0_0_1_n_n (cl := 1) rfl j q

theorem rhs2_0 (j : S256x1.Idx) (q : dot_S256x16_S16x1_S256x1_1_0_0_1_n_n.contr.Idx) :
    (dot_S256x16_S16x1_S256x1_1_0_0_1_n_n.rhsIdx j q 0 : ℕ) = (q ⟨0, by decide⟩ : ℕ) :=
  DotDims.rhsIdx_val_of_single dot_S256x16_S16x1_S256x1_1_0_0_1_n_n (cr := 0) rfl j q

theorem rhs2_1 (j : S256x1.Idx) (q : dot_S256x16_S16x1_S256x1_1_0_0_1_n_n.contr.Idx) :
    (dot_S256x16_S16x1_S256x1_1_0_0_1_n_n.rhsIdx j q 1 : ℕ) = 0 := by
  have h : (dot_S256x16_S16x1_S256x1_1_0_0_1_n_n.rhsIdx j q 1 : ℕ) < 1 := (dot_S256x16_S16x1_S256x1_1_0_0_1_n_n.rhsIdx j q 1).isLt
  omega

/-- A `[256, 16]` matrix times a `[16, 1]` column, accumulated into zero: the sum over the contracted coordinate. -/
theorem matmul2_apply (A : FVec Ideal S256x16 .f32) (B : FVec Ideal S16x1 .f32) (j : Fin 256) (u : Fin 1) :
    matmul dot_S256x16_S16x1_S256x1_1_0_0_1_n_n none A B (constant (F := Ideal) S256x1 .f32 0x00000000#32) (ix2 j u)
      = ∑ c : Fin 16, A (ix2 j c) * B (ix2 c (0 : Fin 1)) := by
  refine (Ideal.matmul_constant_zero_apply dot_S256x16_S16x1_S256x1_1_0_0_1_n_n none A B (ix2 j u)).trans ?_
  rw [← Equiv.sum_comp (contrEquiv1 dot_S256x16_S16x1_S256x1_1_0_0_1_n_n 16 rfl rfl).symm]
  refine Finset.sum_congr rfl fun c _ => ?_
  have c2 := contrEquiv1_symm_val dot_S256x16_S16x1_S256x1_1_0_0_1_n_n 16 rfl rfl c
  have l2 : dot_S256x16_S16x1_S256x1_1_0_0_1_n_n.lhsIdx (ix2 j u) ((contrEquiv1 dot_S256x16_S16x1_S256x1_1_0_0_1_n_n 16 rfl rfl).symm c) = ix2 j c := by
    funext ax; apply Fin.ext
    match ax with
    | ⟨0, _⟩ => exact lhs2_0 _ _
    | ⟨1, _⟩ => exact (lhs2_1 _ _).trans c2
  have r2 : dot_S256x16_S16x1_S256x1_1_0_0_1_n_n.rhsIdx (ix2 j u) ((contrEquiv1 dot_S256x16_S16x1_S256x1_1_0_0_1_n_n 16 rfl rfl).symm c) = ix2 c (0 : Fin 1) := by
    funext ax; apply Fin.ext
    match ax with
    | ⟨0, _⟩ => exact (rhs2_0 _ _).trans c2
    | ⟨1, _⟩ => exact rhs2_1 _ _
  rw [l2, r2]

end Body

namespace Body
open scoped BigOperators

/-! ## The body's stages, named, and the payloads as their compositions -/

/-- The channel means as a column: the row sums times the reciprocal of a row's length. -/
def gapCol (X : FVec Ideal S256x4096 .f32) : FVec Ideal S256x1 .f32 :=
  mulf (shapeCast S256x1 (multiReduction .add [1] S256 X 0x00000000#32 reduces_S256x4096_S256 (.inl rfl) rfl) shapeCasts_S256_S256x1)
    (broadcast S256x1 (Scalar.ofBits (F := Ideal) .f32 0x39800000#32))

/-- The first layer before its rectifier: weight times column plus bias. -/
def preCol (g : FVec Ideal S256x1 .f32) (w1 : FVec Ideal S16x256 .f32) (b1 : FVec Ideal S16x1 .f32) : FVec Ideal S16x1 .f32 :=
  addf (matmul dot_S16x256_S256x1_S16x1_1_0_0_1_n_n none (shapeCast S16x256 w1 shapeCasts_S16x256_S16x256) g
      (constant (F := Ideal) S16x1 .f32 0x00000000#32))
    (shapeCast S16x1 b1 shapeCasts_S16x1_S16x1)

/-- The rectifier against a scalar. -/
def hidCol (p : FVec Ideal S16x1 .f32) (z : Ideal .f32) : FVec Ideal S16x1 .f32 := maximumf p (broadcast S16x1 z)

/-- The second layer: weight times hidden column plus bias. -/
def vecCol (h : FVec Ideal S16x1 .f32) (w2 : FVec Ideal S256x16 .f32) (b2 : FVec Ideal S256x1 .f32) : FVec Ideal S256x1 .f32 :=
  addf (matmul dot_S256x16_S16x1_S256x1_1_0_0_1_n_n none (shapeCast S256x16 w2 shapeCasts_S256x16_S256x16) h
      (constant (F := Ideal) S256x1 .f32 0x00000000#32))
    (shapeCast S256x1 b2 shapeCasts_S256x1_S256x1)

/-- The exponentials of a column less its running maximum. -/
def expCol (v : FVec Ideal S256x1 .f32) : FVec Ideal S256x1 .f32 :=
  exp (subf v (broadcastTo S256x1
    (shapeCast S1x1 (multiReduction .maximumf [0] S1 v 0xFF800000#32 reduces_S256x1_S1 (.inl rfl) rfl) shapeCasts_S1_S1x1)
    broadcasts_S1x1_S256x1))

/-- The gate: the exponentials over their sum, plus one. -/
def gateCol (v : FVec Ideal S256x1 .f32) : FVec Ideal S256x1 .f32 :=
  addf (divf (expCol v) (broadcastTo S256x1
      (shapeCast S1x1 (multiReduction .add [0] S1 (expCol v) 0x00000000#32 reduces_S256x1_S1 (.inl rfl) rfl) shapeCasts_S1_S1x1)
      broadcasts_S1x1_S256x1))
    (broadcast S256x1 (Scalar.ofBits (F := Ideal) .f32 0x3F800000#32))

theorem pay2_eq (x : Vec Ideal S1x256x4096 .f32) : k0_pay2 (F := Ideal) x = k0_pay1 (F := Ideal) x := rfl

theorem pay3_eq (x0 : Vec Ideal S1x256x4096 .f32) (w1 : Vec Ideal S16x256 .f32) (b1 : Vec Ideal S16x1 .f32)
    (w2 : Vec Ideal S256x16 .f32) (b2 : Vec Ideal S256x1 .f32) :
    k0_pay3 (F := Ideal) x0 w1 b1 w2 b2
      = vecCol (hidCol (preCol (gapCol (k0_pay1 (F := Ideal) x0)) w1 b1) (Scalar.ofBits (F := Ideal) .f32 0x00000000#32)) w2 b2 := rfl

theorem pay4_eq (x : Vec Ideal S1x256x4096 .f32) (w1 : Vec Ideal S16x256 .f32) (b1 : Vec Ideal S16x1 .f32) :
    k0_pay4 (F := Ideal) x w1 b1 = preCol (gapCol (k0_pay1 (F := Ideal) x)) w1 b1 := rfl

theorem pay5_eq (v1 : FVec Ideal S256x4096 .f32) (v25 : FVec Ideal S256x1 .f32) :
    k0_pay5 (F := Ideal) v1 v25
      = shapeCast S1x256x4096 (addf (mulf v1 (broadcastTo S256x4096 (gateCol v25) broadcasts_S256x1_S256x4096))
          (broadcastTo S256x4096 v25 broadcasts_S256x1_S256x4096)) shapeCasts_S256x4096_S1x256x4096 := rfl

theorem pay6_eq (v3 : FVec Ideal S256x4096 .f32) (v31 : FVec Ideal S16x1 .f32) (z : Ideal .f32)
    (w2 : Vec Ideal S256x16 .f32) (b2 : Vec Ideal S256x1 .f32) :
    k0_pay6 (F := Ideal) v3 v31 z w2 b2
      = shapeCast S1x256x4096 (mulf v3 (broadcastTo S256x4096 (gateCol (vecCol (hidCol v31 z) w2 b2)) broadcasts_S256x1_S256x4096))
          shapeCasts_S256x4096_S1x256x4096 := rfl

end Body

namespace Body
open scoped BigOperators

/-! ## Each stage read at an entry -/

/-- The slab with its unit axis dropped, at an entry. -/
theorem pay1_apply (x : Vec Ideal S1x256x4096 .f32) (k : Fin 256) (p : Fin 4096) :
    k0_pay1 (F := Ideal) x (ix2 k p) = x (ix3 (0 : Fin 1) k p) :=
  shapeCast_1ab_ab_apply x shapeCasts_S1x256x4096_S256x4096 k p

theorem gapCol_apply (X : FVec Ideal S256x4096 .f32) (k : Fin 256) (u : Fin 1) :
    gapCol X (ix2 k u) = (∑ p : Fin 4096, X (ix2 k p)) * Cert.Spec.invHW := by
  unfold gapCol
  rw [mulf_apply, broadcast_apply, shapeCast_a_a1_apply, rowSum_apply]
  rfl

theorem preCol_apply (g : FVec Ideal S256x1 .f32) (w1 : FVec Ideal S16x256 .f32) (b1 : FVec Ideal S16x1 .f32) (j : Fin 16) (u : Fin 1) :
    preCol g w1 b1 (ix2 j u) = (∑ c : Fin 256, w1 (ix2 j c) * g (ix2 c (0 : Fin 1))) + b1 (ix2 j u) := by
  unfold preCol
  rw [addf_apply, matmul1_apply, shapeCast_self, shapeCast_self]

theorem hidCol_apply (p : FVec Ideal S16x1 .f32) (z : Ideal .f32) (j : Fin 16) (u : Fin 1) :
    hidCol p z (ix2 j u) = max (p (ix2 j u)) z := rfl

theorem vecCol_apply (h : FVec Ideal S16x1 .f32) (w2 : FVec Ideal S256x16 .f32) (b2 : FVec Ideal S256x1 .f32) (k : Fin 256) (u : Fin 1) :
    vecCol h w2 b2 (ix2 k u) = (∑ j : Fin 16, w2 (ix2 k j) * h (ix2 j (0 : Fin 1))) + b2 (ix2 k u) := by
  unfold vecCol
  rw [addf_apply, matmul2_apply, shapeCast_self, shapeCast_self]

theorem expCol_apply (v : FVec Ideal S256x1 .f32) (k : Fin 256) (u : Fin 1) :
    expCol v (ix2 k u)
      = Ideal.exp (v (ix2 k u) - (Finset.univ : Finset (Fin 256)).fold max (Ideal.ofBits .f32 0xFF800000#32) (fun c => v (ix2 c (0 : Fin 1)))) := by
  unfold expCol
  show Ideal.exp (subf v _ (ix2 k u)) = _
  rw [subf_apply, broadcastTo_1b_ab_apply, shapeCast_a_a1_apply, colMax_apply]

theorem gateCol_apply (v : FVec Ideal S256x1 .f32) (k : Fin 256) (u : Fin 1) :
    gateCol v (ix2 k u)
      = Ideal.div (expCol v (ix2 k u)) (∑ c : Fin 256, expCol v (ix2 c (0 : Fin 1))) + Cert.Spec.one := by
  unfold gateCol
  rw [addf_apply, divf_apply, broadcast_apply, broadcastTo_1b_ab_apply, shapeCast_a_a1_apply, colSum_apply]
  rfl

end Body

namespace Body
open scoped BigOperators

/-! ## The stages against the specification -/

/-- The channel means of the slab. -/
theorem gap_eq (x : Vec Ideal S1x256x4096 .f32) (c : Fin 256) :
    gapCol (k0_pay1 (F := Ideal) x) (ix2 c (0 : Fin 1)) = Cert.Spec.gapF (fun k p => x (ix3 (0 : Fin 1) k p)) c := by
  rw [gapCol_apply]
  unfold Cert.Spec.gapF
  exact congrArg (· * Cert.Spec.invHW) (Finset.sum_congr rfl fun p _ => pay1_apply x c p)

/-- The hidden layer. -/
theorem hid_eq (x : Vec Ideal S1x256x4096 .f32) (w1 : FVec Ideal S16x256 .f32) (b1 : FVec Ideal S16x1 .f32) (j : Fin 16) :
    hidCol (preCol (gapCol (k0_pay1 (F := Ideal) x)) w1 b1) (Scalar.ofBits (F := Ideal) .f32 0x00000000#32) (ix2 j (0 : Fin 1))
      = Cert.Spec.hidF (fun j k => w1 (ix2 j k)) (fun j => b1 (ix2 j (0 : Fin 1)))
          (Cert.Spec.gapF fun k p => x (ix3 (0 : Fin 1) k p)) j := by
  rw [hidCol_apply, preCol_apply]
  unfold Cert.Spec.hidF
  refine congrArg (fun t => max (t + b1 (ix2 j (0 : Fin 1))) Cert.Spec.z0) (Finset.sum_congr rfl fun c _ => ?_)
  rw [gap_eq]

/-- The channel vector. -/
theorem lv_eq (x : Vec Ideal S1x256x4096 .f32) (w1 : FVec Ideal S16x256 .f32) (b1 : FVec Ideal S16x1 .f32)
    (w2 : FVec Ideal S256x16 .f32) (b2 : FVec Ideal S256x1 .f32) (k : Fin 256) :
    vecCol (hidCol (preCol (gapCol (k0_pay1 (F := Ideal) x)) w1 b1) (Scalar.ofBits (F := Ideal) .f32 0x00000000#32)) w2 b2
        (ix2 k (0 : Fin 1))
      = lvBlk x w1 b1 w2 b2 k := by
  rw [vecCol_apply]
  unfold lvBlk Cert.Spec.vecF
  refine congrArg (· + b2 (ix2 k (0 : Fin 1))) (Finset.sum_congr rfl fun j _ => ?_)
  rw [hid_eq]

/-- The gate of a column. -/
theorem gate_eq (v : FVec Ideal S256x1 .f32) (k : Fin 256) :
    gateCol v (ix2 k (0 : Fin 1)) = Cert.Spec.attF (fun c => v (ix2 c (0 : Fin 1))) k := by
  rw [gateCol_apply]
  simp only [expCol_apply]
  rfl

/-! ## The two stored payloads at an entry -/

theorem pay5_apply (v1 : FVec Ideal S256x4096 .f32) (v25 : FVec Ideal S256x1 .f32) (k : Fin 256) (p : Fin 4096) :
    k0_pay5 (F := Ideal) v1 v25 (ix3 (0 : Fin 1) k p)
      = v1 (ix2 k p) * Cert.Spec.attF (fun c => v25 (ix2 c (0 : Fin 1))) k + v25 (ix2 k (0 : Fin 1)) := by
  rw [pay5_eq, shapeCast_ab_1ab_apply, addf_apply, mulf_apply, broadcastTo_a1_ab_apply, broadcastTo_a1_ab_apply, gate_eq]

theorem pay6_apply (v3 : FVec Ideal S256x4096 .f32) (v31 : FVec Ideal S16x1 .f32) (z : Ideal .f32)
    (w2 : FVec Ideal S256x16 .f32) (b2 : FVec Ideal S256x1 .f32) (k : Fin 256) (p : Fin 4096) :
    k0_pay6 (F := Ideal) v3 v31 z w2 b2 (ix3 (0 : Fin 1) k p)
      = v3 (ix2 k p) * Cert.Spec.attF (fun c => vecCol (hidCol v31 z) w2 b2 (ix2 c (0 : Fin 1))) k := by
  rw [pay6_eq, shapeCast_ab_1ab_apply, mulf_apply, broadcastTo_a1_ab_apply, gate_eq]

/-! ## The blocks' loads and the one covering store -/

theorem hz3 : (![0, 0, 0] : Fin 3 → Nat) = fun _ => 0 :=
  funext fun a => match a with | ⟨0, _⟩ => rfl | ⟨1, _⟩ => rfl | ⟨2, _⟩ => rfl
theorem hz2 : (![0, 0] : Fin 2 → Nat) = fun _ => 0 :=
  funext fun a => match a with | ⟨0, _⟩ => rfl | ⟨1, _⟩ => rfl

theorem out10_eq (x0 x1 : Vec Ideal S1x256x4096 .f32) (x2 : Vec Ideal S16x256 .f32) (x3 : Vec Ideal S16x1 .f32)
    (x4 : Vec Ideal S256x16 .f32) (x5 : Vec Ideal S256x1 .f32) (x6 : Vec Ideal S16x256 .f32) (x7 : Vec Ideal S16x1 .f32)
    (x8 : Vec Ideal S256x16 .f32) (x9 : Vec Ideal S256x1 .f32) :
    out0_10 (F := Ideal) x0 x1 x2 x3 x4 x5 x6 x7 x8 x9
      = k0_pay5 (F := Ideal) (k0_pay1 (F := Ideal) x0) (k0_pay3 (F := Ideal) x0 x2 x3 x4 x5) := by
  unfold out0_10
  rw [View.canon_unit_zero hz3]
  simp only [View.ld_unit_zero (S := S1x256x4096) hz3, View.ld_unit_zero (S := S16x256) hz2,
    View.ld_unit_zero (S := S16x1) hz2, View.ld_unit_zero (S := S256x16) hz2, View.ld_unit_zero (S := S256x1) hz2]

theorem out11_eq (x0 x1 : Vec Ideal S1x256x4096 .f32) (x2 : Vec Ideal S16x256 .f32) (x3 : Vec Ideal S16x1 .f32)
    (x4 : Vec Ideal S256x16 .f32) (x5 : Vec Ideal S256x1 .f32) (x6 : Vec Ideal S16x256 .f32) (x7 : Vec Ideal S16x1 .f32)
    (x8 : Vec Ideal S256x16 .f32) (x9 : Vec Ideal S256x1 .f32) :
    out0_11 (F := Ideal) x0 x1 x2 x3 x4 x5 x6 x7 x8 x9
      = k0_pay6 (F := Ideal) (k0_pay1 (F := Ideal) x1) (preCol (gapCol (k0_pay1 (F := Ideal) x1)) x6 x7)
          (Scalar.ofBits (F := Ideal) .f32 0x00000000#32) x8 x9 := by
  unfold out0_11
  rw [View.canon_unit_zero hz3]
  simp only [View.ld_unit_zero (S := S1x256x4096) hz3, View.ld_unit_zero (S := S16x256) hz2,
    View.ld_unit_zero (S := S16x1) hz2, View.ld_unit_zero (S := S256x16) hz2, View.ld_unit_zero (S := S256x1) hz2]
  rfl

end Body

/-- The first output block at channel `k`, position `p`: the slab's entry times the gate plus the channel vector. -/
theorem out10_apply (x0 x1 : Vec Ideal S1x256x4096 .f32) (x2 : Vec Ideal S16x256 .f32) (x3 : Vec Ideal S16x1 .f32)
    (x4 : Vec Ideal S256x16 .f32) (x5 : Vec Ideal S256x1 .f32) (x6 : Vec Ideal S16x256 .f32) (x7 : Vec Ideal S16x1 .f32)
    (x8 : Vec Ideal S256x16 .f32) (x9 : Vec Ideal S256x1 .f32) (k : Fin 256) (p : Fin 4096) :
    out0_10 (F := Ideal) x0 x1 x2 x3 x4 x5 x6 x7 x8 x9 (ix3 0 k p)
      = x0 (ix3 0 k p) * Cert.Spec.attF (lvBlk x0 x2 x3 x4 x5) k + lvBlk x0 x2 x3 x4 x5 k := by
  rw [Body.out10_eq, Body.pay5_apply, Body.pay1_apply, Body.pay3_eq]
  simp only [Body.lv_eq]

/-- The second output block: the slab's entry times the gate. -/
theorem out11_apply (x0 x1 : Vec Ideal S1x256x4096 .f32) (x2 : Vec Ideal S16x256 .f32) (x3 : Vec Ideal S16x1 .f32)
    (x4 : Vec Ideal S256x16 .f32) (x5 : Vec Ideal S256x1 .f32) (x6 : Vec Ideal S16x256 .f32) (x7 : Vec Ideal S16x1 .f32)
    (x8 : Vec Ideal S256x16 .f32) (x9 : Vec Ideal S256x1 .f32) (k : Fin 256) (p : Fin 4096) :
    out0_11 (F := Ideal) x0 x1 x2 x3 x4 x5 x6 x7 x8 x9 (ix3 0 k p)
      = x1 (ix3 0 k p) * Cert.Spec.attF (lvBlk x1 x6 x7 x8 x9) k := by
  rw [Body.out11_eq, Body.pay6_apply, Body.pay1_apply]
  simp only [Body.lv_eq]

end Cert.KernelIdeal.KV

end
-- ==== Proof.KFinal.lean ====
/-
  The kernel program's two results as whole arrays: every grid point writes its batch element's slab, the slabs
  tile the output, and the host lines after the region only bring the flattened arrays back to height × width.
-/
import proofs.«121784_g2000609679484958_pallasbulk_1271_2_alg».proof.Proof.KHost
import proofs.«121784_g2000609679484958_pallasbulk_1271_2_alg».proof.Proof.KBody
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Final

/-! ## The index maps over the grid -/

/-- The grid has 32 points. -/
theorem points : cfg0.N = 32 := N_0

/-- The two inputs and the two outputs move with the grid: point `t`'s block is batch element `t`'s slab, at block index
    `(t, 0, 0)` (decided over the 32 points). -/
theorem idx_slab : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- The eight parameter windows stay put: every point's block is the whole array, at block index `(0, 0)`. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## The input blocks of a grid point, read off the arrays the region finds -/

/-- The ten input blocks at point `t`, each at its literal shape. -/
abbrev xb0 (c : Dev nD) (t : Fin cfg0.N) : Vec Ideal S1x256x4096 .f32 := iblk m c 0 t
abbrev xb1 (c : Dev nD) (t : Fin cfg0.N) : Vec Ideal S1x256x4096 .f32 := iblk m c 1 t
abbrev wb2 (c : Dev nD) (t : Fin cfg0.N) : Vec Ideal S16x256 .f32 := iblk m c 2 t
abbrev wb3 (c : Dev nD) (t : Fin cfg0.N) : Vec Ideal S16x1 .f32 := iblk m c 3 t
abbrev wb4 (c : Dev nD) (t : Fin cfg0.N) : Vec Ideal S256x16 .f32 := iblk m c 4 t
abbrev wb5 (c : Dev nD) (t : Fin cfg0.N) : Vec Ideal S256x1 .f32 := iblk m c 5 t
abbrev wb6 (c : Dev nD) (t : Fin cfg0.N) : Vec Ideal S16x256 .f32 := iblk m c 6 t
abbrev wb7 (c : Dev nD) (t : Fin cfg0.N) : Vec Ideal S16x1 .f32 := iblk m c 7 t
abbrev wb8 (c : Dev nD) (t : Fin cfg0.N) : Vec Ideal S256x16 .f32 := iblk m c 8 t
abbrev wb9 (c : Dev nD) (t : Fin cfg0.N) : Vec Ideal S256x1 .f32 := iblk m c 9 t

/-- Window 0's block at point `t` is batch element `t`'s slab of the first input, flattened. -/
theorem xb0_apply (c : Dev nD) (t : Fin cfg0.N) (n : Fin 32) (hn : n.val = t.val) (k : Fin 256) (p : Fin 4096) :
    xb0 m c t (ix3 0 k p) = lowIn m c (ix3 n k p) := by
  obtain ⟨e0, e1, e2, -⟩ := idx_slab t
  rw [← V_v0 m c]
  show V m c main_v0 (((cfg0.win 0).blk t).view.emb (ix3 0 k p)) = V m c main_v0 (ix3 n k p)
  refine congrArg (V m c main_v0) (funext fun a => Fin.ext ?_)
  match a with
  | ⟨0, _⟩ => show win0_0.index t (0 : Fin 3) * 1 + 1 * 0 = n.val; omega
  | ⟨1, _⟩ => show win0_0.index t (1 : Fin 3) * 256 + 1 * k.val = k.val; omega
  | ⟨2, _⟩ => show win0_0.index t (2 : Fin 3) * 4096 + 1 * p.val = p.val; omega

/-- Window 1's block at point `t` is batch element `t`'s slab of the second input, flattened. -/
theorem xb1_apply (c : Dev nD) (t : Fin cfg0.N) (n : Fin 32) (hn : n.val = t.val) (k : Fin 256) (p : Fin 4096) :
    xb1 m c t (ix3 0 k p) = highIn m c (ix3 n k p) := by
  obtain ⟨-, -, -, e0, e1, e2, -⟩ := idx_slab t
  rw [← V_v1 m c]
  show V m c main_v1 (((cfg0.win 1).blk t).view.emb (ix3 0 k p)) = V m c main_v1 (ix3 n k p)
  refine congrArg (V m c main_v1) (funext fun a => Fin.ext ?_)
  match a with
  | ⟨0, _⟩ => show win0_1.index t (0 : Fin 3) * 1 + 1 * 0 = n.val; omega
  | ⟨1, _⟩ => show win0_1.index t (1 : Fin 3) * 256 + 1 * k.val = k.val; omega
  | ⟨2, _⟩ => show win0_1.index t (2 : Fin 3) * 4096 + 1 * p.val = p.val; omega

/-! A parameter window's block at any point is its whole array: an entry of the block sits, on each axis, at
    block index × size + its own coordinate, and the block index is zero. -/

theorem wb2_eq (c : Dev nD) (t : Fin cfg0.N) : wb2 m c t = (V m c main_v16 : S16x256.Idx → EReal) := by
  obtain ⟨e2_0, e2_1, e3_0, e3_1, e4_0, e4_1, e5_0, e5_1, e6_0, e6_1, e7_0, e7_1, e8_0, e8_1, e9_0, e9_1⟩ := idx_whole t
  funext y
  show V m c main_v16 (((cfg0.win 2).blk t).view.emb y) = V m c main_v16 y
  refine congrArg (V m c main_v16) (funext fun a => Fin.ext ?_)
  match a with
  | ⟨0, _⟩ => show win0_2.index t (0 : Fin 2) * 16 + 1 * (y 0).val = (y 0).val; omega
  | ⟨1, _⟩ => show win0_2.index t (1 : Fin 2) * 256 + 1 * (y 1).val = (y 1).val; omega

theorem wb3_eq (c : Dev nD) (t : Fin cfg0.N) : wb3 m c t = (V m c main_v19 : S16x1.Idx → EReal) := by
  obtain ⟨e2_0, e2_1, e3_0, e3_1, e4_0, e4_1, e5_0, e5_1, e6_0, e6_1, e7_0, e7_1, e8_0, e8_1, e9_0, e9_1⟩ := idx_whole t
  funext y
  show V m c main_v19 (((cfg0.win 3).blk t).view.emb y) = V m c main_v19 y
  refine congrArg (V m c main_v19) (funext fun a => Fin.ext ?_)
  match a with
  | ⟨0, _⟩ => show win0_3.index t (0 : Fin 2) * 16 + 1 * (y 0).val = (y 0).val; omega
  | ⟨1, _⟩ => show win0_3.index t (1 : Fin 2) * 1 + 1 * (y 1).val = (y 1).val; omega

theorem wb4_eq (c : Dev nD) (t : Fin cfg0.N) : wb4 m c t = (V m c main_v22 : S256x16.Idx → EReal) := by
  obtain ⟨e2_0, e2_1, e3_0, e3_1, e4_0, e4_1, e5_0, e5_1, e6_0, e6_1, e7_0, e7_1, e8_0, e8_1, e9_0, e9_1⟩ := idx_whole t
  funext y
  show V m c main_v22 (((cfg0.win 4).blk t).view.emb y) = V m c main_v22 y
  refine congrArg (V m c main_v22) (funext fun a => Fin.ext ?_)
  match a with
  | ⟨0, _⟩ => show win0_4.index t (0 : Fin 2) * 256 + 1 * (y 0).val = (y 0).val; omega
  | ⟨1, _⟩ => show win0_4.index t (1 : Fin 2) * 16 + 1 * (y 1).val = (y 1).val; omega

theorem wb5_eq (c : Dev nD) (t : Fin cfg0.N) : wb5 m c t = (V m c main_v25 : S256x1.Idx → EReal) := by
  obtain ⟨e2_0, e2_1, e3_0, e3_1, e4_0, e4_1, e5_0, e5_1, e6_0, e6_1, e7_0, e7_1, e8_0, e8_1, e9_0, e9_1⟩ := idx_whole t
  funext y
  show V m c main_v25 (((cfg0.win 5).blk t).view.emb y) = V m c main_v25 y
  refine congrArg (V m c main_v25) (funext fun a => Fin.ext ?_)
  match a with
  | ⟨0, _⟩ => show win0_5.index t (0 : Fin 2) * 256 + 1 * (y 0).val = (y 0).val; omega
  | ⟨1, _⟩ => show win0_5.index t (1 : Fin 2) * 1 + 1 * (y 1).val = (y 1).val; omega

theorem wb6_eq (c : Dev nD) (t : Fin cfg0.N) : wb6 m c t = (V m c main_v40 : S16x256.Idx → EReal) := by
  obtain ⟨e2_0, e2_1, e3_0, e3_1, e4_0, e4_1, e5_0, e5_1, e6_0, e6_1, e7_0, e7_1, e8_0, e8_1, e9_0, e9_1⟩ := idx_whole t
  funext y
  show V m c main_v40 (((cfg0.win 6).blk t).view.emb y) = V m c main_v40 y
  refine congrArg (V m c main_v40) (funext fun a => Fin.ext ?_)
  match a with
  | ⟨0, _⟩ => show win0_6.index t (0 : Fin 2) * 16 + 1 * (y 0).val = (y 0).val; omega
  | ⟨1, _⟩ => show win0_6.index t (1 : Fin 2) * 256 + 1 * (y 1).val = (y 1).val; omega

theorem wb7_eq (c : Dev nD) (t : Fin cfg0.N) : wb7 m c t = (V m c main_v43 : S16x1.Idx → EReal) := by
  obtain ⟨e2_0, e2_1, e3_0, e3_1, e4_0, e4_1, e5_0, e5_1, e6_0, e6_1, e7_0, e7_1, e8_0, e8_1, e9_0, e9_1⟩ := idx_whole t
  funext y
  show V m c main_v43 (((cfg0.win 7).blk t).view.emb y) = V m c main_v43 y
  refine congrArg (V m c main_v43) (funext fun a => Fin.ext ?_)
  match a with
  | ⟨0, _⟩ => show win0_7.index t (0 : Fin 2) * 16 + 1 * (y 0).val = (y 0).val; omega
  | ⟨1, _⟩ => show win0_7.index t (1 : Fin 2) * 1 + 1 * (y 1).val = (y 1).val; omega

theorem wb8_eq (c : Dev nD) (t : Fin cfg0.N) : wb8 m c t = (V m c main_v46 : S256x16.Idx → EReal) := by
  obtain ⟨e2_0, e2_1, e3_0, e3_1, e4_0, e4_1, e5_0, e5_1, e6_0, e6_1, e7_0, e7_1, e8_0, e8_1, e9_0, e9_1⟩ := idx_whole t
  funext y
  show V m c main_v46 (((cfg0.win 8).blk t).view.emb y) = V m c main_v46 y
  refine congrArg (V m c main_v46) (funext fun a => Fin.ext ?_)
  match a with
  | ⟨0, _⟩ => show win0_8.index t (0 : Fin 2) * 256 + 1 * (y 0).val = (y 0).val; omega
  | ⟨1, _⟩ => show win0_8.index t (1 : Fin 2) * 16 + 1 * (y 1).val = (y 1).val; omega

theorem wb9_eq (c : Dev nD) (t : Fin cfg0.N) : wb9 m c t = (V m c main_v49 : S256x1.Idx → EReal) := by
  obtain ⟨e2_0, e2_1, e3_0, e3_1, e4_0, e4_1, e5_0, e5_1, e6_0, e6_1, e7_0, e7_1, e8_0, e8_1, e9_0, e9_1⟩ := idx_whole t
  funext y
  show V m c main_v49 (((cfg0.win 9).blk t).view.emb y) = V m c main_v49 y
  refine congrArg (V m c main_v49) (funext fun a => Fin.ext ?_)
  match a with
  | ⟨0, _⟩ => show win0_9.index t (0 : Fin 2) * 256 + 1 * (y 0).val = (y 0).val; omega
  | ⟨1, _⟩ => show win0_9.index t (1 : Fin 2) * 1 + 1 * (y 1).val = (y 1).val; omega

/-! ## The channel vector of a grid point

The vector a point computes from its blocks is the specification's folded channel vector of the point's batch element:
the parameter blocks are the folded weights and biases, the slab block is that element's slab. -/

theorem lv_low (c : Dev nD) (t : Fin cfg0.N) (n : Fin 32) (hn : n.val = t.val) :
    lvBlk (xb0 m c t) (wb2 m c t) (wb3 m c t) (wb4 m c t) (wb5 m c t)
      = Cert.Spec.lvF (brLow m c) (Cert.Spec.gapF (Cert.Spec.slab (lowIn m c) n)) := by
  unfold lvBlk Cert.Spec.lvF
  rw [wb2_eq, wb3_eq, wb4_eq, wb5_eq]
  have e1 : (fun j k => (V m c main_v16 : S16x256.Idx → EReal) (ix2 j k)) = (brLow m c).w1f :=
    funext fun j => funext fun k => V_v16 m c j k
  have e2 : (fun j => (V m c main_v19 : S16x1.Idx → EReal) (ix2 j 0)) = (brLow m c).b1f :=
    funext fun j => V_v19 m c j
  have e3 : (fun k j => (V m c main_v22 : S256x16.Idx → EReal) (ix2 k j)) = (brLow m c).w2f :=
    funext fun k => funext fun j => V_v22 m c k j
  have e4 : (fun k => (V m c main_v25 : S256x1.Idx → EReal) (ix2 k 0)) = (brLow m c).b2f :=
    funext fun k => V_v25 m c k
  have e5 : (fun k p => xb0 m c t (ix3 0 k p)) = Cert.Spec.slab (lowIn m c) n :=
    funext fun k => funext fun p => xb0_apply m c t n hn k p
  rw [e1, e2, e3, e4, e5]

theorem lv_high (c : Dev nD) (t : Fin cfg0.N) (n : Fin 32) (hn : n.val = t.val) :
    lvBlk (xb1 m c t) (wb6 m c t) (wb7 m c t) (wb8 m c t) (wb9 m c t)
      = Cert.Spec.lvF (brHigh m c) (Cert.Spec.gapF (Cert.Spec.slab (highIn m c) n)) := by
  unfold lvBlk Cert.Spec.lvF
  rw [wb6_eq, wb7_eq, wb8_eq, wb9_eq]
  have e1 : (fun j k => (V m c main_v40 : S16x256.Idx → EReal) (ix2 j k)) = (brHigh m c).w1f :=
    funext fun j => funext fun k => V_v40 m c j k
  have e2 : (fun j => (V m c main_v43 : S16x1.Idx → EReal) (ix2 j 0)) = (brHigh m c).b1f :=
    funext fun j => V_v43 m c j
  have e3 : (fun k j => (V m c main_v46 : S256x16.Idx → EReal) (ix2 k j)) = (brHigh m c).w2f :=
    funext fun k => funext fun j => V_v46 m c k j
  have e4 : (fun k => (V m c main_v49 : S256x1.Idx → EReal) (ix2 k 0)) = (brHigh m c).b2f :=
    funext fun k => V_v49 m c k
  have e5 : (fun k p => xb1 m c t (ix3 0 k p)) = Cert.Spec.slab (highIn m c) n :=
    funext fun k => funext fun p => xb1_apply m c t n hn k p
  rw [e1, e2, e3, e4, e5]

/-! ## What each point writes back, and the cover -/

/-- Output window 10's block of a grid point, entry by entry: the specification's first output at the point's batch
    element. -/
theorem blk10_entry (c : Dev nD) (t : Fin cfg0.N) (n : Fin 32) (hn : n.val = t.val) (k : Fin 256) (p : Fin 4096) :
    out0_10 (F := Ideal) (xb0 m c t) (xb1 m c t) (wb2 m c t) (wb3 m c t) (wb4 m c t) (wb5 m c t) (wb6 m c t) (wb7 m c t)
        (wb8 m c t) (wb9 m c t) (ix3 0 k p)
      = Cert.Spec.outLowF (brLow m c) (lowIn m c) n k p := by
  rw [out10_apply, lv_low m c t n hn, xb0_apply m c t n hn]
  rfl

/-- The same at any index of the block: the specification's output array at the array index under it (batch coordinate
    the point's, channel and position the block's). -/
theorem blk10_at (c : Dev nD) (t : Fin cfg0.N) (j : S1x256x4096.Idx) :
    out0_10 (F := Ideal) (xb0 m c t) (xb1 m c t) (wb2 m c t) (wb3 m c t) (wb4 m c t) (wb5 m c t) (wb6 m c t) (wb7 m c t)
        (wb8 m c t) (wb9 m c t) j
      = Cert.Spec.GlowF (brLow m c) (lowIn m c) (((cfg0.win 10).blk t).view.emb j) := by
  obtain ⟨a, k, p, rfl⟩ : ∃ (a : Fin 1) (k : Fin 256) (p : Fin 4096), j = ix3 a k p := ⟨j 0, j 1, j 2, eq_ix3 j⟩
  obtain rfl : a = 0 := Subsingleton.elim _ _
  have hN : t.val < 32 := points ▸ t.isLt
  obtain ⟨-, -, -, -, -, -, e0, e1, e2, -⟩ := idx_slab t
  have h0 : ((cfg0.win 10).blk t).view.emb (ix3 0 k p) = (ix3 ⟨t.val, hN⟩ k p : S32x256x4096.Idx) :=
    funext fun a => Fin.ext (by
      match a with
      | ⟨0, _⟩ => show win0_10.index t (0 : Fin 3) * 1 + 1 * 0 = t.val; omega
      | ⟨1, _⟩ => show win0_10.index t (1 : Fin 3) * 256 + 1 * k.val = k.val; omega
      | ⟨2, _⟩ => show win0_10.index t (2 : Fin 3) * 4096 + 1 * p.val = p.val; omega)
  rw [h0, blk10_entry m c t ⟨t.val, hN⟩ rfl]
  rfl

/-- What grid point `t` writes back through output window 10 is block `t` of the specification's output array. -/
theorem flushed10_eq (c : Dev nD) (t : Fin cfg0.N) :
    (dats m 0 c).flushed 10 t = ((cfg0.win 10).blk t).view.read (Elt Ideal) (Cert.Spec.GlowF (brLow m c) (lowIn m c)) := by
  show (cfg0.win 10).cut (grid0.coords t) ((dats m 0 c).after 10 t) = _
  rw [after0_10]
  funext j
  exact blk10_at m c t j

/-- An index of the array is in point `t`'s block iff each coordinate is in the block's range on its axis. -/
theorem mem_blk10 (t : Fin cfg0.N) (i : S32x256x4096.Idx) :
    i ∈ ((cfg0.win 10).blk t).view.set ↔ ∀ a : Fin 3, win0_10.index t a * S1x256x4096.size a ≤ (i a).val
      ∧ (i a).val < win0_10.index t a * S1x256x4096.size a + S1x256x4096.size a := by
  show i ∈ ((View.whole main_v50_0).slice (win0_10.rect t)).set ↔ _
  rw [View.set_slice_whole, Rect.mem_set_unit]
  exact Iff.rfl

/-- Every index of the array lies in the block of the grid point of its batch coordinate: the 32 slabs tile it. -/
theorem cover10 (i : S32x256x4096.Idx) :
    ∃ t : Fin cfg0.N, (cfg0.win 10).flush t = true ∧ i ∈ ((cfg0.win 10).blk t).view.set := by
  have h0 : (i 0).val < 32 := (i 0).isLt
  have h1 : (i 1).val < 256 := (i 1).isLt
  have h2 : (i 2).val < 4096 := (i 2).isLt
  refine ⟨⟨(i 0).val, by rw [points]; exact h0⟩, flush0_10 _, ?_⟩
  obtain ⟨-, -, -, -, -, -, e0, e1, e2, -⟩ := idx_slab ⟨(i 0).val, by rw [points]; exact h0⟩
  rw [mem_blk10]
  intro a
  match a with
  | ⟨0, _⟩ =>
    show win0_10.index _ (0 : Fin 3) * 1 ≤ (i 0).val ∧ (i 0).val < win0_10.index _ (0 : Fin 3) * 1 + 1
    rw [e0]
    show (i 0).val * 1 ≤ (i 0).val ∧ (i 0).val < (i 0).val * 1 + 1
    omega
  | ⟨1, _⟩ =>
    show win0_10.index _ (1 : Fin 3) * 256 ≤ (i 1).val ∧ (i 1).val < win0_10.index _ (1 : Fin 3) * 256 + 256
    rw [e1]; omega
  | ⟨2, _⟩ =>
    show win0_10.index _ (2 : Fin 3) * 4096 ≤ (i 2).val ∧ (i 2).val < win0_10.index _ (2 : Fin 3) * 4096 + 4096
    rw [e2]; omega

/-- Output window 11's block of a grid point, entry by entry: the specification's second output at the point's batch
    element. -/
theorem blk11_entry (c : Dev nD) (t : Fin cfg0.N) (n : Fin 32) (hn : n.val = t.val) (k : Fin 256) (p : Fin 4096) :
    out0_11 (F := Ideal) (xb0 m c t) (xb1 m c t) (wb2 m c t) (wb3 m c t) (wb4 m c t) (wb5 m c t) (wb6 m c t) (wb7 m c t)
        (wb8 m c t) (wb9 m c t) (ix3 0 k p)
      = Cert.Spec.outHighF (brHigh m c) (highIn m c) n k p := by
  rw [out11_apply, lv_high m c t n hn, xb1_apply m c t n hn]
  rfl

/-- The same at any index of the block: the specification's output array at the array index under it (batch coordinate
    the point's, channel and position the block's). -/
theorem blk11_at (c : Dev nD) (t : Fin cfg0.N) (j : S1x256x4096.Idx) :
    out0_11 (F := Ideal) (xb0 m c t) (xb1 m c t) (wb2 m c t) (wb3 m c t) (wb4 m c t) (wb5 m c t) (wb6 m c t) (wb7 m c t)
        (wb8 m c t) (wb9 m c t) j
      = Cert.Spec.GhighF (brHigh m c) (highIn m c) (((cfg0.win 11).blk t).view.emb j) := by
  obtain ⟨a, k, p, rfl⟩ : ∃ (a : Fin 1) (k : Fin 256) (p : Fin 4096), j = ix3 a k p := ⟨j 0, j 1, j 2, eq_ix3 j⟩
  obtain rfl : a = 0 := Subsingleton.elim _ _
  have hN : t.val < 32 := points ▸ t.isLt
  obtain ⟨-, -, -, -, -, -, -, -, -, e0, e1, e2⟩ := idx_slab t
  have h0 : ((cfg0.win 11).blk t).view.emb (ix3 0 k p) = (ix3 ⟨t.val, hN⟩ k p : S32x256x4096.Idx) :=
    funext fun a => Fin.ext (by
      match a with
      | ⟨0, _⟩ => show win0_11.index t (0 : Fin 3) * 1 + 1 * 0 = t.val; omega
      | ⟨1, _⟩ => show win0_11.index t (1 : Fin 3) * 256 + 1 * k.val = k.val; omega
      | ⟨2, _⟩ => show win0_11.index t (2 : Fin 3) * 4096 + 1 * p.val = p.val; omega)
  rw [h0, blk11_entry m c t ⟨t.val, hN⟩ rfl]
  rfl

/-- What grid point `t` writes back through output window 11 is block `t` of the specification's output array. -/
theorem flushed11_eq (c : Dev nD) (t : Fin cfg0.N) :
    (dats m 0 c).flushed 11 t = ((cfg0.win 11).blk t).view.read (Elt Ideal) (Cert.Spec.GhighF (brHigh m c) (highIn m c)) := by
  show (cfg0.win 11).cut (grid0.coords t) ((dats m 0 c).after 11 t) = _
  rw [after0_11]
  funext j
  exact blk11_at m c t j

/-- An index of the array is in point `t`'s block iff each coordinate is in the block's range on its axis. -/
theorem mem_blk11 (t : Fin cfg0.N) (i : S32x256x4096.Idx) :
    i ∈ ((cfg0.win 11).blk t).view.set ↔ ∀ a : Fin 3, win0_11.index t a * S1x256x4096.size a ≤ (i a).val
      ∧ (i a).val < win0_11.index t a * S1x256x4096.size a + S1x256x4096.size a := by
  show i ∈ ((View.whole main_v50_1).slice (win0_11.rect t)).set ↔ _
  rw [View.set_slice_whole, Rect.mem_set_unit]
  exact Iff.rfl

/-- Every index of the array lies in the block of the grid point of its batch coordinate: the 32 slabs tile it. -/
theorem cover11 (i : S32x256x4096.Idx) :
    ∃ t : Fin cfg0.N, (cfg0.win 11).flush t = true ∧ i ∈ ((cfg0.win 11).blk t).view.set := by
  have h0 : (i 0).val < 32 := (i 0).isLt
  have h1 : (i 1).val < 256 := (i 1).isLt
  have h2 : (i 2).val < 4096 := (i 2).isLt
  refine ⟨⟨(i 0).val, by rw [points]; exact h0⟩, flush0_11 _, ?_⟩
  obtain ⟨-, -, -, -, -, -, -, -, -, e0, e1, e2⟩ := idx_slab ⟨(i 0).val, by rw [points]; exact h0⟩
  rw [mem_blk11]
  intro a
  match a with
  | ⟨0, _⟩ =>
    show win0_11.index _ (0 : Fin 3) * 1 ≤ (i 0).val ∧ (i 0).val < win0_11.index _ (0 : Fin 3) * 1 + 1
    rw [e0]
    show (i 0).val * 1 ≤ (i 0).val ∧ (i 0).val < (i 0).val * 1 + 1
    omega
  | ⟨1, _⟩ =>
    show win0_11.index _ (1 : Fin 3) * 256 ≤ (i 1).val ∧ (i 1).val < win0_11.index _ (1 : Fin 3) * 256 + 256
    rw [e1]; omega
  | ⟨2, _⟩ =>
    show win0_11.index _ (2 : Fin 3) * 4096 ≤ (i 2).val ∧ (i 2).val < win0_11.index _ (2 : Fin 3) * 4096 + 4096
    rw [e2]; omega

end Final

open Final

/-- The first output array after the region. -/
theorem final10 (c : Dev nD) :
    ((dats m 0 c).arrAt 10 cfg0.N : S32x256x4096.Idx → EReal) = Cert.Spec.GlowF (brLow m c) (lowIn m c) :=
  (dats m 0 c).arrAt_eq_of_cover 10 (Cert.Spec.GlowF (brLow m c) (lowIn m c)) (fun t _ => flushed10_eq m c t) cover10
/-- The second output array after the region. -/
theorem final11 (c : Dev nD) :
    ((dats m 0 c).arrAt 11 cfg0.N : S32x256x4096.Idx → EReal) = Cert.Spec.GhighF (brHigh m c) (highIn m c) :=
  (dats m 0 c).arrAt_eq_of_cover 11 (Cert.Spec.GhighF (brHigh m c) (highIn m c)) (fun t _ => flushed11_eq m c t) cover11

/-! ## The host lines after the region

They reshape each flattened output array back to height × width; nothing else touches the results. -/

/-- The first result: the first output array, brought back to height × width. -/
theorem tail51 (c : Dev nD) :
    Pipeline.afterTail₀ cfgs (dats m) 0 (V0 m) [hostOps1] c main_v51
      = Cert.Spec.unflat (Cert.Spec.GlowF (brLow m c) (lowIn m c)) := by
  unfold Pipeline.afterTail₀
  show StableHlo.after hostOps1 _ (Proc.devRef .tc main_v51) = _
  after_results
  have e : Pipeline.withArrays (cfgs 0).spec c (V0 m c) (fun w => (dats m 0 c).arrAt w (cfgs 0).N) (Proc.tc.devRef main_v50_0)
      = Cert.Spec.GlowF (brLow m c) (lowIn m c) :=
    (Pipeline.withArrays_arr spec0 launch0.win.arr_inj c _ _ 10).trans (final10 m c)
  rw [e]
  rfl

/-- The second result: the second output array, brought back to height × width. -/
theorem tail52 (c : Dev nD) :
    Pipeline.afterTail₀ cfgs (dats m) 0 (V0 m) [hostOps1] c main_v52
      = Cert.Spec.unflat (Cert.Spec.GhighF (brHigh m c) (highIn m c)) := by
  unfold Pipeline.afterTail₀
  show StableHlo.after hostOps1 _ (Proc.devRef .tc main_v52) = _
  after_results
  have e : Pipeline.withArrays (cfgs 0).spec c (V0 m c) (fun w => (dats m 0 c).arrAt w (cfgs 0).N) (Proc.tc.devRef main_v50_1)
      = Cert.Spec.GhighF (brHigh m c) (highIn m c) :=
    (Pipeline.withArrays_arr spec0 launch0.win.arr_inj c _ _ 11).trans (final11 m c)
  rw [e]
  rfl

set_option maxHeartbeats 1600000 in
/-- The run: every weakly fair execution terminates with the two results at the specification's folded form of the
    inputs, the arguments unchanged. -/
theorem run : θ_run (defs (F := Ideal)) (onTc (τ := τ) (main (F := Ideal))) ⟨m, fun _ => 0, ρ⟩ (fun r => ∀ c : Dev nD,
      r.2.mem ((c.tc : Thread nD τ).loc main_v51) = Cert.Spec.unflat (Cert.Spec.GlowF (brLow m c) (lowIn m c))
      ∧ r.2.mem ((c.tc : Thread nD τ).loc main_v52) = Cert.Spec.unflat (Cert.Spec.GhighF (brHigh m c) (highIn m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(((h c).2 main_v51 (Pipeline.mem_restRefs_of main_v51 (by decide) (by decide))).trans (tail51 m c)),
      (((h c).2 main_v52 (Pipeline.mem_restRefs_of main_v52 (by decide) (by decide))).trans (tail52 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c)),
      (((h c).2 main_arg25 (Pipeline.mem_restRefs_of main_arg25 (by decide) (by decide))).trans (W_main_arg25 m (dats m) c))⟩) (run_main m ρ)

end Cert.KernelIdeal.KV

end
-- ==== Proof.RParams.lean ====
/-
  The idealized reference program's inputs as the specification's arguments: each branch's parameters read off the
  launch memory, and the two activations flattened.
-/
import proofs.«121784_g2000609679484958_pallasbulk_1271_2_alg».proof.Proof.Gen.ReferenceIdeal.Frame
import proofs.«121784_g2000609679484958_pallasbulk_1271_2_alg».proof.Proof.Spec

noncomputable section

namespace Cert.ReferenceIdeal.RV

open Idealize.ShloMosaic Idealize.ShloMosaic.TcCoe Idealize.ShloMosaic.ValueIdx Idealize.SL.Sem
open Cert.ReferenceIdeal

variable (m : (ℓ : Loc nD τ sig) → Buf (Elt Ideal) ℓ)

/-- The parameters of the branch fed by the first input. -/
def brLow (c : Dev nD) : Cert.Spec.Branch where
  w1 j k := m ((c : Thread nD τ).loc main_arg2) (ix2 j k)
  b1 j := m ((c : Thread nD τ).loc main_arg3) (ix1 j)
  g1 j := m ((c : Thread nD τ).loc main_arg4) (ix1 j)
  be1 j := m ((c : Thread nD τ).loc main_arg5) (ix1 j)
  mu1 j := m ((c : Thread nD τ).loc main_arg6) (ix1 j)
  va1 j := m ((c : Thread nD τ).loc main_arg7) (ix1 j)
  w2 k j := m ((c : Thread nD τ).loc main_arg8) (ix2 k j)
  b2 k := m ((c : Thread nD τ).loc main_arg9) (ix1 k)
  g2 k := m ((c : Thread nD τ).loc main_arg10) (ix1 k)
  be2 k := m ((c : Thread nD τ).loc main_arg11) (ix1 k)
  mu2 k := m ((c : Thread nD τ).loc main_arg12) (ix1 k)
  va2 k := m ((c : Thread nD τ).loc main_arg13) (ix1 k)

/-- The parameters of the branch fed by the second input. -/
def brHigh (c : Dev nD) : Cert.Spec.Branch where
  w1 j k := m ((c : Thread nD τ).loc main_arg14) (ix2 j k)
  b1 j := m ((c : Thread nD τ).loc main_arg15) (ix1 j)
  g1 j := m ((c : Thread nD τ).loc main_arg16) (ix1 j)
  be1 j := m ((c : Thread nD τ).loc main_arg17) (ix1 j)
  mu1 j := m ((c : Thread nD τ).loc main_arg18) (ix1 j)
  va1 j := m ((c : Thread nD τ).loc main_arg19) (ix1 j)
  w2 k j := m ((c : Thread nD τ).loc main_arg20) (ix2 k j)
  b2 k := m ((c : Thread nD τ).loc main_arg21) (ix1 k)
  g2 k := m ((c : Thread nD τ).loc main_arg22) (ix1 k)
  be2 k := m ((c : Thread nD τ).loc main_arg23) (ix1 k)
  mu2 k := m ((c : Thread nD τ).loc main_arg24) (ix1 k)
  va2 k := m ((c : Thread nD τ).loc main_arg25) (ix1 k)

/-- The first input, flattened. -/
def lowIn (c : Dev nD) : Cert.Spec.S3.Idx → EReal := Cert.Spec.flat (m ((c : Thread nD τ).loc main_arg0))
/-- The second input, flattened. -/
def highIn (c : Dev nD) : Cert.Spec.S3.Idx → EReal := Cert.Spec.flat (m ((c : Thread nD τ).loc main_arg1))

end Cert.ReferenceIdeal.RV

end
-- ==== Proof.RGap.lean ====
/-
  The first region of the reference program: per batch element and channel a running sum over the four quarters of
  the slab's positions, reset at the first quarter, left in a one-column output. Stated at ANY contents the region
  may find on entry.
-/
import proofs.«121784_g2000609679484958_pallasbulk_1271_2_alg».proof.Proof.Gen.ReferenceIdeal.Frame
import proofs.«121784_g2000609679484958_pallasbulk_1271_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Gen

namespace Gap

/-! ## What each control case leaves in the two output blocks -/

section Pieces

variable {F : FTy → Type} [FloatOps F]

theorem hz3 : (![0, 0, 0] : Fin 3 → Nat) = fun _ => 0 := funext fun a => by fin_cases a <;> rfl

/-- At a later quarter the first output block ends at the payload of what it held and the first input's tile. -/
theorem out_B_2 (c : Dev nD) (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : ¬cond0_0 i)
    (x0 x1 : Vec F S1x256x1024 .f32) (xo2 xo3 : Vec F S1x256x1 .f32) :
    out0_B_2 c i a2 h2 a3 h3 a4 h4 a5 h5 hc x0 x1 xo2 xo3 = k0_pay3 xo2 x0 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h4.read_unread, h2.read_unread, View.ld_unit_zero (S := S1x256x1) hz3,
    View.ld_unit_zero (S := S1x256x1024) hz3]

/-- At a later quarter the second output block ends at the payload of what it held and the second input's tile. -/
theorem out_B_3 (c : Dev nD) (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : ¬cond0_0 i)
    (x0 x1 : Vec F S1x256x1024 .f32) (xo2 xo3 : Vec F S1x256x1 .f32) :
    out0_B_3 c i a2 h2 a3 h3 a4 h4 a5 h5 hc x0 x1 xo2 xo3 = k0_pay4 xo3 x1 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h5.read_unread, h3.read_unread, View.ld_unit_zero (S := S1x256x1) hz3,
    View.ld_unit_zero (S := S1x256x1024) hz3]

/-- At a first quarter the first output block is reset to zeros, read back, and ends at the payload of the zeros and
    the first input's tile. -/
theorem out_A_2 (c : Dev nD) (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : cond0_0 i)
    (x0 x1 : Vec F S1x256x1024 .f32) :
    out0_A_2 c i a2 h2 a3 h3 a4 h4 a5 h5 hc x0 x1 = k0_pay3 (k0_pay1 (F := F)) x0 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x256x1) hz3, View.readCov_unit_zero (S := S1x256x1) _ hz3]
  simp only [View.readAt_eq_ld, h2.read_unread, View.ld_unit_zero (S := S1x256x1024) hz3]

/-- At a first quarter the second output block likewise, with the second input's tile. -/
theorem out_A_3 (c : Dev nD) (i : grid0.Coords) (a2 : Memref sig .tc .vmem S1x256x1024 .f32) (h2 : a2.IsWhole)
    (a3 : Memref sig .tc .vmem S1x256x1024 .f32) (h3 : a3.IsWhole) (a4 : Memref sig .tc .vmem S1x256x1 .f32) (h4 : a4.IsWhole)
    (a5 : Memref sig .tc .vmem S1x256x1 .f32) (h5 : a5.IsWhole) (hc : cond0_0 i)
    (x0 x1 : Vec F S1x256x1024 .f32) :
    out0_A_3 c i a2 h2 a3 h3 a4 h4 a5 h5 hc x0 x1 = k0_pay4 (k0_pay2 (F := F)) x1 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x256x1) hz3, View.readCov_unit_zero (S := S1x256x1) _ hz3]
  simp only [View.readAt_eq_ld, h3.read_unread, View.ld_unit_zero (S := S1x256x1024) hz3]

end Pieces

/-! ## The payloads read at an entry, on the extended reals -/

/-- A one-row vector given a trailing unit axis reads, at channel `k`, the row's entry `k`. -/
theorem cast_col_apply (w : S1x256.Idx → EReal) (k : Fin 256) :
    shapeCast S1x256x1 w shapeCasts_S1x256_S1x256x1 (ix3 0 k 0) = w (ix2 0 k) :=
  shapeCast_apply w shapeCasts_S1x256_S1x256x1 (ix3 0 k 0) (ix2 0 k) (by
    rw [Shape.rowMajor_val_two, Shape.rowMajor_val_three]
    show 0 * 256 + k.val = (0 * 256 + k.val) * 1 + 0
    omega)

/-- The update's payload at channel `k`: what the block held there plus the sum of the tile's 1024 lanes. -/
theorem pay3_apply (v : Vec Ideal S1x256x1 .f32) (x : Vec Ideal S1x256x1024 .f32) (k : Fin 256) :
    (k0_pay3 (F := Ideal) v x : S1x256x1.Idx → EReal) (ix3 0 k 0)
      = (v : S1x256x1.Idx → EReal) (ix3 0 k 0) + ∑ p : Fin 1024, (x : S1x256x1024.Idx → EReal) (ix3 0 k p) := by
  unfold k0_pay3
  refine (addf_apply _ _ _).trans ?_
  refine congrArg₂ (· + ·) (congrFun (shapeCast_self v _) _) ?_
  refine (cast_col_apply _ k).trans ?_
  refine (Ideal.multiReduction_add_single _ _ reduces_S1x256x1024_S1x256 _ _ (ix2 0 k)).trans ?_
  rw [shapeCast_self]
  exact Finset.sum_congr rfl fun p _ => congrArg x (funext fun a =>
    match a with | ⟨0, _⟩ => rfl | ⟨1, _⟩ => rfl | ⟨2, _⟩ => rfl)

/-- The same for the second output's update. -/
theorem pay4_apply (v : Vec Ideal S1x256x1 .f32) (x : Vec Ideal S1x256x1024 .f32) (k : Fin 256) :
    (k0_pay4 (F := Ideal) v x : S1x256x1.Idx → EReal) (ix3 0 k 0)
      = (v : S1x256x1.Idx → EReal) (ix3 0 k 0) + ∑ p : Fin 1024, (x : S1x256x1024.Idx → EReal) (ix3 0 k p) := by
  unfold k0_pay4
  refine (addf_apply _ _ _).trans ?_
  refine congrArg₂ (· + ·) (congrFun (shapeCast_self v _) _) ?_
  refine (cast_col_apply _ k).trans ?_
  refine (Ideal.multiReduction_add_single _ _ reduces_S1x256x1024_S1x256 _ _ (ix2 0 k)).trans ?_
  rw [shapeCast_self]
  exact Finset.sum_congr rfl fun p _ => congrArg x (funext fun a =>
    match a with | ⟨0, _⟩ => rfl | ⟨1, _⟩ => rfl | ⟨2, _⟩ => rfl)

/-- The reset's payload is the zero word everywhere. -/
theorem pay1_apply (j : S1x256x1.Idx) : (k0_pay1 (F := Ideal) : S1x256x1.Idx → EReal) j = Cert.Spec.z0 := rfl
theorem pay2_apply (j : S1x256x1.Idx) : (k0_pay2 (F := Ideal) : S1x256x1.Idx → EReal) j = Cert.Spec.z0 := rfl

end Gap

variable (V : (c : Dev nD) → (b : Ref sig .tc) → Buf (Elt Ideal) ((c : Thread nD τ).loc b))

namespace Gap

/-! ## The blocks and arrays, named at their literal types -/

/-- The grid has 128 points: point `t` is quarter `t % 4` of batch element `t / 4`. -/
theorem N128 : cfg0.N = 128 := N_0

/-- The batch element a point works on. -/
def bat (n : ℕ) (h : n < cfg0.N) : Fin 32 := ⟨n / 4, by have := lt_of_lt_of_eq h N128; omega⟩

/-- The two flattened inputs as the region finds them. -/
abbrev arr0 (c : Dev nD) : S32x256x4096.Idx → EReal := V c main_v0
abbrev arr1 (c : Dev nD) : S32x256x4096.Idx → EReal := V c main_v1

/-- The tile of each input a point reads. -/
abbrev xblk0 (c : Dev nD) (t : Fin cfg0.N) : Vec Ideal S1x256x1024 .f32 := iblk0 V c 0 t
abbrev xblk1 (c : Dev nD) (t : Fin cfg0.N) : Vec Ideal S1x256x1024 .f32 := iblk0 V c 1 t

/-- What the two output blocks hold after point `n`. -/
abbrev o2 (c : Dev nD) (n : ℕ) (h : n < cfg0.N) : S1x256x1.Idx → EReal := (outsAt0 V c n h).1
abbrev o3 (c : Dev nD) (n : ℕ) (h : n < cfg0.N) : S1x256x1.Idx → EReal := (outsAt0 V c n h).2

/-- The index maps over the grid: the inputs' tile is (t / 4, 0, t % 4), the outputs' block (t / 4, 0, 0). -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- Lane `p` of channel `k` of the first input's tile at point `t` is position `(t % 4) * 1024 + p` of that
    channel's row of batch element `t / 4`. -/
theorem xblk0_apply (c : Dev nD) (t : Fin cfg0.N) (k : Fin 256) (p : Fin 1024) (z : Fin 4096)
    (hz : z.val = t.val % 4 * 1024 + p.val) :
    xblk0 V c t (ix3 0 k p) = arr0 V c (ix3 (bat t.val t.isLt) k z) := by
  obtain ⟨e0, e1, e2, -⟩ := idx_facts t
  show V c main_v0 (((cfg0.win 0).blk t).view.emb (ix3 0 k p)) = V c main_v0 _
  refine congrArg (V c main_v0) (funext fun a => Fin.ext ?_)
  match a with
  | ⟨0, _⟩ => show win0_0.index t (0 : Fin 3) * 1 + 1 * 0 = t.val / 4; rw [e0]; omega
  | ⟨1, _⟩ => show win0_0.index t (1 : Fin 3) * 256 + 1 * k.val = k.val; rw [e1]; omega
  | ⟨2, _⟩ => show win0_0.index t (2 : Fin 3) * 1024 + 1 * p.val = z.val; rw [e2, hz]; omega

/-- The same for the second input. -/
theorem xblk1_apply (c : Dev nD) (t : Fin cfg0.N) (k : Fin 256) (p : Fin 1024) (z : Fin 4096)
    (hz : z.val = t.val % 4 * 1024 + p.val) :
    xblk1 V c t (ix3 0 k p) = arr1 V c (ix3 (bat t.val t.isLt) k z) := by
  obtain ⟨-, -, -, e0, e1, e2, -⟩ := idx_facts t
  show V c main_v1 (((cfg0.win 1).blk t).view.emb (ix3 0 k p)) = V c main_v1 _
  refine congrArg (V c main_v1) (funext fun a => Fin.ext ?_)
  match a with
  | ⟨0, _⟩ => show win0_1.index t (0 : Fin 3) * 1 + 1 * 0 = t.val / 4; rw [e0]; omega
  | ⟨1, _⟩ => show win0_1.index t (1 : Fin 3) * 256 + 1 * k.val = k.val; rw [e1]; omega
  | ⟨2, _⟩ => show win0_1.index t (2 : Fin 3) * 1024 + 1 * p.val = z.val; rw [e2, hz]; omega

/-- So the lane sum of the tile at point `t` is the quarter sum, quarter `t % 4`, of the row. -/
theorem tile0_eq (c : Dev nD) (t : Fin cfg0.N) (k : Fin 256) (q : Fin 4) (hq : q.val = t.val % 4) :
    ∑ p : Fin 1024, xblk0 V c t (ix3 0 k p)
      = Cert.Spec.tileSum (fun p => arr0 V c (ix3 (bat t.val t.isLt) k p)) q := by
  unfold Cert.Spec.tileSum
  exact Finset.sum_congr rfl fun p _ => xblk0_apply V c t k p _ (by show q.val * 1024 + p.val = _; rw [hq])
theorem tile1_eq (c : Dev nD) (t : Fin cfg0.N) (k : Fin 256) (q : Fin 4) (hq : q.val = t.val % 4) :
    ∑ p : Fin 1024, xblk1 V c t (ix3 0 k p)
      = Cert.Spec.tileSum (fun p => arr1 V c (ix3 (bat t.val t.isLt) k p)) q := by
  unfold Cert.Spec.tileSum
  exact Finset.sum_congr rfl fun p _ => xblk1_apply V c t k p _ (by show q.val * 1024 + p.val = _; rw [hq])

/-! ## One point's step -/

/-- A first quarter leaves, at channel `k`, zero plus the tile's lane sum. -/
theorem step_A_2 (c : Dev nD) (t : Fin cfg0.N) (h0 : t.val % 4 = 0) (k : Fin 256) :
    o2 V c t.val t.isLt (ix3 0 k 0) = Cert.Spec.z0 + ∑ p : Fin 1024, xblk0 V c t (ix3 0 k p) := by
  show ((outsAt0 V c t.val t.isLt).1 : S1x256x1.Idx → EReal) (ix3 0 k 0) = _
  rw [outsAt0_A V c t h0]
  dsimp only
  refine (congrFun (out_A_2 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) (ix3 0 k 0)).trans ?_
  exact pay3_apply (k0_pay1 (F := Ideal)) (iblk0 V c 0 t) k
theorem step_A_3 (c : Dev nD) (t : Fin cfg0.N) (h0 : t.val % 4 = 0) (k : Fin 256) :
    o3 V c t.val t.isLt (ix3 0 k 0) = Cert.Spec.z0 + ∑ p : Fin 1024, xblk1 V c t (ix3 0 k p) := by
  show ((outsAt0 V c t.val t.isLt).2 : S1x256x1.Idx → EReal) (ix3 0 k 0) = _
  rw [outsAt0_A V c t h0]
  dsimp only
  refine (congrFun (out_A_3 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)) (ix3 0 k 0)).trans ?_
  exact pay4_apply (k0_pay2 (F := Ideal)) (iblk0 V c 1 t) k

/-- A later quarter adds the tile's lane sum to what the point before left. -/
theorem step_B_2 (c : Dev nD) (t : Fin cfg0.N) (h0 : ¬t.val % 4 = 0) (k : Fin 256) :
    o2 V c t.val t.isLt (ix3 0 k 0)
      = o2 V c (t.val - 1) (Nat.lt_of_le_of_lt (Nat.sub_le _ _) t.isLt) (ix3 0 k 0) + ∑ p : Fin 1024, xblk0 V c t (ix3 0 k p) := by
  show ((outsAt0 V c t.val t.isLt).1 : S1x256x1.Idx → EReal) (ix3 0 k 0) = _
  rw [outsAt0_B V c t h0]
  dsimp only
  refine (congrFun (out_B_2 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2) (ix3 0 k 0)).trans ?_
  exact pay3_apply (outsAt0 V c (t.val - 1) (Nat.lt_of_le_of_lt (Nat.sub_le _ _) t.isLt)).1 (iblk0 V c 0 t) k
theorem step_B_3 (c : Dev nD) (t : Fin cfg0.N) (h0 : ¬t.val % 4 = 0) (k : Fin 256) :
    o3 V c t.val t.isLt (ix3 0 k 0)
      = o3 V c (t.val - 1) (Nat.lt_of_le_of_lt (Nat.sub_le _ _) t.isLt) (ix3 0 k 0) + ∑ p : Fin 1024, xblk1 V c t (ix3 0 k p) := by
  show ((outsAt0 V c t.val t.isLt).2 : S1x256x1.Idx → EReal) (ix3 0 k 0) = _
  rw [outsAt0_B V c t h0]
  dsimp only
  refine (congrFun (out_B_3 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)
    (outsAt0 V c (t.val - 1) (Nat.lt_of_le_of_lt (Nat.sub_le _ _) t.isLt)).1 (outsAt0 V c (t.val - 1) (Nat.lt_of_le_of_lt (Nat.sub_le _ _) t.isLt)).2) (ix3 0 k 0)).trans ?_
  exact pay4_apply (outsAt0 V c (t.val - 1) (Nat.lt_of_le_of_lt (Nat.sub_le _ _) t.isLt)).2 (iblk0 V c 1 t) k

/-! ## The running sum, point by point -/

/-- At a first quarter the first output block holds the running sum's first term. -/
theorem run2_A (c : Dev nD) (k : Fin 256) (n : ℕ) (h : n < cfg0.N) (h0 : n % 4 = 0) :
    o2 V c n h (ix3 0 k 0) = Cert.Spec.accR (fun p => arr0 V c (ix3 (bat n h) k p)) (n % 4) := by
  rw [h0]
  refine (step_A_2 V c ⟨n, h⟩ h0 k).trans ?_
  exact congrArg (Cert.Spec.z0 + ·) (tile0_eq V c ⟨n, h⟩ k 0 h0.symm)

/-- THE RUNNING SUM. After point `n` the first output block holds, at channel `k`, the sum of quarters
    `0 … n % 4` of that channel's row of batch element `n / 4`, added in order from zero: by induction on the point. -/
theorem run2 (c : Dev nD) (k : Fin 256) (n : ℕ) : ∀ h : n < cfg0.N,
    o2 V c n h (ix3 0 k 0) = Cert.Spec.accR (fun p => arr0 V c (ix3 (bat n h) k p)) (n % 4) := by
  induction n with
  | zero => exact fun h => run2_A V c k 0 h rfl
  | succ m ih =>
    intro h
    by_cases h0 : (m + 1) % 4 = 0
    · exact run2_A V c k (m + 1) h h0
    · have hb : bat m (Nat.lt_of_succ_lt h) = bat (m + 1) h := Fin.ext (by show m / 4 = (m + 1) / 4; omega)
      have hq : (m + 1) % 4 = m % 4 + 1 := by omega
      rw [hq]
      refine (step_B_2 V c ⟨m + 1, h⟩ h0 k).trans ?_
      show o2 V c m (Nat.lt_of_succ_lt h) (ix3 0 k 0) + _
        = Cert.Spec.accR (fun p => arr0 V c (ix3 (bat (m + 1) h) k p)) (m % 4)
          + Cert.Spec.tileSum (fun p => arr0 V c (ix3 (bat (m + 1) h) k p)) ⟨(m % 4 + 1) % 4, Nat.mod_lt _ (by decide)⟩
      rw [ih (Nat.lt_of_succ_lt h), hb]
      exact congrArg (_ + ·) (tile0_eq V c ⟨m + 1, h⟩ k _ (by show (m % 4 + 1) % 4 = (m + 1) % 4; omega))

/-- At a first quarter the second output block holds the running sum's first term. -/
theorem run3_A (c : Dev nD) (k : Fin 256) (n : ℕ) (h : n < cfg0.N) (h0 : n % 4 = 0) :
    o3 V c n h (ix3 0 k 0) = Cert.Spec.accR (fun p => arr1 V c (ix3 (bat n h) k p)) (n % 4) := by
  rw [h0]
  refine (step_A_3 V c ⟨n, h⟩ h0 k).trans ?_
  exact congrArg (Cert.Spec.z0 + ·) (tile1_eq V c ⟨n, h⟩ k 0 h0.symm)

/-- THE RUNNING SUM. After point `n` the second output block holds, at channel `k`, the sum of quarters
    `0 … n % 4` of that channel's row of batch element `n / 4`, added in order from zero: by induction on the point. -/
theorem run3 (c : Dev nD) (k : Fin 256) (n : ℕ) : ∀ h : n < cfg0.N,
    o3 V c n h (ix3 0 k 0) = Cert.Spec.accR (fun p => arr1 V c (ix3 (bat n h) k p)) (n % 4) := by
  induction n with
  | zero => exact fun h => run3_A V c k 0 h rfl
  | succ m ih =>
    intro h
    by_cases h0 : (m + 1) % 4 = 0
    · exact run3_A V c k (m + 1) h h0
    · have hb : bat m (Nat.lt_of_succ_lt h) = bat (m + 1) h := Fin.ext (by show m / 4 = (m + 1) / 4; omega)
      have hq : (m + 1) % 4 = m % 4 + 1 := by omega
      rw [hq]
      refine (step_B_3 V c ⟨m + 1, h⟩ h0 k).trans ?_
      show o3 V c m (Nat.lt_of_succ_lt h) (ix3 0 k 0) + _
        = Cert.Spec.accR (fun p => arr1 V c (ix3 (bat (m + 1) h) k p)) (m % 4)
          + Cert.Spec.tileSum (fun p => arr1 V c (ix3 (bat (m + 1) h) k p)) ⟨(m % 4 + 1) % 4, Nat.mod_lt _ (by decide)⟩
      rw [ih (Nat.lt_of_succ_lt h), hb]
      exact congrArg (_ + ·) (tile1_eq V c ⟨m + 1, h⟩ k _ (by show (m % 4 + 1) % 4 = (m + 1) % 4; omega))

/-! ## What is written back, and the arrays after the region -/

/-- The first sum array as the region leaves it: at (n, k, 0) the running sum of all four quarters of row (n, k). -/
def G2 (c : Dev nD) : S32x256x1.Idx → EReal :=
  fun i => Cert.Spec.accR (fun p => arr0 V c (ix3 (i 0) (i 1) p)) 3

/-- The running sum at any entry of the block (its first and last coordinates are 0). -/
theorem run2_idx (c : Dev nD) (n : ℕ) (h : n < cfg0.N) (y : S1x256x1.Idx) :
    o2 V c n h y = Cert.Spec.accR (fun p => arr0 V c (ix3 (bat n h) (y 1) p)) (n % 4) := by
  obtain ⟨a, k, b, rfl⟩ : ∃ (a : Fin 1) (k : Fin 256) (b : Fin 1), y = ix3 a k b := ⟨y 0, y 1, y 2, eq_ix3 y⟩
  obtain rfl : a = 0 := Subsingleton.elim _ _
  obtain rfl : b = 0 := Subsingleton.elim _ _
  exact run2 V c k n h

/-- A block is written back only after its batch element's last quarter; what is written then is the block of the
    whole-array function. -/
theorem flushed2_eq (c : Dev nD) (t : Fin cfg0.N) (hf : (cfg0.win 2).flush t = true) :
    (dat0 V c).flushed 2 t = ((cfg0.win 2).blk t).view.read (Elt Ideal) (G2 V c) := by
  have h3 : t.val % 4 = 3 := (flush0_2 t).mp hf
  obtain ⟨-, -, -, -, -, -, e0, e1, e2, -⟩ := idx_facts t
  show (cfg0.win 2).cut (grid0.coords t) ((dat0 V c).after 2 t) = _
  rw [after0_2]
  funext y
  have hy0 : (y 0).val = 0 := by have : (y 0).val < 1 := (y 0).isLt; omega
  show o2 V c t.val t.isLt ((cfg0.win 2).xinj (grid0.coords t) y) = G2 V c (((cfg0.win 2).blk t).view.emb y)
  refine (run2_idx V c t.val t.isLt _).trans ?_
  rw [h3]
  unfold G2
  refine congrArg (fun f => Cert.Spec.accR f 3) (funext fun p => congrArg (arr0 V c) (funext fun a => Fin.ext ?_))
  match a with
  | ⟨0, _⟩ => show t.val / 4 = win0_2.index t (0 : Fin 3) * 1 + 1 * (y 0).val; rw [e0, hy0]; omega
  | ⟨1, _⟩ => show (y 1).val = win0_2.index t (1 : Fin 3) * 256 + 1 * (y 1).val; rw [e1]; omega
  | ⟨2, _⟩ => rfl

/-- The second sum array as the region leaves it: at (n, k, 0) the running sum of all four quarters of row (n, k). -/
def G3 (c : Dev nD) : S32x256x1.Idx → EReal :=
  fun i => Cert.Spec.accR (fun p => arr1 V c (ix3 (i 0) (i 1) p)) 3

/-- The running sum at any entry of the block (its first and last coordinates are 0). -/
theorem run3_idx (c : Dev nD) (n : ℕ) (h : n < cfg0.N) (y : S1x256x1.Idx) :
    o3 V c n h y = Cert.Spec.accR (fun p => arr1 V c (ix3 (bat n h) (y 1) p)) (n % 4) := by
  obtain ⟨a, k, b, rfl⟩ : ∃ (a : Fin 1) (k : Fin 256) (b : Fin 1), y = ix3 a k b := ⟨y 0, y 1, y 2, eq_ix3 y⟩
  obtain rfl : a = 0 := Subsingleton.elim _ _
  obtain rfl : b = 0 := Subsingleton.elim _ _
  exact run3 V c k n h

/-- A block is written back only after its batch element's last quarter; what is written then is the block of the
    whole-array function. -/
theorem flushed3_eq (c : Dev nD) (t : Fin cfg0.N) (hf : (cfg0.win 3).flush t = true) :
    (dat0 V c).flushed 3 t = ((cfg0.win 3).blk t).view.read (Elt Ideal) (G3 V c) := by
  have h3 : t.val % 4 = 3 := (flush0_3 t).mp hf
  obtain ⟨-, -, -, -, -, -, -, -, -, e0, e1, e2⟩ := idx_facts t
  show (cfg0.win 3).cut (grid0.coords t) ((dat0 V c).after 3 t) = _
  rw [after0_3]
  funext y
  have hy0 : (y 0).val = 0 := by have : (y 0).val < 1 := (y 0).isLt; omega
  show o3 V c t.val t.isLt ((cfg0.win 3).xinj (grid0.coords t) y) = G3 V c (((cfg0.win 3).blk t).view.emb y)
  refine (run3_idx V c t.val t.isLt _).trans ?_
  rw [h3]
  unfold G3
  refine congrArg (fun f => Cert.Spec.accR f 3) (funext fun p => congrArg (arr1 V c) (funext fun a => Fin.ext ?_))
  match a with
  | ⟨0, _⟩ => show t.val / 4 = win0_3.index t (0 : Fin 3) * 1 + 1 * (y 0).val; rw [e0, hy0]; omega
  | ⟨1, _⟩ => show (y 1).val = win0_3.index t (1 : Fin 3) * 256 + 1 * (y 1).val; rw [e1]; omega
  | ⟨2, _⟩ => rfl

/-- An index of the array is in point `t`'s block iff each coordinate is in the block's range on its axis. -/
theorem mem_blk2 (t : Fin cfg0.N) (i : S32x256x1.Idx) :
    i ∈ ((cfg0.win 2).blk t).view.set ↔ ∀ a : Fin 3, win0_2.index t a * S1x256x1.size a ≤ (i a).val
      ∧ (i a).val < win0_2.index t a * S1x256x1.size a + S1x256x1.size a := by
  show i ∈ ((View.whole main_v2_0).slice (win0_2.rect t)).set ↔ _
  rw [View.set_slice_whole, Rect.mem_set_unit]
  exact Iff.rfl

/-- Every entry (n, k, 0) lies in the block written back after the last quarter of batch element `n`, point 4n + 3. -/
theorem cover2 (i : S32x256x1.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 1 := (i 2).isLt
  obtain ⟨t, ht⟩ : ∃ t : Fin cfg0.N, t.val = 4 * (i 0).val + 3 := ⟨⟨4 * (i 0).val + 3, by rw [N128]; omega⟩, rfl⟩
  obtain ⟨-, -, -, -, -, -, e0, e1, e2, -⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 256 ≤ (i 1).val ∧ (i 1).val < win0_2.index t (1 : Fin 3) * 256 + 256; rw [e1]; omega
  | ⟨2, _⟩ => show win0_2.index t (2 : Fin 3) * 1 ≤ (i 2).val ∧ (i 2).val < win0_2.index t (2 : Fin 3) * 1 + 1; rw [e2]; omega

/-- So the array ends holding the whole-array function. -/
theorem final2 (c : Dev nD) : (dat0 V c).arrAt 2 cfg0.N = G2 V c :=
  (dat0 V c).arrAt_eq_of_cover 2 (G2 V c) (flushed2_eq V c) cover2

/-- An index of the array is in point `t`'s block iff each coordinate is in the block's range on its axis. -/
theorem mem_blk3 (t : Fin cfg0.N) (i : S32x256x1.Idx) :
    i ∈ ((cfg0.win 3).blk t).view.set ↔ ∀ a : Fin 3, win0_3.index t a * S1x256x1.size a ≤ (i a).val
      ∧ (i a).val < win0_3.index t a * S1x256x1.size a + S1x256x1.size a := by
  show i ∈ ((View.whole main_v2_1).slice (win0_3.rect t)).set ↔ _
  rw [View.set_slice_whole, Rect.mem_set_unit]
  exact Iff.rfl

/-- Every entry (n, k, 0) lies in the block written back after the last quarter of batch element `n`, point 4n + 3. -/
theorem cover3 (i : S32x256x1.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 1 := (i 2).isLt
  obtain ⟨t, ht⟩ : ∃ t : Fin cfg0.N, t.val = 4 * (i 0).val + 3 := ⟨⟨4 * (i 0).val + 3, by rw [N128]; omega⟩, rfl⟩
  obtain ⟨-, -, -, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 256 ≤ (i 1).val ∧ (i 1).val < win0_3.index t (1 : Fin 3) * 256 + 256; rw [e1]; omega
  | ⟨2, _⟩ => show win0_3.index t (2 : Fin 3) * 1 ≤ (i 2).val ∧ (i 2).val < win0_3.index t (2 : Fin 3) * 1 + 1; rw [e2]; omega

/-- So the array ends holding the whole-array function. -/
theorem final3 (c : Dev nD) : (dat0 V c).arrAt 3 cfg0.N = G3 V c :=
  (dat0 V c).arrAt_eq_of_cover 3 (G3 V c) (flushed3_eq V c) cover3

end Gap

/-- After the region the first sum array holds, at batch element `n` and channel `k`, the running sum of the four
    quarters of the first flattened input's row. -/
theorem gap2 (c : Dev nD) (n : Fin 32) (k : Fin 256) :
    ((dat0 V c).arrAt 2 cfg0.N : S32x256x1.Idx → EReal) (ix3 n k 0)
      = Cert.Spec.accR (fun p => (V c main_v0 : S32x256x4096.Idx → EReal) (ix3 n k p)) 3 := by
  exact congrFun (Gap.final2 V c) (ix3 n k 0)
/-- The same for the second sum array and the second flattened input. -/
theorem gap3 (c : Dev nD) (n : Fin 32) (k : Fin 256) :
    ((dat0 V c).arrAt 3 cfg0.N : S32x256x1.Idx → EReal) (ix3 n k 0)
      = Cert.Spec.accR (fun p => (V c main_v1 : S32x256x4096.Idx → EReal) (ix3 n k p)) 3 := by
  exact congrFun (Gap.final3 V c) (ix3 n k 0)

end Cert.ReferenceIdeal.RV

end
-- ==== Proof.RApply.lean ====
/-
  The second region of the reference program: an elementwise combination, tile by tile, of each flattened input with
  per-(batch, channel) columns. Stated at ANY contents the region may find on entry.
-/
import proofs.«121784_g2000609679484958_pallasbulk_1271_2_alg».proof.Proof.Gen.ReferenceIdeal.Frame
import proofs.«121784_g2000609679484958_pallasbulk_1271_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Gen

namespace Apply

/-! ## The body's two stores, read at an entry

Both stores flatten the tile's leading unit axis away, combine entry by entry with columns spread along the positions, and put the
unit axis back. -/

/-- A `[256, 1]` column spread over `[256, 1024]` reads, at `(k, q)`, the column's entry `k`. -/
theorem spread_apply (v : (⟨2, ![256, 1]⟩ : Shape).Idx → EReal) (h : (⟨2, ![256, 1]⟩ : Shape).Broadcasts ⟨2, ![256, 1024]⟩)
    (k : Fin 256) (q : Fin 1024) : broadcastTo ⟨2, ![256, 1024]⟩ v h (ix2 k q) = v (ix2 k (0 : Fin 1)) := by
  refine broadcastTo_apply v h (ix2 k q) (ix2 k (0 : Fin 1)) fun ax => ?_
  match ax with
  | ⟨0, _⟩ => rfl
  | ⟨1, _⟩ => rfl

/-- The first store's payload at tile entry `(u, k, q)`: the first tile's entry times the first column's entry `k` plus the
    third column's entry `k`. -/
theorem payLow_apply (x0 : Vec Ideal S1x256x1024 .f32) (x2 x4 : Vec Ideal S1x256x1 .f32) (u : Fin 1) (k : Fin 256) (q : Fin 1024) :
    k1_pay2 x0 x2 x4 (ix3 u k q)
      = x0 (ix3 (0 : Fin 1) k q) * x2 (ix3 (0 : Fin 1) k (0 : Fin 1)) + x4 (ix3 (0 : Fin 1) k (0 : Fin 1)) := by
  unfold k1_pay2
  refine (shapeCast_ab_1ab_apply _ _ u k q).trans ?_
  refine (addf_apply _ _ _).trans ?_
  refine congrArg₂ (· + ·) ((mulf_apply _ _ _).trans (congrArg₂ (· * ·) ?_ ?_)) ?_
  · exact shapeCast_1ab_ab_apply x0 _ k q
  · exact (spread_apply _ _ k q).trans (shapeCast_1ab_ab_apply x2 _ k (0 : Fin 1))
  · exact (spread_apply _ _ k q).trans (shapeCast_1ab_ab_apply x4 _ k (0 : Fin 1))

/-- The second store's payload at tile entry `(u, k, q)`: the second tile's entry times the second column's entry `k`. -/
theorem payHigh_apply (x1 : Vec Ideal S1x256x1024 .f32) (x3 : Vec Ideal S1x256x1 .f32) (u : Fin 1) (k : Fin 256) (q : Fin 1024) :
    k1_pay1 x1 x3 (ix3 u k q) = x1 (ix3 (0 : Fin 1) k q) * x3 (ix3 (0 : Fin 1) k (0 : Fin 1)) := by
  unfold k1_pay1
  refine (shapeCast_ab_1ab_apply _ _ u k q).trans ?_
  refine (mulf_apply _ _ _).trans (congrArg₂ (· * ·) ?_ ?_)
  · exact shapeCast_1ab_ab_apply x1 _ k q
  · exact (spread_apply _ _ k q).trans (shapeCast_1ab_ab_apply x3 _ k (0 : Fin 1))

end Apply

variable (V : (c : Dev nD) → (b : Ref sig .tc) → Buf (Elt Ideal) ((c : Thread nD τ).loc b))

/-- The arrays the region reads, named at their literal types: the two flattened inputs, the two gate columns and the
    vector column. -/
abbrev inLow (c : Dev nD) : S32x256x4096.Idx → EReal := V c main_v0
abbrev inHigh (c : Dev nD) : S32x256x4096.Idx → EReal := V c main_v1
abbrev colGateLow (c : Dev nD) : S32x256x1.Idx → EReal := V c main_v94
abbrev colGateHigh (c : Dev nD) : S32x256x1.Idx → EReal := V c main_v108
abbrev colVec (c : Dev nD) : S32x256x1.Idx → EReal := V c main_v109
/-- The two result arrays after the region. -/
abbrev res5 (c : Dev nD) : S32x256x4096.Idx → EReal := (dat1 V c).arrAt 5 cfg1.N
abbrev res6 (c : Dev nD) : S32x256x4096.Idx → EReal := (dat1 V c).arrAt 6 cfg1.N

namespace Apply

/-! ## The grid: where each window's tile sits

Point `t` of the 32 × 4 grid is batch element `t / 4`, quarter `t % 4`. The two inputs' and the two results' tiles are at
block index `(t / 4, 0, t % 4)`; the three columns' tiles at `(t / 4, 0, 0)`. -/

theorem zero3 : (![0, 0, 0] : Fin 3 → Nat) = fun _ => 0 := funext fun a => by fin_cases a <;> rfl

theorem tile_index : ∀ t : Fin cfg1.N,
    (win1_0.index t (0 : Fin 3) = t.val / 4 ∧ win1_0.index t (1 : Fin 3) = 0 ∧ win1_0.index t (2 : Fin 3) = t.val % 4)
    ∧ (win1_1.index t (0 : Fin 3) = t.val / 4 ∧ win1_1.index t (1 : Fin 3) = 0 ∧ win1_1.index t (2 : Fin 3) = t.val % 4)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = 0 ∧ win1_3.index t (2 : Fin 3) = 0)
    ∧ (win1_4.index t (0 : Fin 3) = t.val / 4 ∧ win1_4.index t (1 : Fin 3) = 0 ∧ win1_4.index t (2 : Fin 3) = 0)
    ∧ (win1_5.index t (0 : Fin 3) = t.val / 4 ∧ win1_5.index t (1 : Fin 3) = 0 ∧ win1_5.index t (2 : Fin 3) = t.val % 4)
    ∧ (win1_6.index t (0 : Fin 3) = t.val / 4 ∧ win1_6.index t (1 : Fin 3) = 0 ∧ win1_6.index t (2 : Fin 3) = t.val % 4) :=
  (by decide +kernel : ∀ t : Fin grid1.N, _)

/-! ## The tiles, read off the arrays -/

/-- The five input tiles at point `t`, named at their literal types. -/
abbrev tileLow (c : Dev nD) (t : Fin cfg1.N) : S1x256x1024.Idx → EReal := iblk1 V c 0 t
abbrev tileHigh (c : Dev nD) (t : Fin cfg1.N) : S1x256x1024.Idx → EReal := iblk1 V c 1 t
abbrev tileGateLow (c : Dev nD) (t : Fin cfg1.N) : S1x256x1.Idx → EReal := iblk1 V c 2 t
abbrev tileGateHigh (c : Dev nD) (t : Fin cfg1.N) : S1x256x1.Idx → EReal := iblk1 V c 3 t
abbrev tileVec (c : Dev nD) (t : Fin cfg1.N) : S1x256x1.Idx → EReal := iblk1 V c 4 t

/-- The first input's tile at point `t` holds, at `(u, k, q)`, the input's entry at batch element `t / 4`, channel `k`,
    position `(t % 4) * 1024 + q`. -/
theorem tileLow_apply (c : Dev nD) (t : Fin cfg1.N) (u : Fin 1) (k : Fin 256) (q : Fin 1024) (n : Fin 32) (p : Fin 4096)
    (hn : n.val = t.val / 4) (hp : p.val = t.val % 4 * 1024 + q.val) :
    tileLow V c t (ix3 u k q) = inLow V c (ix3 n k p) := by
  show V c main_v0 (((cfg1.win 0).blk t).view.emb (ix3 u k q)) = V c main_v0 (ix3 n k p)
  obtain ⟨⟨e0, e1, e2⟩, -⟩ := tile_index t
  refine congrArg (V c main_v0) (funext fun a => Fin.ext ?_)
  match a with
  | ⟨0, _⟩ => show win1_0.index t (0 : Fin 3) * 1 + 1 * u.val = n.val; have := u.isLt; omega
  | ⟨1, _⟩ => show win1_0.index t (1 : Fin 3) * 256 + 1 * k.val = k.val; omega
  | ⟨2, _⟩ => show win1_0.index t (2 : Fin 3) * 1024 + 1 * q.val = p.val; omega

/-- The second input's tile, likewise. -/
theorem tileHigh_apply (c : Dev nD) (t : Fin cfg1.N) (u : Fin 1) (k : Fin 256) (q : Fin 1024) (n : Fin 32) (p : Fin 4096)
    (hn : n.val = t.val / 4) (hp : p.val = t.val % 4 * 1024 + q.val) :
    tileHigh V c t (ix3 u k q) = inHigh V c (ix3 n k p) := by
  show V c main_v1 (((cfg1.win 1).blk t).view.emb (ix3 u k q)) = V c main_v1 (ix3 n k p)
  obtain ⟨-, ⟨e0, e1, e2⟩, -⟩ := tile_index t
  refine congrArg (V c main_v1) (funext fun a => Fin.ext ?_)
  match a with
  | ⟨0, _⟩ => show win1_1.index t (0 : Fin 3) * 1 + 1 * u.val = n.val; have := u.isLt; omega
  | ⟨1, _⟩ => show win1_1.index t (1 : Fin 3) * 256 + 1 * k.val = k.val; omega
  | ⟨2, _⟩ => show win1_1.index t (2 : Fin 3) * 1024 + 1 * q.val = p.val; omega

/-- The first gate column's tile at point `t` holds, at `(u, k, z)`, the column's entry at batch element `t / 4`, channel `k`. -/
theorem tileGateLow_apply (c : Dev nD) (t : Fin cfg1.N) (u : Fin 1) (k : Fin 256) (z : Fin 1) (n : Fin 32)
    (hn : n.val = t.val / 4) : tileGateLow V c t (ix3 u k z) = colGateLow V c (ix3 n k 0) := by
  show V c main_v94 (((cfg1.win 2).blk t).view.emb (ix3 u k z)) = V c main_v94 (ix3 n k 0)
  obtain ⟨-, -, ⟨e0, e1, e2⟩, -⟩ := tile_index t
  refine congrArg (V c main_v94) (funext fun a => Fin.ext ?_)
  match a with
  | ⟨0, _⟩ => show win1_2.index t (0 : Fin 3) * 1 + 1 * u.val = n.val; have := u.isLt; omega
  | ⟨1, _⟩ => show win1_2.index t (1 : Fin 3) * 256 + 1 * k.val = k.val; omega
  | ⟨2, _⟩ => show win1_2.index t (2 : Fin 3) * 1 + 1 * z.val = 0; have := z.isLt; omega

/-- The second gate column's tile, likewise. -/
theorem tileGateHigh_apply (c : Dev nD) (t : Fin cfg1.N) (u : Fin 1) (k : Fin 256) (z : Fin 1) (n : Fin 32)
    (hn : n.val = t.val / 4) : tileGateHigh V c t (ix3 u k z) = colGateHigh V c (ix3 n k 0) := by
  show V c main_v108 (((cfg1.win 3).blk t).view.emb (ix3 u k z)) = V c main_v108 (ix3 n k 0)
  obtain ⟨-, -, -, ⟨e0, e1, e2⟩, -⟩ := tile_index t
  refine congrArg (V c main_v108) (funext fun a => Fin.ext ?_)
  match a with
  | ⟨0, _⟩ => show win1_3.index t (0 : Fin 3) * 1 + 1 * u.val = n.val; have := u.isLt; omega
  | ⟨1, _⟩ => show win1_3.index t (1 : Fin 3) * 256 + 1 * k.val = k.val; omega
  | ⟨2, _⟩ => show win1_3.index t (2 : Fin 3) * 1 + 1 * z.val = 0; have := z.isLt; omega

/-- The vector column's tile, likewise. -/
theorem tileVec_apply (c : Dev nD) (t : Fin cfg1.N) (u : Fin 1) (k : Fin 256) (z : Fin 1) (n : Fin 32)
    (hn : n.val = t.val / 4) : tileVec V c t (ix3 u k z) = colVec V c (ix3 n k 0) := by
  show V c main_v109 (((cfg1.win 4).blk t).view.emb (ix3 u k z)) = V c main_v109 (ix3 n k 0)
  obtain ⟨-, -, -, -, ⟨e0, e1, e2⟩, -⟩ := tile_index t
  refine congrArg (V c main_v109) (funext fun a => Fin.ext ?_)
  match a with
  | ⟨0, _⟩ => show win1_4.index t (0 : Fin 3) * 1 + 1 * u.val = n.val; have := u.isLt; omega
  | ⟨1, _⟩ => show win1_4.index t (1 : Fin 3) * 256 + 1 * k.val = k.val; omega
  | ⟨2, _⟩ => show win1_4.index t (2 : Fin 3) * 1 + 1 * z.val = 0; have := z.isLt; omega

/-! ## The two result arrays as functions of the entry contents -/

/-- The first result at batch element `n`, channel `k`, position `p`. -/
def lowAt (c : Dev nD) (n : Fin 32) (k : Fin 256) (p : Fin 4096) : EReal :=
  inLow V c (ix3 n k p) * colGateLow V c (ix3 n k 0) + colVec V c (ix3 n k 0)
/-- The second result at batch element `n`, channel `k`, position `p`. -/
def highAt (c : Dev nD) (n : Fin 32) (k : Fin 256) (p : Fin 4096) : EReal :=
  inHigh V c (ix3 n k p) * colGateHigh V c (ix3 n k 0)

/-- The first result as one array. -/
abbrev lowArr (c : Dev nD) : S32x256x4096.Idx → EReal := fun i => lowAt V c (i 0) (i 1) (i 2)
/-- The second result as one array. -/
abbrev highArr (c : Dev nD) : S32x256x4096.Idx → EReal := fun i => highAt V c (i 0) (i 1) (i 2)

/-- Entry `(u, k, q)` of the first result's tile at point `t` sits in the array at batch element `t / 4`, channel `k`, position
    `(t % 4) * 1024 + q`. -/
theorem slotLow (t : Fin cfg1.N) (u : Fin 1) (k : Fin 256) (q : Fin 1024) (n : Fin 32) (p : Fin 4096)
    (hn : n.val = t.val / 4) (hp : p.val = t.val % 4 * 1024 + q.val) :
    (((cfg1.win 5).blk t).view.emb (ix3 u k q) : S32x256x4096.Idx) = ix3 n k p := by
  obtain ⟨-, -, -, -, -, ⟨e0, e1, e2⟩, -⟩ := tile_index t
  refine funext fun a => Fin.ext ?_
  match a with
  | ⟨0, _⟩ => show win1_5.index t (0 : Fin 3) * 1 + 1 * u.val = n.val; have := u.isLt; omega
  | ⟨1, _⟩ => show win1_5.index t (1 : Fin 3) * 256 + 1 * k.val = k.val; omega
  | ⟨2, _⟩ => show win1_5.index t (2 : Fin 3) * 1024 + 1 * q.val = p.val; omega

/-- The second result's tile, likewise. -/
theorem slotHigh (t : Fin cfg1.N) (u : Fin 1) (k : Fin 256) (q : Fin 1024) (n : Fin 32) (p : Fin 4096)
    (hn : n.val = t.val / 4) (hp : p.val = t.val % 4 * 1024 + q.val) :
    (((cfg1.win 6).blk t).view.emb (ix3 u k q) : S32x256x4096.Idx) = ix3 n k p := by
  obtain ⟨-, -, -, -, -, -, ⟨e0, e1, e2⟩⟩ := tile_index t
  refine funext fun a => Fin.ext ?_
  match a with
  | ⟨0, _⟩ => show win1_6.index t (0 : Fin 3) * 1 + 1 * u.val = n.val; have := u.isLt; omega
  | ⟨1, _⟩ => show win1_6.index t (1 : Fin 3) * 256 + 1 * k.val = k.val; omega
  | ⟨2, _⟩ => show win1_6.index t (2 : Fin 3) * 1024 + 1 * q.val = p.val; omega

/-! ## What each point writes back -/

/-- Point `t` writes back, to the first result, tile `t` of `lowArr`. -/
theorem writeLow (c : Dev nD) (t : Fin cfg1.N) :
    (dat1 V c).flushed 5 t = ((cfg1.win 5).blk t).view.read (Elt Ideal) (lowArr V c) := by
  show (cfg1.win 5).cut (grid1.coords t) ((dat1 V c).after 5 t) = _
  rw [after1_5]
  unfold out1_5
  rw [View.canon_unit_zero zero3]
  simp only [View.ld_unit_zero (S := S1x256x1024) zero3, View.ld_unit_zero (S := S1x256x1) zero3]
  funext j
  obtain ⟨u, k, q, rfl⟩ : ∃ (u : Fin 1) (k : Fin 256) (q : Fin 1024), j = ix3 u k q := ⟨j 0, j 1, j 2, eq_ix3 j⟩
  have ht : t.val < 128 := Nat.lt_of_lt_of_eq t.isLt N_1
  have hq : q.val < 1024 := q.isLt
  obtain ⟨n, hn⟩ : ∃ n : Fin 32, n.val = t.val / 4 := ⟨⟨t.val / 4, by omega⟩, rfl⟩
  obtain ⟨p, hp⟩ : ∃ p : Fin 4096, p.val = t.val % 4 * 1024 + q.val := ⟨⟨t.val % 4 * 1024 + q.val, by omega⟩, rfl⟩
  show k1_pay2 (F := Ideal) (tileLow V c t) (tileGateLow V c t) (tileVec V c t) (ix3 u k q)
    = lowArr V c (((cfg1.win 5).blk t).view.emb (ix3 u k q))
  rw [slotLow t u k q n p hn hp]
  refine (payLow_apply (tileLow V c t) (tileGateLow V c t) (tileVec V c t) u k q).trans ?_
  rw [tileLow_apply V c t 0 k q n p hn hp, tileGateLow_apply V c t 0 k 0 n hn, tileVec_apply V c t 0 k 0 n hn]
  rfl

/-- Point `t` writes back, to the second result, tile `t` of `highArr`. -/
theorem writeHigh (c : Dev nD) (t : Fin cfg1.N) :
    (dat1 V c).flushed 6 t = ((cfg1.win 6).blk t).view.read (Elt Ideal) (highArr V c) := by
  show (cfg1.win 6).cut (grid1.coords t) ((dat1 V c).after 6 t) = _
  rw [after1_6]
  unfold out1_6
  rw [View.canon_unit_zero zero3]
  simp only [View.ld_unit_zero (S := S1x256x1024) zero3, View.ld_unit_zero (S := S1x256x1) zero3]
  funext j
  obtain ⟨u, k, q, rfl⟩ : ∃ (u : Fin 1) (k : Fin 256) (q : Fin 1024), j = ix3 u k q := ⟨j 0, j 1, j 2, eq_ix3 j⟩
  have ht : t.val < 128 := Nat.lt_of_lt_of_eq t.isLt N_1
  have hq : q.val < 1024 := q.isLt
  obtain ⟨n, hn⟩ : ∃ n : Fin 32, n.val = t.val / 4 := ⟨⟨t.val / 4, by omega⟩, rfl⟩
  obtain ⟨p, hp⟩ : ∃ p : Fin 4096, p.val = t.val % 4 * 1024 + q.val := ⟨⟨t.val % 4 * 1024 + q.val, by omega⟩, rfl⟩
  show k1_pay1 (F := Ideal) (tileHigh V c t) (tileGateHigh V c t) (ix3 u k q)
    = highArr V c (((cfg1.win 6).blk t).view.emb (ix3 u k q))
  rw [slotHigh t u k q n p hn hp]
  refine (payHigh_apply (tileHigh V c t) (tileGateHigh V c t) u k q).trans ?_
  rw [tileHigh_apply V c t 0 k q n p hn hp, tileGateHigh_apply V c t 0 k 0 n hn]
  rfl

/-! ## The tiles cover the arrays

Array index `(n, k, p)` lies in the tile of point `4 * n + p / 1024`. -/

/-- An index of the first result is in point `t`'s tile iff each coordinate is in the tile's range on its axis. -/
theorem mem_tileLow (t : Fin cfg1.N) (i : S32x256x4096.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v110_0).slice (win1_5.rect t)).set ↔ _
  rw [View.set_slice_whole, Rect.mem_set_unit]
  exact Iff.rfl

/-- The second result's tiles, likewise. -/
theorem mem_tileHigh (t : Fin cfg1.N) (i : S32x256x4096.Idx) :
    i ∈ ((cfg1.win 6).blk t).view.set ↔ ∀ a : Fin 3, win1_6.index t a * S1x256x1024.size a ≤ (i a).val
      ∧ (i a).val < win1_6.index t a * S1x256x1024.size a + S1x256x1024.size a := by
  show i ∈ ((View.whole main_v110_1).slice (win1_6.rect t)).set ↔ _
  rw [View.set_slice_whole, Rect.mem_set_unit]
  exact Iff.rfl

/-- Every index of the first result is in some point's tile. -/
theorem coverLow (i : S32x256x4096.Idx) :
    ∃ t : Fin cfg1.N, (cfg1.win 5).flush t = true ∧ i ∈ ((cfg1.win 5).blk t).view.set := by
  have h0 : (i 0).val < 32 := (i 0).isLt
  have h1 : (i 1).val < 256 := (i 1).isLt
  have h2 : (i 2).val < 4096 := (i 2).isLt
  obtain ⟨t, tv⟩ : ∃ t : Fin cfg1.N, t.val = 4 * (i 0).val + (i 2).val / 1024 :=
    ⟨⟨4 * (i 0).val + (i 2).val / 1024, Nat.lt_of_lt_of_eq (by omega) N_1.symm⟩, rfl⟩
  obtain ⟨-, -, -, -, -, ⟨e0, e1, e2⟩, -⟩ := tile_index t
  refine ⟨t, flush1_5 t, ?_⟩
  rw [mem_tileLow]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 256 ≤ (i 1).val ∧ (i 1).val < win1_5.index t (1 : Fin 3) * 256 + 256
    omega
  | ⟨2, _⟩ =>
    show win1_5.index t (2 : Fin 3) * 1024 ≤ (i 2).val ∧ (i 2).val < win1_5.index t (2 : Fin 3) * 1024 + 1024
    omega

/-- Every index of the second result is in some point's tile. -/
theorem coverHigh (i : S32x256x4096.Idx) :
    ∃ t : Fin cfg1.N, (cfg1.win 6).flush t = true ∧ i ∈ ((cfg1.win 6).blk t).view.set := by
  have h0 : (i 0).val < 32 := (i 0).isLt
  have h1 : (i 1).val < 256 := (i 1).isLt
  have h2 : (i 2).val < 4096 := (i 2).isLt
  obtain ⟨t, tv⟩ : ∃ t : Fin cfg1.N, t.val = 4 * (i 0).val + (i 2).val / 1024 :=
    ⟨⟨4 * (i 0).val + (i 2).val / 1024, Nat.lt_of_lt_of_eq (by omega) N_1.symm⟩, rfl⟩
  obtain ⟨-, -, -, -, -, -, ⟨e0, e1, e2⟩⟩ := tile_index t
  refine ⟨t, flush1_6 t, ?_⟩
  rw [mem_tileHigh]
  intro a
  match a with
  | ⟨0, _⟩ =>
    show win1_6.index t (0 : Fin 3) * 1 ≤ (i 0).val ∧ (i 0).val < win1_6.index t (0 : Fin 3) * 1 + 1
    omega
  | ⟨1, _⟩ =>
    show win1_6.index t (1 : Fin 3) * 256 ≤ (i 1).val ∧ (i 1).val < win1_6.index t (1 : Fin 3) * 256 + 256
    omega
  | ⟨2, _⟩ =>
    show win1_6.index t (2 : Fin 3) * 1024 ≤ (i 2).val ∧ (i 2).val < win1_6.index t (2 : Fin 3) * 1024 + 1024
    omega

/-! ## The arrays after the region -/

/-- The first result array after the region is `lowArr`: every point writes its tile of it, and the tiles cover the array. -/
theorem res5_eq (c : Dev nD) : res5 V c = lowArr V c :=
  (dat1 V c).arrAt_eq_of_cover 5 (lowArr V c) (fun t _ => writeLow V c t) coverLow

/-- The second result array after the region is `highArr`. -/
theorem res6_eq (c : Dev nD) : res6 V c = highArr V c :=
  (dat1 V c).arrAt_eq_of_cover 6 (highArr V c) (fun t _ => writeHigh V c t) coverHigh

end Apply

/-- The first result array after the region: the first input times the first gate column plus the vector column. -/
theorem apply5 (c : Dev nD) (n : Fin 32) (k : Fin 256) (p : Fin 4096) :
    res5 V c (ix3 n k p) = inLow V c (ix3 n k p) * colGateLow V c (ix3 n k 0) + colVec V c (ix3 n k 0) := by
  exact congrFun (Apply.res5_eq V c) (ix3 n k p)
/-- The second result array after the region: the second input times the second gate column. -/
theorem apply6 (c : Dev nD) (n : Fin 32) (k : Fin 256) (p : Fin 4096) :
    res6 V c (ix3 n k p) = inHigh V c (ix3 n k p) * colGateHigh V c (ix3 n k 0) := by
  exact congrFun (Apply.res6_eq V c) (ix3 n k p)

end Cert.ReferenceIdeal.RV

end
-- ==== Proof.RHostLv.lean ====
/-
  The host lines between the two regions of the reference program, first half: from the sum arrays and the
  parameters to each branch's channel vector (mean, layer, normalisation, rectifier, layer, normalisation). Stated at
  ANY buffer contents before the stretch.
-/
import proofs.«121784_g2000609679484958_pallasbulk_1271_2_alg».proof.Proof.Gen.ReferenceIdeal.Frame
import proofs.«121784_g2000609679484958_pallasbulk_1271_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Gen

variable (W : Valuation τ sig (Elt Ideal))

/-- The first branch's parameters read off the contents `W`. -/
def brLowW : Cert.Spec.Branch where
  w1 j k := (W (Proc.devRef .tc main_arg2) : S16x256.Idx → EReal) (ix2 j k)
  b1 j := (W (Proc.devRef .tc main_arg3) : S16.Idx → EReal) (ix1 j)
  g1 j := (W (Proc.devRef .tc main_arg4) : S16.Idx → EReal) (ix1 j)
  be1 j := (W (Proc.devRef .tc main_arg5) : S16.Idx → EReal) (ix1 j)
  mu1 j := (W (Proc.devRef .tc main_arg6) : S16.Idx → EReal) (ix1 j)
  va1 j := (W (Proc.devRef .tc main_arg7) : S16.Idx → EReal) (ix1 j)
  w2 k j := (W (Proc.devRef .tc main_arg8) : S256x16.Idx → EReal) (ix2 k j)
  b2 k := (W (Proc.devRef .tc main_arg9) : S256.Idx → EReal) (ix1 k)
  g2 k := (W (Proc.devRef .tc main_arg10) : S256.Idx → EReal) (ix1 k)
  be2 k := (W (Proc.devRef .tc main_arg11) : S256.Idx → EReal) (ix1 k)
  mu2 k := (W (Proc.devRef .tc main_arg12) : S256.Idx → EReal) (ix1 k)
  va2 k := (W (Proc.devRef .tc main_arg13) : S256.Idx → EReal) (ix1 k)

/-- The second branch's parameters read off the contents `W`. -/
def brHighW : Cert.Spec.Branch where
  w1 j k := (W (Proc.devRef .tc main_arg14) : S16x256.Idx → EReal) (ix2 j k)
  b1 j := (W (Proc.devRef .tc main_arg15) : S16.Idx → EReal) (ix1 j)
  g1 j := (W (Proc.devRef .tc main_arg16) : S16.Idx → EReal) (ix1 j)
  be1 j := (W (Proc.devRef .tc main_arg17) : S16.Idx → EReal) (ix1 j)
  mu1 j := (W (Proc.devRef .tc main_arg18) : S16.Idx → EReal) (ix1 j)
  va1 j := (W (Proc.devRef .tc main_arg19) : S16.Idx → EReal) (ix1 j)
  w2 k j := (W (Proc.devRef .tc main_arg20) : S256x16.Idx → EReal) (ix2 k j)
  b2 k := (W (Proc.devRef .tc main_arg21) : S256.Idx → EReal) (ix1 k)
  g2 k := (W (Proc.devRef .tc main_arg22) : S256.Idx → EReal) (ix1 k)
  be2 k := (W (Proc.devRef .tc main_arg23) : S256.Idx → EReal) (ix1 k)
  mu2 k := (W (Proc.devRef .tc main_arg24) : S256.Idx → EReal) (ix1 k)
  va2 k := (W (Proc.devRef .tc main_arg25) : S256.Idx → EReal) (ix1 k)

/-- The two sum arrays before the stretch, and the two channel vectors after it, named at their literal types. -/
abbrev sumLow : S32x256x1.Idx → EReal := W (Proc.devRef .tc main_v2_0)
abbrev sumHigh : S32x256x1.Idx → EReal := W (Proc.devRef .tc main_v2_1)
abbrev vecLow : S32x256.Idx → EReal := StableHlo.after hostOps1 W (Proc.devRef .tc main_v44)
abbrev vecHigh : S32x256.Idx → EReal := StableHlo.after hostOps1 W (Proc.devRef .tc main_v80)

namespace Lv

/-! ## The operations of one branch, read at an index -/

section Vec

/-- A scalar broadcast to any shape reads the scalar everywhere. -/
theorem bcast0_apply {t : Shape} (h : S_.BroadcastsInDim t (![] : Fin 0 → Fin t.rank)) (x : FVec Ideal S_ .f32) (j : t.Idx) :
    broadcastInDim t ![] h x j = x ix0 :=
  broadcastInDim_apply _ h x j ix0 fun a => a.elim0

/-- A vector of 16 entries laid along the rows of a 32 × 16 array reads its own entry in every row. -/
theorem row16_apply (v : FVec Ideal S16 .f32) (n : Fin 32) (j : Fin 16) :
    broadcastInDim S32x16 ![0, 1] bcast_S1x16_S32x16_0_1 (broadcastInDim S1x16 ![1] bcast_S16_S1x16_1 v) (ix2 n j) = v (ix1 j) := by
  refine (broadcastInDim_apply _ _ _ (ix2 n j) (ix2 (0 : Fin 1) j) fun a => ?_).trans ?_
  · match a with
    | ⟨0, _⟩ => rfl
    | ⟨1, _⟩ => rfl
  · exact broadcastInDim_apply _ _ v (ix2 (0 : Fin 1) j) (ix1 j) fun a => match a with | ⟨0, _⟩ => rfl

/-- A vector of 256 entries laid along the rows of a 32 × 256 array reads its own entry in every row. -/
theorem row256_apply (v : FVec Ideal S256 .f32) (n : Fin 32) (k : Fin 256) :
    broadcastInDim S32x256 ![0, 1] bcast_S1x256_S32x256_0_1 (broadcastInDim S1x256 ![1] bcast_S256_S1x256_1 v) (ix2 n k) = v (ix1 k) := by
  refine (broadcastInDim_apply _ _ _ (ix2 n k) (ix2 (0 : Fin 1) k) fun a => ?_).trans ?_
  · match a with
    | ⟨0, _⟩ => rfl
    | ⟨1, _⟩ => rfl
  · exact broadcastInDim_apply _ _ v (ix2 (0 : Fin 1) k) (ix1 k) fun a => match a with | ⟨0, _⟩ => rfl

end Vec

section Dot

/-! The first product contracts the 256 channels of a 32 × 256 array with a 256 × 16 array; the second the 16 hidden
    units of a 32 × 16 array with a 16 × 256 array. In each the left operand's row is the result's row, the right
    operand's column the result's column, and both contracted coordinates the summation index. -/

theorem lhsA_0 (i : S32x16.Idx) (q : dot_S32x256_S256x16_S32x16_1_0_0_1_n_n.contr.Idx) :
    (dot_S32x256_S256x16_S32x16_1_0_0_1_n_n.lhsIdx i q 0).val = (i 0).val := by
  unfold DotDims.lhsIdx
  rw [dif_neg (show ¬(0 : Fin S32x256.rank) ∈ dot_S32x256_S256x16_S32x16_1_0_0_1_n_n.lhsBatch by decide),
    dif_pos (show (0 : Fin S32x256.rank) ∈ dot_S32x256_S256x16_S32x16_1_0_0_1_n_n.lhsNonContracting by decide)]
  rfl
theorem lhsA_1 (i : S32x16.Idx) (q : dot_S32x256_S256x16_S32x16_1_0_0_1_n_n.contr.Idx) :
    (dot_S32x256_S256x16_S32x16_1_0_0_1_n_n.lhsIdx i q 1).val = (q ⟨0, by decide⟩).val :=
  dot_S32x256_S256x16_S32x16_1_0_0_1_n_n.lhsIdx_val_of_single rfl i q
theorem rhsA_0 (i : S32x16.Idx) (q : dot_S32x256_S256x16_S32x16_1_0_0_1_n_n.contr.Idx) :
    (dot_S32x256_S256x16_S32x16_1_0_0_1_n_n.rhsIdx i q 0).val = (q ⟨0, by decide⟩).val :=
  dot_S32x256_S256x16_S32x16_1_0_0_1_n_n.rhsIdx_val_of_single rfl i q
theorem rhsA_1 (i : S32x16.Idx) (q : dot_S32x256_S256x16_S32x16_1_0_0_1_n_n.contr.Idx) :
    (dot_S32x256_S256x16_S32x16_1_0_0_1_n_n.rhsIdx i q 1).val = (i 1).val := by
  unfold DotDims.rhsIdx
  rw [dif_neg (show ¬(1 : Fin S256x16.rank) ∈ dot_S32x256_S256x16_S32x16_1_0_0_1_n_n.rhsBatch by decide),
    dif_pos (show (1 : Fin S256x16.rank) ∈ dot_S32x256_S256x16_S32x16_1_0_0_1_n_n.rhsNonContracting by decide)]
  rfl

/-- The first product at an index: the sum over the 256 channels. -/
theorem dotA_apply (x : FVec Ideal S32x256 .f32) (y : FVec Ideal S256x16 .f32) (n : Fin 32) (j : Fin 16) :
    Host.dotGeneral (F := Ideal) dot_S32x256_S256x16_S32x16_1_0_0_1_n_n none x y (ix2 n j)
      = ∑ c : Fin 256, x (ix2 n c) * y (ix2 c j) := by
  show FloatOps.dotGeneral _ none _ x y (ix2 n j) = _
  rw [Ideal.dotGeneral_apply, ← Equiv.sum_comp (contrEquiv1 dot_S32x256_S256x16_S32x16_1_0_0_1_n_n 256 rfl rfl).symm]
  refine Finset.sum_congr rfl fun c _ => ?_
  have hk := contrEquiv1_symm_val dot_S32x256_S256x16_S32x16_1_0_0_1_n_n 256 rfl rfl c
  have el : dot_S32x256_S256x16_S32x16_1_0_0_1_n_n.lhsIdx (ix2 n j)
      ((contrEquiv1 dot_S32x256_S256x16_S32x16_1_0_0_1_n_n 256 rfl rfl).symm c) = ix2 n c := funext fun a => Fin.ext (by
    match a with
    | ⟨0, _⟩ => exact lhsA_0 _ _
    | ⟨1, _⟩ => exact (lhsA_1 _ _).trans hk)
  have er : dot_S32x256_S256x16_S32x16_1_0_0_1_n_n.rhsIdx (ix2 n j)
      ((contrEquiv1 dot_S32x256_S256x16_S32x16_1_0_0_1_n_n 256 rfl rfl).symm c) = ix2 c j := funext fun a => Fin.ext (by
    match a with
    | ⟨0, _⟩ => exact (rhsA_0 _ _).trans hk
    | ⟨1, _⟩ => exact rhsA_1 _ _)
  rw [el, er]

theorem lhsB_0 (i : S32x256.Idx) (q : dot_S32x16_S16x256_S32x256_1_0_0_1_n_n.contr.Idx) :
    (dot_S32x16_S16x256_S32x256_1_0_0_1_n_n.lhsIdx i q 0).val = (i 0).val := by
  unfold DotDims.lhsIdx
  rw [dif_neg (show ¬(0 : Fin S32x16.rank) ∈ dot_S32x16_S16x256_S32x256_1_0_0_1_n_n.lhsBatch by decide),
    dif_pos (show (0 : Fin S32x16.rank) ∈ dot_S32x16_S16x256_S32x256_1_0_0_1_n_n.lhsNonContracting by decide)]
  rfl
theorem lhsB_1 (i : S32x256.Idx) (q : dot_S32x16_S16x256_S32x256_1_0_0_1_n_n.contr.Idx) :
    (dot_S32x16_S16x256_S32x256_1_0_0_1_n_n.lhsIdx i q 1).val = (q ⟨0, by decide⟩).val :=
  dot_S32x16_S16x256_S32x256_1_0_0_1_n_n.lhsIdx_val_of_single rfl i q
theorem rhsB_0 (i : S32x256.Idx) (q : dot_S32x16_S16x256_S32x256_1_0_0_1_n_n.contr.Idx) :
    (dot_S32x16_S16x256_S32x256_1_0_0_1_n_n.rhsIdx i q 0).val = (q ⟨0, by decide⟩).val :=
  dot_S32x16_S16x256_S32x256_1_0_0_1_n_n.rhsIdx_val_of_single rfl i q
theorem rhsB_1 (i : S32x256.Idx) (q : dot_S32x16_S16x256_S32x256_1_0_0_1_n_n.contr.Idx) :
    (dot_S32x16_S16x256_S32x256_1_0_0_1_n_n.rhsIdx i q 1).val = (i 1).val := by
  unfold DotDims.rhsIdx
  rw [dif_neg (show ¬(1 : Fin S16x256.rank) ∈ dot_S32x16_S16x256_S32x256_1_0_0_1_n_n.rhsBatch by decide),
    dif_pos (show (1 : Fin S16x256.rank) ∈ dot_S32x16_S16x256_S32x256_1_0_0_1_n_n.rhsNonContracting by decide)]
  rfl

/-- The second product at an index: the sum over the 16 hidden units. -/
theorem dotB_apply (x : FVec Ideal S32x16 .f32) (y : FVec Ideal S16x256 .f32) (n : Fin 32) (k : Fin 256) :
    Host.dotGeneral (F := Ideal) dot_S32x16_S16x256_S32x256_1_0_0_1_n_n none x y (ix2 n k)
      = ∑ j : Fin 16, x (ix2 n j) * y (ix2 j k) := by
  show FloatOps.dotGeneral _ none _ x y (ix2 n k) = _
  rw [Ideal.dotGeneral_apply, ← Equiv.sum_comp (contrEquiv1 dot_S32x16_S16x256_S32x256_1_0_0_1_n_n 16 rfl rfl).symm]
  refine Finset.sum_congr rfl fun c _ => ?_
  have hk := contrEquiv1_symm_val dot_S32x16_S16x256_S32x256_1_0_0_1_n_n 16 rfl rfl c
  have el : dot_S32x16_S16x256_S32x256_1_0_0_1_n_n.lhsIdx (ix2 n k)
      ((contrEquiv1 dot_S32x16_S16x256_S32x256_1_0_0_1_n_n 16 rfl rfl).symm c) = ix2 n c := funext fun a => Fin.ext (by
    match a with
    | ⟨0, _⟩ => exact lhsB_0 _ _
    | ⟨1, _⟩ => exact (lhsB_1 _ _).trans hk)
  have er : dot_S32x16_S16x256_S32x256_1_0_0_1_n_n.rhsIdx (ix2 n k)
      ((contrEquiv1 dot_S32x16_S16x256_S32x256_1_0_0_1_n_n 16 rfl rfl).symm c) = ix2 c k := funext fun a => Fin.ext (by
    match a with
    | ⟨0, _⟩ => exact (rhsB_0 _ _).trans hk
    | ⟨1, _⟩ => exact rhsB_1 _ _)
  rw [el, er]

end Dot

section Branch

/-! ### The pieces of one branch, as functions of whole arrays, each read at an index -/

/-- The channel means as the program forms them: the sum array without its unit axis, times 2⁻¹². -/
def meanVec (gsum : FVec Ideal S32x256x1 .f32) : FVec Ideal S32x256 .f32 :=
  mulf (fun i => shapeCast S32x256 gsum shapeCasts_S32x256x1_S32x256 i)
    (broadcastInDim S32x256 ![] bcast_S_S32x256 (constant (F := Ideal) S_ .f32 0x39800000#32))

theorem meanVec_apply (gsum : FVec Ideal S32x256x1 .f32) (n : Fin 32) (c : Fin 256) :
    meanVec gsum (ix2 n c) = gsum (ix3 n c 0) * Cert.Spec.invHW := by
  unfold meanVec
  rw [mulf_apply, bcast0_apply, constant_apply]
  unfold Cert.Spec.invHW
  refine congrArg (· * _) ?_
  exact shapeCast_apply gsum shapeCasts_S32x256x1_S32x256 (ix2 n c) (ix3 n c (0 : Fin 1)) (by
    rw [Shape.rowMajor_val_three, Shape.rowMajor_val_two]
    show (n.val * 256 + c.val) * 1 + 0 = n.val * 256 + c.val
    omega)

/-- A normalisation's scale over 16 units: γ / √(v + ε), entry by entry. -/
def scale16 (g va : FVec Ideal S16 .f32) : FVec Ideal S16 .f32 :=
  Host.divf g (Host.sqrt (addf va (broadcastInDim S16 ![] bcast_S_S16 (constant (F := Ideal) S_ .f32 0x3727C5AC#32))))

theorem scale16_apply (g va : FVec Ideal S16 .f32) (j : Fin 16) :
    scale16 g va (ix1 j) = Cert.Spec.scale (g (ix1 j)) (va (ix1 j)) := by
  unfold scale16 Cert.Spec.scale Cert.Spec.eps
  show Ideal.div (g (ix1 j)) (Ideal.sqrt (va (ix1 j)
    + broadcastInDim S16 ![] bcast_S_S16 (constant (F := Ideal) S_ .f32 0x3727C5AC#32) (ix1 j))) = _
  rw [bcast0_apply, constant_apply]

/-- The same over 256 channels. -/
def scale256 (g va : FVec Ideal S256 .f32) : FVec Ideal S256 .f32 :=
  Host.divf g (Host.sqrt (addf va (broadcastInDim S256 ![] bcast_S_S256 (constant (F := Ideal) S_ .f32 0x3727C5AC#32))))

theorem scale256_apply (g va : FVec Ideal S256 .f32) (k : Fin 256) :
    scale256 g va (ix1 k) = Cert.Spec.scale (g (ix1 k)) (va (ix1 k)) := by
  unfold scale256 Cert.Spec.scale Cert.Spec.eps
  show Ideal.div (g (ix1 k)) (Ideal.sqrt (va (ix1 k)
    + broadcastInDim S256 ![] bcast_S_S256 (constant (F := Ideal) S_ .f32 0x3727C5AC#32) (ix1 k))) = _
  rw [bcast0_apply, constant_apply]

/-- A normalisation's shift: β - μ * s, entry by entry. -/
def shiftVec {s : Shape} (be mu sc : FVec Ideal s .f32) : FVec Ideal s .f32 := subf be (mulf mu sc)

theorem shiftVec_apply {s : Shape} (be mu sc : FVec Ideal s .f32) (i : s.Idx) :
    shiftVec be mu sc i = Cert.Spec.shift (be i) (mu i) (sc i) := rfl

/-- The hidden layer: the means times the transposed first weight, plus the bias, normalised, rectified. -/
def hidVec (x : FVec Ideal S32x256 .f32) (w1 : FVec Ideal S16x256 .f32) (b1 s1 t1 : FVec Ideal S16 .f32) : FVec Ideal S32x16 .f32 :=
  maximumf
    (addf
      (mulf
        (addf
          (Host.dotGeneral dot_S32x256_S256x16_S32x16_1_0_0_1_n_n none x
            (transpose S256x16 [1, 0] w1 transposes_S16x256_S256x16_1_0))
          (broadcastInDim S32x16 ![0, 1] bcast_S1x16_S32x16_0_1 (broadcastInDim S1x16 ![1] bcast_S16_S1x16_1 b1)))
        (broadcastInDim S32x16 ![0, 1] bcast_S1x16_S32x16_0_1 (broadcastInDim S1x16 ![1] bcast_S16_S1x16_1 s1)))
      (broadcastInDim S32x16 ![0, 1] bcast_S1x16_S32x16_0_1 (broadcastInDim S1x16 ![1] bcast_S16_S1x16_1 t1)))
    (broadcastInDim S32x16 ![] bcast_S_S32x16 (constant (F := Ideal) S_ .f32 0x00000000#32))

theorem hidVec_apply (x : FVec Ideal S32x256 .f32) (w1 : FVec Ideal S16x256 .f32) (b1 s1 t1 : FVec Ideal S16 .f32)
    (n : Fin 32) (j : Fin 16) :
    hidVec x w1 b1 s1 t1 (ix2 n j)
      = max (((∑ c : Fin 256, x (ix2 n c) * w1 (ix2 j c)) + b1 (ix1 j)) * s1 (ix1 j) + t1 (ix1 j)) Cert.Spec.z0 := by
  unfold hidVec Cert.Spec.z0
  rw [maximumf_apply, addf_apply, mulf_apply, addf_apply, row16_apply, row16_apply, row16_apply, bcast0_apply,
    constant_apply, dotA_apply]
  refine congrArg (fun S => max ((S + _) * _ + _) _) ?_
  exact Finset.sum_congr rfl fun c _ => congrArg (_ * ·) (transpose_ix2_apply w1 _ c j)

/-- The channel vector: the hidden layer times the transposed second weight, plus the bias, normalised. -/
def outVec (h : FVec Ideal S32x16 .f32) (w2 : FVec Ideal S256x16 .f32) (b2 s2 t2 : FVec Ideal S256 .f32) : FVec Ideal S32x256 .f32 :=
  addf
    (mulf
      (addf
        (Host.dotGeneral dot_S32x16_S16x256_S32x256_1_0_0_1_n_n none h
          (transpose S16x256 [1, 0] w2 transposes_S256x16_S16x256_1_0))
        (broadcastInDim S32x256 ![0, 1] bcast_S1x256_S32x256_0_1 (broadcastInDim S1x256 ![1] bcast_S256_S1x256_1 b2)))
      (broadcastInDim S32x256 ![0, 1] bcast_S1x256_S32x256_0_1 (broadcastInDim S1x256 ![1] bcast_S256_S1x256_1 s2)))
    (broadcastInDim S32x256 ![0, 1] bcast_S1x256_S32x256_0_1 (broadcastInDim S1x256 ![1] bcast_S256_S1x256_1 t2))

theorem outVec_apply (h : FVec Ideal S32x16 .f32) (w2 : FVec Ideal S256x16 .f32) (b2 s2 t2 : FVec Ideal S256 .f32)
    (n : Fin 32) (k : Fin 256) :
    outVec h w2 b2 s2 t2 (ix2 n k)
      = ((∑ j : Fin 16, h (ix2 n j) * w2 (ix2 k j)) + b2 (ix1 k)) * s2 (ix1 k) + t2 (ix1 k) := by
  unfold outVec
  rw [addf_apply, mulf_apply, addf_apply, row256_apply, row256_apply, row256_apply, dotB_apply]
  refine congrArg (fun S => (S + _) * _ + _) ?_
  exact Finset.sum_congr rfl fun j _ => congrArg (_ * ·) (transpose_ix2_apply w2 _ j k)

end Branch

section Whole

/-- One branch's channel vector as the program computes it, from the sum array and the twelve parameter arrays. -/
def branchVec (gsum : FVec Ideal S32x256x1 .f32) (w1 : FVec Ideal S16x256 .f32) (b1 g1 be1 mu1 va1 : FVec Ideal S16 .f32)
    (w2 : FVec Ideal S256x16 .f32) (b2 g2 be2 mu2 va2 : FVec Ideal S256 .f32) : FVec Ideal S32x256 .f32 :=
  outVec (hidVec (meanVec gsum) w1 b1 (scale16 g1 va1) (shiftVec be1 mu1 (scale16 g1 va1)))
    w2 b2 (scale256 g2 va2) (shiftVec be2 mu2 (scale256 g2 va2))

/-- The parameters of a branch read off twelve arrays. -/
def branchOf (w1 : FVec Ideal S16x256 .f32) (b1 g1 be1 mu1 va1 : FVec Ideal S16 .f32)
    (w2 : FVec Ideal S256x16 .f32) (b2 g2 be2 mu2 va2 : FVec Ideal S256 .f32) : Cert.Spec.Branch where
  w1 j c := w1 (ix2 j c)
  b1 j := b1 (ix1 j)
  g1 j := g1 (ix1 j)
  be1 j := be1 (ix1 j)
  mu1 j := mu1 (ix1 j)
  va1 j := va1 (ix1 j)
  w2 c j := w2 (ix2 c j)
  b2 c := b2 (ix1 c)
  g2 c := g2 (ix1 c)
  be2 c := be2 (ix1 c)
  mu2 c := mu2 (ix1 c)
  va2 c := va2 (ix1 c)

/-- The program's channel vector is the specification's, normalised after each product. -/
theorem branchVec_apply (gsum : FVec Ideal S32x256x1 .f32) (w1 : FVec Ideal S16x256 .f32) (b1 g1 be1 mu1 va1 : FVec Ideal S16 .f32)
    (w2 : FVec Ideal S256x16 .f32) (b2 g2 be2 mu2 va2 : FVec Ideal S256 .f32) (n : Fin 32) (k : Fin 256) :
    branchVec gsum w1 b1 g1 be1 mu1 va1 w2 b2 g2 be2 mu2 va2 (ix2 n k)
      = Cert.Spec.lvR (branchOf w1 b1 g1 be1 mu1 va1 w2 b2 g2 be2 mu2 va2)
          (fun k' => gsum (ix3 n k' 0) * Cert.Spec.invHW) k := by
  unfold branchVec
  rw [outVec_apply, shiftVec_apply, scale256_apply]
  unfold Cert.Spec.lvR Cert.Spec.Branch.t2 Cert.Spec.Branch.s2
  refine congrArg (fun S => (S + _) * _ + _) ?_
  refine Finset.sum_congr rfl fun j _ => congrArg (· * _) ?_
  rw [hidVec_apply, shiftVec_apply, scale16_apply]
  unfold Cert.Spec.hidR Cert.Spec.Branch.t1 Cert.Spec.Branch.s1
  refine congrArg (fun S => max ((S + _) * _ + _) _) ?_
  exact Finset.sum_congr rfl fun c _ => congrArg (· * _) (meanVec_apply gsum n c)

end Whole

/-! ## The two branches of the stretch, as whole arrays -/

set_option maxHeartbeats 40000000 in
/-- After the stretch the first branch's channel vector is the branch function of the first sum array and the first
    twelve parameter arrays: each operation's result read back to the contents before the stretch. -/
theorem vecLow_eq : vecLow W = branchVec (sumLow W) (W (Proc.devRef .tc main_arg2)) (W (Proc.devRef .tc main_arg3))
    (W (Proc.devRef .tc main_arg4)) (W (Proc.devRef .tc main_arg5)) (W (Proc.devRef .tc main_arg6))
    (W (Proc.devRef .tc main_arg7)) (W (Proc.devRef .tc main_arg8)) (W (Proc.devRef .tc main_arg9))
    (W (Proc.devRef .tc main_arg10)) (W (Proc.devRef .tc main_arg11)) (W (Proc.devRef .tc main_arg12))
    (W (Proc.devRef .tc main_arg13)) := by
  show StableHlo.after hostOps1 W (Proc.devRef .tc main_v44) = _
  after_results_simp
  rfl

set_option maxHeartbeats 40000000 in
/-- The same for the second branch: the second sum array and the last twelve parameter arrays. -/
theorem vecHigh_eq : vecHigh W = branchVec (sumHigh W) (W (Proc.devRef .tc main_arg14)) (W (Proc.devRef .tc main_arg15))
    (W (Proc.devRef .tc main_arg16)) (W (Proc.devRef .tc main_arg17)) (W (Proc.devRef .tc main_arg18))
    (W (Proc.devRef .tc main_arg19)) (W (Proc.devRef .tc main_arg20)) (W (Proc.devRef .tc main_arg21))
    (W (Proc.devRef .tc main_arg22)) (W (Proc.devRef .tc main_arg23)) (W (Proc.devRef .tc main_arg24))
    (W (Proc.devRef .tc main_arg25)) := by
  show StableHlo.after hostOps1 W (Proc.devRef .tc main_v80) = _
  after_results_simp
  rfl

end Lv

/-- The first branch's channel vector after the stretch, at batch element `n` and channel `k`. -/
theorem host_v44 (n : Fin 32) (k : Fin 256) :
    vecLow W (ix2 n k) = Cert.Spec.lvR (brLowW W) (fun k' => sumLow W (ix3 n k' 0) * Cert.Spec.invHW) k := by
  rw [Lv.vecLow_eq]
  exact Lv.branchVec_apply (sumLow W) (W (Proc.devRef .tc main_arg2)) (W (Proc.devRef .tc main_arg3))
    (W (Proc.devRef .tc main_arg4)) (W (Proc.devRef .tc main_arg5)) (W (Proc.devRef .tc main_arg6))
    (W (Proc.devRef .tc main_arg7)) (W (Proc.devRef .tc main_arg8)) (W (Proc.devRef .tc main_arg9))
    (W (Proc.devRef .tc main_arg10)) (W (Proc.devRef .tc main_arg11)) (W (Proc.devRef .tc main_arg12))
    (W (Proc.devRef .tc main_arg13)) n k

/-- The second branch's channel vector after the stretch. -/
theorem host_v80 (n : Fin 32) (k : Fin 256) :
    vecHigh W (ix2 n k) = Cert.Spec.lvR (brHighW W) (fun k' => sumHigh W (ix3 n k' 0) * Cert.Spec.invHW) k := by
  rw [Lv.vecHigh_eq]
  exact Lv.branchVec_apply (sumHigh W) (W (Proc.devRef .tc main_arg14)) (W (Proc.devRef .tc main_arg15))
    (W (Proc.devRef .tc main_arg16)) (W (Proc.devRef .tc main_arg17)) (W (Proc.devRef .tc main_arg18))
    (W (Proc.devRef .tc main_arg19)) (W (Proc.devRef .tc main_arg20)) (W (Proc.devRef .tc main_arg21))
    (W (Proc.devRef .tc main_arg22)) (W (Proc.devRef .tc main_arg23)) (W (Proc.devRef .tc main_arg24))
    (W (Proc.devRef .tc main_arg25)) n k

end Cert.ReferenceIdeal.RV

end
-- ==== Proof.RHostAtt.lean ====
/-
  The host lines between the two regions of the reference program, second half: from each branch's channel vector
  to its gate column (a softmax over the channels, plus one) and to the vector's own column. Stated at ANY buffer
  contents before the stretch.
-/
import proofs.«121784_g2000609679484958_pallasbulk_1271_2_alg».proof.Proof.RHostLv
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost
import Idealize.ShloMosaic.PureOps.Ideal.Laws

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Gen

variable (W : Valuation τ sig (Elt Ideal))

/-! ## The gate as the operations compute it, over any channel-vector array

The eighteen operations from a branch's channel vector to its gate column, named as functions of that array: each row's
maximum taken once more against -∞, the exponentials of the entries less that maximum, their quotient by the row's sum
plus one, reshaped to a column. -/

/-- Each row's maximum (a fold from -∞ along the channels), taken once more against -∞. -/
private def rowMax (Y : FVec Ideal S32x256 .f32) : FVec Ideal S32 .f32 :=
  maximumf (broadcastInDim S32 ![] bcast_S_S32 (constant S_ .f32 0xFF800000#32))
    (Host.reduce FloatOps.maximumf Y (constant S_ .f32 0xFF800000#32) reducesTo_S32x256_S32_d1 h_S_)

/-- The exponentials of the entries, each less its row's maximum. -/
private def expShift (Y : FVec Ideal S32x256 .f32) : FVec Ideal S32x256 .f32 :=
  Host.exp (subf Y (broadcastInDim S32x256 ![0, 1] bcast_S32x1_S32x256_0_1
    (broadcastInDim S32x1 ![0] bcast_S32_S32x1_0 (rowMax Y))))

/-- The gate column: the exponentials over their row's sum (summed from zero), plus one, as a column. -/
private def gateCol (Y : FVec Ideal S32x256 .f32) : FVec Ideal S32x256x1 .f32 :=
  shapeCast S32x256x1
    (addf
      (Host.divf (expShift Y)
        (broadcastInDim S32x256 ![0, 1] bcast_S32x1_S32x256_0_1
          (broadcastInDim S32x1 ![0] bcast_S32_S32x1_0
            (Host.reduceAdd (expShift Y) (constant S_ .f32 0x00000000#32) reducesTo_S32x256_S32_d1 h_S_))))
      (broadcastInDim S32x256 ![] bcast_S_S32x256 (constant S_ .f32 0x3F800000#32)))
    shapeCasts_S32x256_S32x256x1

/-! ## Reading the pieces at an index -/

/-- The shape facts the reductions take are stated as row-wise ones; the same shapes reduce in the sense that names the
    inserted coordinate. -/
private theorem redRow : S32x256.Reduces [1] S32 := by decide

/-- The index over batch element `n` with channel `k'` inserted is `(n, k')`. -/
private theorem lift_ix (n : Fin 32) (k' : Fin 256) : redRow.lift (ix1 n) k' = ix2 n k' :=
  funext fun a => Fin.ext (match a with | ⟨0, _⟩ => rfl | ⟨1, _⟩ => rfl)

/-- The row of `Y` at batch element `n`, as a family over the channels. -/
private theorem lift_row (Y : FVec Ideal S32x256 .f32) (n : Fin 32) :
    (Y ∘ redRow.lift (ix1 n) : Fin 256 → EReal) = fun k' => Y (ix2 n k') :=
  funext fun k' => congrArg Y (lift_ix n k')

/-- A vector over the batch broadcast along the channels reads its entry at the batch element. -/
private theorem bcastRow_apply (v : FVec Ideal S32 .f32) (n : Fin 32) (k : Fin 256) :
    broadcastInDim S32x256 ![0, 1] bcast_S32x1_S32x256_0_1 (broadcastInDim S32x1 ![0] bcast_S32_S32x1_0 v) (ix2 n k)
      = v (ix1 n) := by
  refine (broadcastInDim_apply _ _ _ (ix2 n k) (ix2 n (0 : Fin 1)) fun a => ?_).trans ?_
  · match a with
    | ⟨0, _⟩ => rfl
    | ⟨1, _⟩ => rfl
  · exact broadcastInDim_apply _ _ _ (ix2 n (0 : Fin 1)) (ix1 n) fun a => match a with | ⟨0, _⟩ => rfl

/-- The row maximum at batch element `n`. -/
private theorem rowMax_apply (Y : FVec Ideal S32x256 .f32) (n : Fin 32) :
    rowMax Y (ix1 n)
      = max Cert.Spec.negInf ((Finset.univ : Finset (Fin 256)).fold max Cert.Spec.negInf fun k' => Y (ix2 n k')) := by
  unfold rowMax
  rw [maximumf_apply, broadcastInDim_scalar_apply, constant_apply,
    Host.reduce_eq_fold_single FloatOps.maximumf Y _ reducesTo_S32x256_S32_d1 redRow h_S_ (ix1 n), constant_apply]
  unfold Cert.Spec.negInf
  exact congrArg (max _) (congrArg (fun f : Fin 256 → EReal =>
    (Finset.univ : Finset (Fin 256)).fold max (Ideal.ofBits .f32 0xFF800000#32) f) (lift_row Y n))

/-- A channel-vector array reshaped to a column reads, at `(n, k, 0)`, the array at `(n, k)`. -/
private theorem col_apply (Y : FVec Ideal S32x256 .f32) (n : Fin 32) (k : Fin 256) :
    shapeCast S32x256x1 Y shapeCasts_S32x256_S32x256x1 (ix3 n k 0) = Y (ix2 n k) :=
  shapeCast_apply _ shapeCasts_S32x256_S32x256x1 (ix3 n k 0) (ix2 n k) (by
    rw [Shape.rowMajor_val_two, Shape.rowMajor_val_three]
    show n.val * 256 + k.val = (n.val * 256 + k.val) * 1 + 0
    omega)

/-- The host's exponential at an index. -/
private theorem hostExp_apply {s : Shape} (x : FVec Ideal s .f32) (i : s.Idx) : Host.exp x i = Ideal.exp (x i) := rfl

/-- An exponential at batch element `n` and channel `k`. -/
private theorem expShift_apply (Y : FVec Ideal S32x256 .f32) (n : Fin 32) (k : Fin 256) :
    expShift Y (ix2 n k) = Ideal.exp (Y (ix2 n k) - rowMax Y (ix1 n)) := by
  unfold expShift
  rw [hostExp_apply, subf_apply, bcastRow_apply]

/-- The gate column at batch element `n` and channel `k` is the gate of the row. -/
private theorem gateCol_apply (Y : FVec Ideal S32x256 .f32) (n : Fin 32) (k : Fin 256) :
    gateCol Y (ix3 n k 0) = Cert.Spec.attR (fun k' => Y (ix2 n k')) k := by
  unfold gateCol
  refine (shapeCast_apply _ shapeCasts_S32x256_S32x256x1 (ix3 n k 0) (ix2 n k) ?_).trans ?_
  · rw [Shape.rowMajor_val_two, Shape.rowMajor_val_three]
    show n.val * 256 + k.val = (n.val * 256 + k.val) * 1 + 0
    omega
  rw [addf_apply, hostDivf_apply, bcastRow_apply, hostReduceAdd_apply,
    Ideal.hostReduceAdd_single reducesTo_S32x256_S32_d1 redRow, broadcastInDim_scalar_apply, constant_apply,
    constant_apply, expShift_apply]
  have hs : (∑ k' : Fin (S32x256.size 1), expShift Y (redRow.lift (ix1 n) k'))
      = ∑ k' : Fin 256, Ideal.exp (Y (ix2 n k') - rowMax Y (ix1 n)) :=
    Finset.sum_congr rfl fun k' _ => (congrArg (expShift Y) (lift_ix n k')).trans (expShift_apply Y n k')
  rw [hs, rowMax_apply]
  unfold Cert.Spec.attR Cert.Spec.z0 Cert.Spec.one
  rfl

/-! ## The stretch read at its last buffers

The gates' lines are the last 37 of the stretch's 123; the contents after the first 86 are carried as one variable. -/

/-- The stretch as its first 86 operations followed by the rest. -/
private theorem after_split :
    StableHlo.after hostOps1 W = StableHlo.after (hostOps1.drop 86) (StableHlo.after (hostOps1.take 86) W) := by
  rw [← StableHlo.after_append, List.take_append_drop]

set_option maxHeartbeats 4000000 in
/-- The last 37 operations write neither channel vector. -/
private theorem tail_v44 (X : Valuation τ sig (Elt Ideal)) :
    StableHlo.after (hostOps1.drop 86) X (Proc.devRef .tc main_v44) = X (Proc.devRef .tc main_v44) := by
  simp only [hostOps1, List.drop_succ_cons, List.drop_zero]
  after_results_simp
set_option maxHeartbeats 4000000 in
private theorem tail_v80 (X : Valuation τ sig (Elt Ideal)) :
    StableHlo.after (hostOps1.drop 86) X (Proc.devRef .tc main_v80) = X (Proc.devRef .tc main_v80) := by
  simp only [hostOps1, List.drop_succ_cons, List.drop_zero]
  after_results_simp

set_option maxHeartbeats 4000000 in
/-- The first gate column is the gate column of the first channel vector. -/
private theorem tail_v94 (X : Valuation τ sig (Elt Ideal)) :
    StableHlo.after (hostOps1.drop 86) X (Proc.devRef .tc main_v94) = gateCol (X (Proc.devRef .tc main_v44)) := by
  simp only [hostOps1, List.drop_succ_cons, List.drop_zero]
  after_results_simp
  rfl
set_option maxHeartbeats 4000000 in
/-- The second gate column is the gate column of the second channel vector. -/
private theorem tail_v108 (X : Valuation τ sig (Elt Ideal)) :
    StableHlo.after (hostOps1.drop 86) X (Proc.devRef .tc main_v108) = gateCol (X (Proc.devRef .tc main_v80)) := by
  simp only [hostOps1, List.drop_succ_cons, List.drop_zero]
  after_results_simp
  rfl
set_option maxHeartbeats 4000000 in
/-- The vector column is the first channel vector, reshaped. -/
private theorem tail_v109 (X : Valuation τ sig (Elt Ideal)) :
    StableHlo.after (hostOps1.drop 86) X (Proc.devRef .tc main_v109)
      = shapeCast S32x256x1 (X (Proc.devRef .tc main_v44) : FVec Ideal S32x256 .f32) shapeCasts_S32x256_S32x256x1 := by
  simp only [hostOps1, List.drop_succ_cons, List.drop_zero]
  after_results_simp
  rfl

/-! ## The five facts -/

/-- The first gate column is the gate of the first branch's channel vector. -/
theorem host_v94 (n : Fin 32) (k : Fin 256) :
    (StableHlo.after hostOps1 W (Proc.devRef .tc main_v94) : S32x256x1.Idx → EReal) (ix3 n k 0)
      = Cert.Spec.attR (fun k' => vecLow W (ix2 n k')) k := by
  unfold vecLow
  rw [after_split W]
  generalize StableHlo.after (hostOps1.take 86) W = X
  rw [tail_v94 X, tail_v44 X]
  exact gateCol_apply _ n k
/-- The second gate column is the gate of the second branch's channel vector. -/
theorem host_v108 (n : Fin 32) (k : Fin 256) :
    (StableHlo.after hostOps1 W (Proc.devRef .tc main_v108) : S32x256x1.Idx → EReal) (ix3 n k 0)
      = Cert.Spec.attR (fun k' => vecHigh W (ix2 n k')) k := by
  unfold vecHigh
  rw [after_split W]
  generalize StableHlo.after (hostOps1.take 86) W = X
  rw [tail_v108 X, tail_v80 X]
  exact gateCol_apply _ n k
/-- The vector column is the first branch's channel vector. -/
theorem host_v109 (n : Fin 32) (k : Fin 256) :
    (StableHlo.after hostOps1 W (Proc.devRef .tc main_v109) : S32x256x1.Idx → EReal) (ix3 n k 0)
      = vecLow W (ix2 n k) := by
  unfold vecLow
  rw [after_split W]
  generalize StableHlo.after (hostOps1.take 86) W = X
  rw [tail_v109 X, tail_v44 X]
  exact col_apply _ n k
set_option maxHeartbeats 4000000 in
/-- The stretch writes neither flattened input. -/
theorem host_keeps_v0 : StableHlo.after hostOps1 W (Proc.devRef .tc main_v0) = W (Proc.devRef .tc main_v0) := by
  simp only [hostOps1]
  after_results_simp
set_option maxHeartbeats 4000000 in
theorem host_keeps_v1 : StableHlo.after hostOps1 W (Proc.devRef .tc main_v1) = W (Proc.devRef .tc main_v1) := by
  simp only [hostOps1]
  after_results_simp

end Cert.ReferenceIdeal.RV

end
-- ==== Proof.RFinal.lean ====
/-
  The reference program's two results as whole arrays: the first region's running sums, the host lines' channel
  vectors and gates, the second region's combination, and the final unflattening, composed along the run's buffer
  contents.
-/
import proofs.«121784_g2000609679484958_pallasbulk_1271_2_alg».proof.Proof.RParams
import proofs.«121784_g2000609679484958_pallasbulk_1271_2_alg».proof.Proof.RRun
import proofs.«121784_g2000609679484958_pallasbulk_1271_2_alg».proof.Proof.RGap
import proofs.«121784_g2000609679484958_pallasbulk_1271_2_alg».proof.Proof.RApply
import proofs.«121784_g2000609679484958_pallasbulk_1271_2_alg».proof.Proof.RHostLv
import proofs.«121784_g2000609679484958_pallasbulk_1271_2_alg».proof.Proof.RHostAtt
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.ReferenceIdeal.RV

open Idealize.ShloMosaic Idealize.ShloMosaic.TcCoe Idealize.ShloMosaic.ValueIdx Idealize.SL.Sem
open Cert.ReferenceIdeal Cert.ReferenceIdeal.Gen

variable (m : (ℓ : Loc nD τ sig) → Buf (Elt Ideal) ℓ) (ρ : Dev nD → PrngReg)

/-! ## The two reshapes at the ends of the run are the specification's flattening and unflattening -/
/-- The last reshape of the run is the specification's unflattening. -/
theorem unflat_of (X : S32x256x4096.Idx → EReal) (h : S32x256x4096.numel = S32x256x64x64.numel) :
    (shapeCast S32x256x64x64 X h : S32x256x64x64.Idx → EReal) = Cert.Spec.unflat X := rfl

/-- The first reshape of the run is the specification's flattening. -/
theorem flat_of (X : S32x256x64x64.Idx → EReal) (h : S32x256x64x64.numel = S32x256x4096.numel) :
    (shapeCast S32x256x4096 X h : S32x256x4096.Idx → EReal) = Cert.Spec.flat X := rfl

/-! ## The flattened inputs, from the launch to the second region's entry -/
/-- At the first region's entry the two flattened-input buffers hold the inputs, flattened. -/
theorem V1_v0 (c : Dev nD) : (V1 m ρ c main_v0 : S32x256x4096.Idx → EReal) = lowIn m c := by
  show StableHlo.after hostOps0 (W0 m ρ c) (Proc.devRef .tc main_v0) = _
  after_results
  exact flat_of _ _
theorem V1_v1 (c : Dev nD) : (V1 m ρ c main_v1 : S32x256x4096.Idx → EReal) = highIn m c := by
  show StableHlo.after hostOps0 (W0 m ρ c) (Proc.devRef .tc main_v1) = _
  after_results
  exact flat_of _ _

/-- The first region reads the flattened inputs and leaves them as they were; the host lines between the regions
    write neither: at the second region's entry they still hold the flattened inputs. -/
theorem V3_v0 (c : Dev nD) : inLow (V3 m ρ) c = lowIn m c :=
  calc (W3 m ρ c (Proc.devRef .tc main_v0) : S32x256x4096.Idx → EReal)
    _ = W2 m ρ c (Proc.devRef .tc main_v0) := host_keeps_v0 (W2 m ρ c)
    _ = (dat0 (V1 m ρ) c).arrAt 0 cfg0.N := W2_arr m ρ c 0
    _ = (dat0 (V1 m ρ) c).A 0 := (dat0 (V1 m ρ) c).arrAt_in 0 rfl cfg0.N
    _ = V1 m ρ c main_v0 := A_eq0 (V1 m ρ) c 0
    _ = lowIn m c := V1_v0 m ρ c
theorem V3_v1 (c : Dev nD) : inHigh (V3 m ρ) c = highIn m c :=
  calc (W3 m ρ c (Proc.devRef .tc main_v1) : S32x256x4096.Idx → EReal)
    _ = W2 m ρ c (Proc.devRef .tc main_v1) := host_keeps_v1 (W2 m ρ c)
    _ = (dat0 (V1 m ρ) c).arrAt 1 cfg0.N := W2_arr m ρ c 1
    _ = (dat0 (V1 m ρ) c).A 1 := (dat0 (V1 m ρ) c).arrAt_in 1 rfl cfg0.N
    _ = V1 m ρ c main_v1 := A_eq0 (V1 m ρ) c 1
    _ = highIn m c := V1_v1 m ρ c

/-! ## The parameters at the first region's exit -/
/-- A buffer that is no array of the first region's windows and that the first two reshapes do not write still holds,
    at the first region's exit, what the launch memory holds. -/
theorem W2_kept (c : Dev nD) (b : Ref sig .tc) (hw : ∀ w, Pipeline.arrRef spec0 w ≠ b) (h0 : b ≠ main_v0) (h1 : b ≠ main_v1) :
    W2 m ρ c (Proc.devRef .tc b) = m ((c : Thread nD τ).loc b) := by
  refine (W2_of_ne m ρ c b hw).trans ?_
  show StableHlo.after hostOps0 (W0 m ρ c) (Proc.devRef .tc b) = _
  simp only [StableHlo.after_cons, StableHlo.after_nil]
  rw [StableHlo.reshape_result_ne _ _ _ _ _ _ _ h1, StableHlo.reshape_result_ne _ _ _ _ _ _ _ h0]

/-- The first branch's parameters read at the first region's exit are those read off the launch memory: no region
    and no host line before that point writes a parameter's buffer. -/
theorem brLowW_W2 (c : Dev nD) : brLowW (W2 m ρ c) = brLow m c := by
  unfold brLowW brLow
  rw [Cert.Spec.Branch.mk.injEq,
    W2_kept m ρ c main_arg2 (by decide) (by decide) (by decide),
    W2_kept m ρ c main_arg3 (by decide) (by decide) (by decide),
    W2_kept m ρ c main_arg4 (by decide) (by decide) (by decide),
    W2_kept m ρ c main_arg5 (by decide) (by decide) (by decide),
    W2_kept m ρ c main_arg6 (by decide) (by decide) (by decide),
    W2_kept m ρ c main_arg7 (by decide) (by decide) (by decide),
    W2_kept m ρ c main_arg8 (by decide) (by decide) (by decide),
    W2_kept m ρ c main_arg9 (by decide) (by decide) (by decide),
    W2_kept m ρ c main_arg10 (by decide) (by decide) (by decide),
    W2_kept m ρ c main_arg11 (by decide) (by decide) (by decide),
    W2_kept m ρ c main_arg12 (by decide) (by decide) (by decide),
    W2_kept m ρ c main_arg13 (by decide) (by decide) (by decide)]
  exact ⟨rfl, rfl, rfl, rfl, rfl, rfl, rfl, rfl, rfl, rfl, rfl, rfl⟩
/-- The same for the second branch. -/
theorem brHighW_W2 (c : Dev nD) : brHighW (W2 m ρ c) = brHigh m c := by
  unfold brHighW brHigh
  rw [Cert.Spec.Branch.mk.injEq,
    W2_kept m ρ c main_arg14 (by decide) (by decide) (by decide),
    W2_kept m ρ c main_arg15 (by decide) (by decide) (by decide),
    W2_kept m ρ c main_arg16 (by decide) (by decide) (by decide),
    W2_kept m ρ c main_arg17 (by decide) (by decide) (by decide),
    W2_kept m ρ c main_arg18 (by decide) (by decide) (by decide),
    W2_kept m ρ c main_arg19 (by decide) (by decide) (by decide),
    W2_kept m ρ c main_arg20 (by decide) (by decide) (by decide),
    W2_kept m ρ c main_arg21 (by decide) (by decide) (by decide),
    W2_kept m ρ c main_arg22 (by decide) (by decide) (by decide),
    W2_kept m ρ c main_arg23 (by decide) (by decide) (by decide),
    W2_kept m ρ c main_arg24 (by decide) (by decide) (by decide),
    W2_kept m ρ c main_arg25 (by decide) (by decide) (by decide)]
  exact ⟨rfl, rfl, rfl, rfl, rfl, rfl, rfl, rfl, rfl, rfl, rfl, rfl⟩

/-! ## The sums, and each branch's channel vector -/
/-- The first sum array at the first region's exit: the running sum of the four quarters of the first flattened
    input's row. -/
theorem sumLow_W2 (c : Dev nD) (n : Fin 32) (k : Fin 256) :
    sumLow (W2 m ρ c) (ix3 n k 0) = Cert.Spec.accR (fun p => lowIn m c (ix3 n k p)) 3 := by
  rw [show sumLow (W2 m ρ c) = ((dat0 (V1 m ρ) c).arrAt 2 cfg0.N : S32x256x1.Idx → EReal) from W2_arr m ρ c 2,
    gap2 (V1 m ρ) c n k, V1_v0 m ρ c]
/-- The same for the second sum array and the second flattened input. -/
theorem sumHigh_W2 (c : Dev nD) (n : Fin 32) (k : Fin 256) :
    sumHigh (W2 m ρ c) (ix3 n k 0) = Cert.Spec.accR (fun p => highIn m c (ix3 n k p)) 3 := by
  rw [show sumHigh (W2 m ρ c) = ((dat0 (V1 m ρ) c).arrAt 3 cfg0.N : S32x256x1.Idx → EReal) from W2_arr m ρ c 3,
    gap3 (V1 m ρ) c n k, V1_v1 m ρ c]

/-- The first branch's channel vector after the host lines, for batch element `n`: the specification's, of the
    quarter-by-quarter channel means of the first flattened input's slab. -/
theorem vecLow_W2 (c : Dev nD) (n : Fin 32) :
    (fun k => vecLow (W2 m ρ c) (ix2 n k))
      = Cert.Spec.lvR (brLow m c) (Cert.Spec.gapR (Cert.Spec.slab (lowIn m c) n)) := by
  funext k
  rw [host_v44 (W2 m ρ c) n k, brLowW_W2 m ρ c]
  congr 1
  funext k'
  rw [sumLow_W2 m ρ c n k']
  rfl
/-- The same for the second branch. -/
theorem vecHigh_W2 (c : Dev nD) (n : Fin 32) :
    (fun k => vecHigh (W2 m ρ c) (ix2 n k))
      = Cert.Spec.lvR (brHigh m c) (Cert.Spec.gapR (Cert.Spec.slab (highIn m c) n)) := by
  funext k
  rw [host_v80 (W2 m ρ c) n k, brHighW_W2 m ρ c]
  congr 1
  funext k'
  rw [sumHigh_W2 m ρ c n k']
  rfl

/-! ## The columns the second region reads, and its two result arrays -/
/-- The first gate column at the second region's entry: the gate of the first branch's channel vector. -/
theorem gateLow_V3 (c : Dev nD) (n : Fin 32) (k : Fin 256) :
    colGateLow (V3 m ρ) c (ix3 n k 0)
      = Cert.Spec.attR (Cert.Spec.lvR (brLow m c) (Cert.Spec.gapR (Cert.Spec.slab (lowIn m c) n))) k :=
  (host_v94 (W2 m ρ c) n k).trans (congrArg (fun v => Cert.Spec.attR v k) (vecLow_W2 m ρ c n))
/-- The second gate column: the gate of the second branch's channel vector. -/
theorem gateHigh_V3 (c : Dev nD) (n : Fin 32) (k : Fin 256) :
    colGateHigh (V3 m ρ) c (ix3 n k 0)
      = Cert.Spec.attR (Cert.Spec.lvR (brHigh m c) (Cert.Spec.gapR (Cert.Spec.slab (highIn m c) n))) k :=
  (host_v108 (W2 m ρ c) n k).trans (congrArg (fun v => Cert.Spec.attR v k) (vecHigh_W2 m ρ c n))
/-- The vector column: the first branch's channel vector. -/
theorem colVec_V3 (c : Dev nD) (n : Fin 32) (k : Fin 256) :
    colVec (V3 m ρ) c (ix3 n k 0)
      = Cert.Spec.lvR (brLow m c) (Cert.Spec.gapR (Cert.Spec.slab (lowIn m c) n)) k :=
  (host_v109 (W2 m ρ c) n k).trans (congrFun (vecLow_W2 m ρ c n) k)

/-- The second region's first result array is the specification's first output over the flattened shape. -/
theorem res5_V3 (c : Dev nD) : res5 (V3 m ρ) c = Cert.Spec.GlowR (brLow m c) (lowIn m c) := by
  funext i
  obtain ⟨n, k, p, rfl⟩ : ∃ n k p, i = ix3 n k p := ⟨_, _, _, eq_ix3 i⟩
  rw [apply5 (V3 m ρ) c n k p, V3_v0 m ρ c, gateLow_V3 m ρ c n k, colVec_V3 m ρ c n k]
  rfl
/-- The second region's second result array is the specification's second output over the flattened shape. -/
theorem res6_V3 (c : Dev nD) : res6 (V3 m ρ) c = Cert.Spec.GhighR (brHigh m c) (highIn m c) := by
  funext i
  obtain ⟨n, k, p, rfl⟩ : ∃ n k p, i = ix3 n k p := ⟨_, _, _, eq_ix3 i⟩
  rw [apply6 (V3 m ρ) c n k p, V3_v1 m ρ c, gateHigh_V3 m ρ c n k]
  rfl

/-! ## The two results -/

/-- The first result at the last boundary: the normalised-after form of the specification, unflattened. -/
theorem W5_v111 (c : Dev nD) :
    (W5 m ρ c (Proc.devRef .tc main_v111) : S32x256x64x64.Idx → EReal)
      = Cert.Spec.unflat (Cert.Spec.GlowR (brLow m c) (lowIn m c)) := by
  show StableHlo.after hostOps2 (W4 m ρ c) (Proc.devRef .tc main_v111) = _
  after_results
  rw [show W4 m ρ c (Proc.devRef .tc main_v110_0) = res5 (V3 m ρ) c from W4_arr m ρ c 5, res5_V3 m ρ c]
  exact unflat_of _ _
/-- The second result at the last boundary. -/
theorem W5_v112 (c : Dev nD) :
    (W5 m ρ c (Proc.devRef .tc main_v112) : S32x256x64x64.Idx → EReal)
      = Cert.Spec.unflat (Cert.Spec.GhighR (brHigh m c) (highIn m c)) := by
  show StableHlo.after hostOps2 (W4 m ρ c) (Proc.devRef .tc main_v112) = _
  after_results
  rw [show W4 m ρ c (Proc.devRef .tc main_v110_1) = res6 (V3 m ρ) c from W4_arr m ρ c 6, res6_V3 m ρ c]
  exact unflat_of _ _

/-- The run: every weakly fair execution terminates with the two results at the specification's normalised-after
    form of the inputs, the arguments unchanged. -/
theorem run : θ_run (defs (F := Ideal)) (onTc (τ := τ) (main (F := Ideal))) ⟨m, fun _ => 0, ρ⟩ (fun r => ∀ c : Dev nD,
      r.2.mem ((c.tc : Thread nD τ).loc main_v111) = Cert.Spec.unflat (Cert.Spec.GlowR (brLow m c) (lowIn m c))
      ∧ r.2.mem ((c.tc : Thread nD τ).loc main_v112) = Cert.Spec.unflat (Cert.Spec.GhighR (brHigh m c) (highIn m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c).1.trans (W5_v111 m ρ c), (h c).2.1.trans (W5_v112 m ρ c), (h c).2.2⟩) (run_W5 (F := Ideal) m ρ)

end Cert.ReferenceIdeal.RV

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.BridgeLv.lean ====
/-
  The one algebraic law between the two programs: folding a normalisation `y ↦ y * s + t` into the affine layer before
  it, `(∑ g * w + b) * s + t = ∑ (w * s) * g + (b * s + t)`. It is distributivity, so it holds on real numbers and
  fails at infinities; the scale `s = γ / √(v + ε)` is a real number because the variance is non-negative and ε is
  positive.
-/
import proofs.«121784_g2000609679484958_pallasbulk_1271_2_alg».proof.Proof.Spec
import proofs.«121784_g2000609679484958_pallasbulk_1271_2_alg».proof.Proof.LibCoe
import Mathlib.Algebra.BigOperators.Ring.Finset
import Mathlib.Tactic.Ring

noncomputable section

namespace Cert.Spec

open Idealize.ShloMosaic
open scoped BigOperators

/-! ### The constants are real numbers -/

/-- ε is the coercion of a positive real. -/
theorem eps_coe : eps = ((Cert.LibCoe.epsR : ℝ) : EReal) := Cert.LibCoe.ofBits_eps

/-- The rectifier's zero is the coerced real zero. -/
theorem z0_coe : z0 = ((0 : ℝ) : EReal) := Cert.LibCoe.ofBits_zero

/-- The reciprocal of the number of positions is a real number (exponent field 115, fraction 0: `2⁻¹²`). -/
theorem invHW_real : ∃ r : ℝ, invHW = (r : EReal) := by
  refine ⟨1 / 4096, ?_⟩
  unfold invHW
  simp [Ideal.ofBits, Ideal.ieee, -EReal.coe_mul]; norm_num

/-! ### A normalisation's scale and shift are real numbers -/

/-- `γ / √(v + ε)` is real when γ is real and `v` a non-negative real: `v + ε` is positive, so its root is a
    positive real and the division stays away from its corner. -/
theorem scale_real {g v : EReal} (hg : ∃ r : ℝ, g = (r : EReal)) (hv : ∃ r : ℝ, 0 ≤ r ∧ v = (r : EReal)) :
    ∃ r : ℝ, scale g v = (r : EReal) := by
  obtain ⟨a, rfl⟩ := hg
  obtain ⟨b, hb, rfl⟩ := hv
  have hpos : 0 < b + Cert.LibCoe.epsR := add_pos_of_nonneg_of_pos hb Cert.LibCoe.epsR_pos
  have hs : Real.sqrt (b + Cert.LibCoe.epsR) ≠ 0 := (Real.sqrt_pos.mpr hpos).ne'
  refine ⟨a / Real.sqrt (b + Cert.LibCoe.epsR), ?_⟩
  unfold scale
  rw [eps_coe, Cert.LibCoe.add_coe, Ideal.sqrt_coe, if_neg (not_lt.mpr hpos.le), Cert.LibCoe.div_coe_coe a hs]

/-- `β - μ * s` is real when its three arguments are. -/
theorem shift_real {be mu s : EReal} (hbe : ∃ r : ℝ, be = (r : EReal)) (hmu : ∃ r : ℝ, mu = (r : EReal))
    (hs : ∃ r : ℝ, s = (r : EReal)) : ∃ r : ℝ, shift be mu s = (r : EReal) := by
  obtain ⟨a, rfl⟩ := hbe
  obtain ⟨b, rfl⟩ := hmu
  obtain ⟨c, rfl⟩ := hs
  exact ⟨a - b * c, by unfold shift; rw [Cert.LibCoe.mul_coe, Cert.LibCoe.sub_coe]⟩

theorem s1_real (p : Branch) (hp : p.Good) (j : Fin 16) : ∃ r : ℝ, p.s1 j = (r : EReal) :=
  scale_real (hp.g1 j) (hp.va1 j)

theorem t1_real (p : Branch) (hp : p.Good) (j : Fin 16) : ∃ r : ℝ, p.t1 j = (r : EReal) :=
  shift_real (hp.be1 j) (hp.mu1 j) (s1_real p hp j)

theorem s2_real (p : Branch) (hp : p.Good) (c : Fin 256) : ∃ r : ℝ, p.s2 c = (r : EReal) :=
  scale_real (hp.g2 c) (hp.va2 c)

theorem t2_real (p : Branch) (hp : p.Good) (c : Fin 256) : ∃ r : ℝ, p.t2 c = (r : EReal) :=
  shift_real (hp.be2 c) (hp.mu2 c) (s2_real p hp c)

/-! ### The folding law -/

/-- The law on real numbers: distribute the scale over the sum and the bias, and commute each product. -/
theorem fold_affine_real {n : ℕ} (g w : Fin n → ℝ) (b s t : ℝ) :
    ((∑ c, g c * w c) + b) * s + t = (∑ c, (w c * s) * g c) + (b * s + t) := by
  rw [add_mul, Finset.sum_mul, add_assoc]
  congr 1
  exact Finset.sum_congr rfl (fun c _ => by ring)

/-- The law on extended reals that are all coerced reals: both sides are coercions of the two sides of the real
    law. -/
theorem fold_affine {n : ℕ} (g w : Fin n → EReal) (b s t : EReal)
    (hg : ∀ c, ∃ r : ℝ, g c = (r : EReal)) (hw : ∀ c, ∃ r : ℝ, w c = (r : EReal))
    (hb : ∃ r : ℝ, b = (r : EReal)) (hs : ∃ r : ℝ, s = (r : EReal)) (ht : ∃ r : ℝ, t = (r : EReal)) :
    ((∑ c, g c * w c) + b) * s + t = (∑ c, (w c * s) * g c) + (b * s + t) := by
  choose gr hgr using hg
  choose wr hwr using hw
  obtain ⟨br, rfl⟩ := hb
  obtain ⟨sr, rfl⟩ := hs
  obtain ⟨tr, rfl⟩ := ht
  simp only [hgr, hwr, Cert.LibCoe.mul_coe, Cert.LibCoe.sum_coe, Cert.LibCoe.add_coe]
  exact congrArg _ (fold_affine_real gr wr br sr tr)

/-- The folded form's value is a real number. -/
theorem folded_real {n : ℕ} (g w : Fin n → EReal) (b s t : EReal)
    (hg : ∀ c, ∃ r : ℝ, g c = (r : EReal)) (hw : ∀ c, ∃ r : ℝ, w c = (r : EReal))
    (hb : ∃ r : ℝ, b = (r : EReal)) (hs : ∃ r : ℝ, s = (r : EReal)) (ht : ∃ r : ℝ, t = (r : EReal)) :
    ∃ r : ℝ, (∑ c, (w c * s) * g c) + (b * s + t) = (r : EReal) := by
  choose gr hgr using hg
  choose wr hwr using hw
  obtain ⟨br, rfl⟩ := hb
  obtain ⟨sr, rfl⟩ := hs
  obtain ⟨tr, rfl⟩ := ht
  refine ⟨(∑ c, (wr c * sr) * gr c) + (br * sr + tr), ?_⟩
  simp only [hgr, hwr, Cert.LibCoe.mul_coe, Cert.LibCoe.sum_coe, Cert.LibCoe.add_coe]

/-! ### The hidden layer -/

/-- The hidden layer normalised after the product is the hidden layer from folded weights. -/
theorem hid_eq (p : Branch) (hp : p.Good) (g : Fin 256 → EReal) (hg : ∀ c, ∃ r : ℝ, g c = (r : EReal))
    (j : Fin 16) : hidR p g j = hidF p.w1f p.b1f g j := by
  unfold hidR hidF Branch.w1f Branch.b1f
  rw [fold_affine g (p.w1 j) (p.b1 j) (p.s1 j) (p.t1 j) hg (hp.w1 j) (hp.b1 j) (s1_real p hp j) (t1_real p hp j)]

/-- The hidden layer's entries are real numbers. -/
theorem hidF_real (p : Branch) (hp : p.Good) (g : Fin 256 → EReal) (hg : ∀ c, ∃ r : ℝ, g c = (r : EReal))
    (j : Fin 16) : ∃ r : ℝ, hidF p.w1f p.b1f g j = (r : EReal) := by
  obtain ⟨r, hr⟩ := folded_real g (p.w1 j) (p.b1 j) (p.s1 j) (p.t1 j) hg (hp.w1 j) (hp.b1 j) (s1_real p hp j)
    (t1_real p hp j)
  refine ⟨max r 0, ?_⟩
  unfold hidF Branch.w1f Branch.b1f
  rw [hr, z0_coe, Cert.LibCoe.max_coe]

/-! ### The two statements -/

/-- A slab of real numbers has real channel means. -/
theorem gapF_real (f : Fin 256 → Fin 4096 → EReal) (hf : ∀ c k, ∃ r : ℝ, f c k = (r : EReal)) (c : Fin 256) :
    ∃ r : ℝ, gapF f c = (r : EReal) := by
  choose fr hfr using hf
  obtain ⟨i, hi⟩ := invHW_real
  refine ⟨(∑ k, fr c k) * i, ?_⟩
  unfold gapF
  rw [hi]
  simp only [hfr]
  rw [Cert.LibCoe.sum_coe, Cert.LibCoe.mul_coe]

/-- On real means and a branch of real parameters with non-negative variances, normalising after each product and
    folding the normalisation into the layer give the same channel vector. -/
theorem lvR_eq_lvF (p : Branch) (hp : p.Good) (g : Fin 256 → EReal) (hg : ∀ c, ∃ r : ℝ, g c = (r : EReal)) :
    lvR p g = lvF p g := by
  funext c
  have hh : ∀ j, hidR p g j = hidF p.w1f p.b1f g j := hid_eq p hp g hg
  unfold lvR lvF vecF Branch.w2f Branch.b2f
  simp only [hh]
  exact fold_affine (hidF p.w1f p.b1f g) (p.w2 c) (p.b2 c) (p.s2 c) (p.t2 c) (hidF_real p hp g hg) (hp.w2 c) (hp.b2 c)
    (s2_real p hp c) (t2_real p hp c)

end Cert.Spec

end
-- ==== Proof.Bridge.lean ====
/-
  The two forms of the specification agree on finite inputs with non-negative variances: the quarter-by-quarter sum
  is the sum (addition of extended reals is associative and commutative, and its first term is zero), the two gates
  differ only by a maximum taken once more against -∞ and a sum started from zero, and the channel vectors agree by
  the folding law.
-/
import proofs.«121784_g2000609679484958_pallasbulk_1271_2_alg».proof.Proof.BridgeLv
import Mathlib.Algebra.BigOperators.Fin
import Mathlib.Algebra.BigOperators.Group.Finset.Sigma
import Mathlib.Logic.Equiv.Fin.Basic

noncomputable section

namespace Cert.Spec

open Idealize.ShloMosaic Idealize.ShloMosaic.ValueIdx
open scoped BigOperators

/-- A position of a row is a quarter and an offset inside it: `1024 * q + k`. -/
def quarterEquiv : Fin 4 × Fin 1024 ≃ Fin 4096 := finProdFinEquiv

theorem quarterEquiv_val (q : Fin 4) (k : Fin 1024) : (quarterEquiv (q, k)).val = q.val * 1024 + k.val := by
  have h : (quarterEquiv (q, k)).val = k.val + 1024 * q.val := rfl
  omega

/-- The sum over a row is the sum of its four quarters' sums. -/
theorem sum_quarters (f : Fin 4096 → EReal) : ∑ x : Fin 4096, f x = ∑ q : Fin 4, tileSum f q := by
  rw [← quarterEquiv.sum_comp, Fintype.sum_prod_type]
  refine Finset.sum_congr rfl fun q _ => ?_
  unfold tileSum
  refine Finset.sum_congr rfl fun k _ => ?_
  exact congrArg f (Fin.ext (quarterEquiv_val q k))

/-- The running sum over a row's four quarters is the sum over the row. -/
theorem accR_eq_sum (f : Fin 4096 → EReal) : accR f 3 = ∑ k : Fin 4096, f k := by
  have hz : z0 = 0 := by unfold z0; exact Ideal.ofBits_zero_f32
  have e : accR f 3 = (((z0 + tileSum f 0) + tileSum f 1) + tileSum f 2) + tileSum f 3 := rfl
  rw [e, hz, zero_add, sum_quarters, Fin.sum_univ_four]

theorem gapR_eq_gapF (f : Fin 256 → Fin 4096 → EReal) : gapR f = gapF f := by
  funext c; unfold gapR gapF; rw [accR_eq_sum]

/-- The two gates are one function: -∞ is the least extended real, and zero is neutral for the sum. -/
theorem attR_eq_attF (lv : Fin 256 → EReal) : attR lv = attF lv := by
  funext c
  have hb : negInf = ⊥ := by unfold negInf; exact Cert.LibCoe.ofBits_neg_inf
  have hz : z0 = 0 := by unfold z0; exact Ideal.ofBits_zero_f32
  unfold attR attF
  simp only [hb, hz, zero_add, max_bot_left]

/-- Every entry of a slab of a real array is real. -/
theorem slab_real (x : S3.Idx → EReal) (hx : ∀ i, ∃ r : ℝ, x i = (r : EReal)) (n : Fin 32) (c : Fin 256) (k : Fin 4096) :
    ∃ r : ℝ, slab x n c k = (r : EReal) := hx _

theorem GlowR_eq_GlowF (p : Branch) (hp : p.Good) (x : S3.Idx → EReal) (hx : ∀ i, ∃ r : ℝ, x i = (r : EReal)) :
    GlowR p x = GlowF p x := by
  funext i
  unfold GlowR GlowF outLowR outLowF
  rw [gapR_eq_gapF, attR_eq_attF,
    lvR_eq_lvF p hp (gapF (slab x (i 0))) (gapF_real (slab x (i 0)) (slab_real x hx (i 0)))]

theorem GhighR_eq_GhighF (p : Branch) (hp : p.Good) (x : S3.Idx → EReal) (hx : ∀ i, ∃ r : ℝ, x i = (r : EReal)) :
    GhighR p x = GhighF p x := by
  funext i
  unfold GhighR GhighF outHighR outHighF
  rw [gapR_eq_gapF, attR_eq_attF,
    lvR_eq_lvF p hp (gapF (slab x (i 0))) (gapF_real (slab x (i 0)) (slab_real x hx (i 0)))]

end Cert.Spec

end
-- ==== Proof.Pre.lean ====
/-
  What the precondition says of the inputs at the ideal values: every entry of every input is a real number (its
  absolute value is below +∞), and every entry of the four variance inputs is non-negative. Read off the printed
  predicate: a conjunction of whole-array "all" reductions.
-/
import proofs.«121784_g2000609679484958_pallasbulk_1271_2_alg».proof.Defs
import proofs.«121784_g2000609679484958_pallasbulk_1271_2_alg».proof.Proof.Gen.Pre_finite_inputs
import proofs.«121784_g2000609679484958_pallasbulk_1271_2_alg».proof.Proof.KParams
import proofs.«121784_g2000609679484958_pallasbulk_1271_2_alg».proof.Proof.LibCoe
import Idealize.ShloMosaic.Lib.ReduceAll
import Idealize.ShloMosaic.Lib.StableHlo.Predicate

set_option maxRecDepth 16384

noncomputable section

namespace Cert.KernelIdeal.KV.PreRead

open Idealize.ShloMosaic Idealize.ShloMosaic.ValueIdx
open Cert.Pre_finite_inputs

/-! ## One entry -/

/-- The pattern of `+∞` (exponent field all ones, fraction zero) denotes `⊤`. -/
theorem ofBits_pos_inf : Ideal.ofBits .f32 0x7F800000#32 = (⊤ : EReal) := by
  simp [Ideal.ofBits, Ideal.ieee]

/-- An extended real whose absolute value `max a (-a)` lies below `⊤` is a real number: at `⊥` and at `⊤` that
    maximum is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The comparison "`|a|` is less than `+∞`" answering 1 says that `a` is a real number. -/
theorem real_of_cmp (a : EReal)
    (h : Ideal.cmp .olt (max a (-a)) (Ideal.ofBits .f32 0x7F800000#32) = 1#1) : ∃ r : ℝ, a = (r : EReal) := by
  rw [ofBits_pos_inf] at h
  refine real_of_abs_lt_top a ?_
  simpa only [Ideal.cmp, StableHlo.Predicate.ofBool_eq_one_iff, decide_eq_true_eq] using h

/-- The comparison "`a` is at least zero" answering 1 says `0 ≤ a`. -/
theorem nonneg_of_cmp (a : EReal)
    (h : Ideal.cmp .oge a (Ideal.ofBits .f32 0x00000000#32) = 1#1) : 0 ≤ a := by
  rw [Ideal.ofBits_zero_f32] at h
  simpa only [Ideal.cmp, StableHlo.Predicate.ofBool_eq_one_iff, decide_eq_true_eq] using h

/-! ## One array: a whole-array "all" read back -/

/-- The scalar shape has exactly one index. -/
theorem subsingleton_scalar : Subsingleton S_.Idx := ⟨fun a b => funext fun d => d.elim0⟩

/-- If "every `|x|` is less than `+∞`", reduced by `and` over all axes, is 1, then every entry of `x` is a real number. -/
theorem real_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ix0 = 1#1) (i : S.Idx) : ∃ r : ℝ, x i = (r : EReal) := by
  haveI := subsingleton_scalar
  exact real_of_cmp (x i) (Host.reduce_andi_all _ _ hr hu ix0 e i)

/-- If "every entry of `x` is at least zero", reduced by `and` over all axes, is 1, then every entry is non-negative. -/
theorem nonneg_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .oge x (broadcastInDim S ![] hb (constant (F := Ideal) S_ .f32 0x00000000#32)))
          (constantI S_ 1 1#1) hr hu ix0 = 1#1) (i : S.Idx) : 0 ≤ x i := by
  haveI := subsingleton_scalar
  exact nonneg_of_cmp (x i) (Host.reduce_andi_all _ _ hr hu ix0 e i)

/-- A conjunction of two one-bit arrays that is 1 at an index has both 1 there. -/
theorem and_split {S : Shape} {x y : IVec S 1} {i : S.Idx} (h : Idealize.ShloMosaic.andi x y i = 1#1) :
    x i = 1#1 ∧ y i = 1#1 := IntOp.andi_eq_one.1 h

/-- A real entry that is non-negative is a non-negative real. -/
theorem real_nonneg {a : EReal} (hr : ∃ r : ℝ, a = (r : EReal)) (h0 : 0 ≤ a) : ∃ r : ℝ, 0 ≤ r ∧ a = (r : EReal) := by
  obtain ⟨r, rfl⟩ := hr
  exact ⟨r, EReal.coe_nonneg.1 h0, rfl⟩

/-! ## The whole predicate -/

/-- The printed predicate is the conjunction, array by array, of "every `|x|` is less than `+∞`" over all twenty-six
    inputs and of "every entry is at least zero" over the four variance inputs; being all ones, it gives each of the
    thirty facts. -/
theorem unpack [Facts] {a0 a1 : FVec Ideal S32x256x64x64 .f32} {a2 : FVec Ideal S16x256 .f32}
    {a3 a4 a5 a6 a7 : FVec Ideal S16 .f32} {a8 : FVec Ideal S256x16 .f32} {a9 a10 a11 a12 a13 : FVec Ideal S256 .f32}
    {a14 : FVec Ideal S16x256 .f32} {a15 a16 a17 a18 a19 : FVec Ideal S16 .f32} {a20 : FVec Ideal S256x16 .f32}
    {a21 a22 a23 a24 a25 : FVec Ideal S256 .f32}
    (h : fn (F := Ideal) a0 a1 a2 a3 a4 a5 a6 a7 a8 a9 a10 a11 a12 a13 a14 a15 a16 a17 a18 a19 a20 a21 a22 a23 a24 a25
          = fun _ => 1#1) :
      (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal))
      ∧ (∀ i, ∃ r : ℝ, a12 i = (r : EReal)) ∧ (∀ i, ∃ r : ℝ, a13 i = (r : EReal)) ∧ (∀ i, ∃ r : ℝ, a14 i = (r : EReal))
      ∧ (∀ i, ∃ r : ℝ, a15 i = (r : EReal)) ∧ (∀ i, ∃ r : ℝ, a16 i = (r : EReal)) ∧ (∀ i, ∃ r : ℝ, a17 i = (r : EReal))
      ∧ (∀ i, ∃ r : ℝ, a18 i = (r : EReal)) ∧ (∀ i, ∃ r : ℝ, a19 i = (r : EReal)) ∧ (∀ i, ∃ r : ℝ, a20 i = (r : EReal))
      ∧ (∀ i, ∃ r : ℝ, a21 i = (r : EReal)) ∧ (∀ i, ∃ r : ℝ, a22 i = (r : EReal)) ∧ (∀ i, ∃ r : ℝ, a23 i = (r : EReal))
      ∧ (∀ i, ∃ r : ℝ, a24 i = (r : EReal)) ∧ (∀ i, ∃ r : ℝ, a25 i = (r : EReal)) ∧ (∀ i, 0 ≤ a7 i)
      ∧ (∀ i, 0 ≤ a13 i) ∧ (∀ i, 0 ≤ a19 i) ∧ (∀ i, 0 ≤ a25 i) := by
  have h0 := congrFun h ix0
  dsimp only [fn, fn_part1, fn_part2, fn_part3, fn_part4, fn_part5, fn_part6, fn_part7, fn_part8] at h0
  obtain ⟨h0, n25⟩ := and_split h0
  obtain ⟨h0, n19⟩ := and_split h0
  obtain ⟨h0, n13⟩ := and_split h0
  obtain ⟨h0, n7⟩ := and_split h0
  obtain ⟨h0, f25⟩ := and_split h0
  obtain ⟨h0, f24⟩ := and_split h0
  obtain ⟨h0, f23⟩ := and_split h0
  obtain ⟨h0, f22⟩ := and_split h0
  obtain ⟨h0, f21⟩ := and_split h0
  obtain ⟨h0, f20⟩ := and_split h0
  obtain ⟨h0, f19⟩ := and_split h0
  obtain ⟨h0, f18⟩ := and_split h0
  obtain ⟨h0, f17⟩ := and_split h0
  obtain ⟨h0, f16⟩ := and_split h0
  obtain ⟨h0, f15⟩ := and_split h0
  obtain ⟨h0, f14⟩ := and_split h0
  obtain ⟨h0, f13⟩ := and_split h0
  obtain ⟨h0, f12⟩ := and_split h0
  obtain ⟨h0, f11⟩ := and_split h0
  obtain ⟨h0, f10⟩ := and_split h0
  obtain ⟨h0, f9⟩ := and_split h0
  obtain ⟨h0, f8⟩ := and_split h0
  obtain ⟨h0, f7⟩ := and_split h0
  obtain ⟨h0, f6⟩ := and_split h0
  obtain ⟨h0, f5⟩ := and_split h0
  obtain ⟨h0, f4⟩ := and_split h0
  obtain ⟨h0, f3⟩ := and_split h0
  obtain ⟨h0, f2⟩ := and_split h0
  obtain ⟨f0, f1⟩ := and_split h0
  exact ⟨real_of_all a0 _ _ _ f0, real_of_all a1 _ _ _ f1, real_of_all a2 _ _ _ f2, real_of_all a3 _ _ _ f3,
    real_of_all a4 _ _ _ f4, real_of_all a5 _ _ _ f5, real_of_all a6 _ _ _ f6, real_of_all a7 _ _ _ f7,
    real_of_all a8 _ _ _ f8, real_of_all a9 _ _ _ f9, real_of_all a10 _ _ _ f10, real_of_all a11 _ _ _ f11,
    real_of_all a12 _ _ _ f12, real_of_all a13 _ _ _ f13, real_of_all a14 _ _ _ f14, real_of_all a15 _ _ _ f15,
    real_of_all a16 _ _ _ f16, real_of_all a17 _ _ _ f17, real_of_all a18 _ _ _ f18, real_of_all a19 _ _ _ f19,
    real_of_all a20 _ _ _ f20, real_of_all a21 _ _ _ f21, real_of_all a22 _ _ _ f22, real_of_all a23 _ _ _ f23,
    real_of_all a24 _ _ _ f24, real_of_all a25 _ _ _ f25, nonneg_of_all a7 _ _ _ n7, nonneg_of_all a13 _ _ _ n13,
    nonneg_of_all a19 _ _ _ n19, nonneg_of_all a25 _ _ _ n25⟩

end Cert.KernelIdeal.KV.PreRead

namespace Cert.KernelIdeal.KV

open Idealize.ShloMosaic Idealize.ShloMosaic.TcCoe Idealize.ShloMosaic.ValueIdx Idealize.SL.Sem
open Cert.KernelIdeal

/-- Under the precondition both branches' parameters are real with non-negative variances, and both flattened inputs
    are real. -/
theorem good_of_pre (m : (ℓ : Loc nD τ sig) → Buf (Elt Ideal) ℓ) (h : Cert.Pre_KernelIdeal m) (c : Dev nD) :
    (brLow m c).Good ∧ (brHigh m c).Good
      ∧ (∀ i, ∃ r : ℝ, lowIn m c i = (r : EReal)) ∧ (∀ i, ∃ r : ℝ, highIn m c i = (r : EReal)) := by
  obtain ⟨f0, f1, f2, f3, f4, f5, f6, f7, f8, f9, f10, f11, f12, f13, f14, f15, f16, f17, f18, f19, f20, f21, f22, f23,
    f24, f25, n7, n13, n19, n25⟩ := PreRead.unpack (h c)
  refine ⟨?_, ?_, fun i => ?_, fun i => ?_⟩
  · exact
    { w1 := fun j k => f2 (ix2 j k), b1 := fun j => f3 (ix1 j), g1 := fun j => f4 (ix1 j), be1 := fun j => f5 (ix1 j),
      mu1 := fun j => f6 (ix1 j), va1 := fun j => PreRead.real_nonneg (f7 (ix1 j)) (n7 (ix1 j)),
      w2 := fun k j => f8 (ix2 k j), b2 := fun j => f9 (ix1 j), g2 := fun j => f10 (ix1 j), be2 := fun j => f11 (ix1 j),
      mu2 := fun j => f12 (ix1 j), va2 := fun k => PreRead.real_nonneg (f13 (ix1 k)) (n13 (ix1 k)) }
  · exact
    { w1 := fun j k => f14 (ix2 j k), b1 := fun j => f15 (ix1 j), g1 := fun j => f16 (ix1 j), be1 := fun j => f17 (ix1 j),
      mu1 := fun j => f18 (ix1 j), va1 := fun j => PreRead.real_nonneg (f19 (ix1 j)) (n19 (ix1 j)),
      w2 := fun k j => f20 (ix2 k j), b2 := fun j => f21 (ix1 j), g2 := fun j => f22 (ix1 j), be2 := fun j => f23 (ix1 j),
      mu2 := fun j => f24 (ix1 j), va2 := fun k => PreRead.real_nonneg (f25 (ix1 k)) (n25 (ix1 k)) }
  · -- a flattened entry is the entry of the input at the index with the same row-major position
    unfold lowIn Cert.Spec.flat shapeCast
    exact f0 _
  · unfold highIn Cert.Spec.flat shapeCast
    exact f1 _

end Cert.KernelIdeal.KV

end
-- ==== Proof.lean ====
/-
  The certificate: a fused gate kernel against its two-pass reference, over the extended reals.

  Both programs take two activations `low`, `high` (batch 32, 256 channels, 64 × 64 positions) and two branches of
  parameters, and return `low * (softmax lv_low + 1) + lv_low` and `high * (softmax lv_high + 1)`, where a branch's
  channel vector `lv` comes from the activation's channel means through two small affine layers, each followed by a
  batch normalisation `y * s + t` (`s = γ / √(v + ε)`, `t = β - μ * s`) with a rectifier between them.

  The kernel program folds each normalisation into its layer on the host (`(w * s) · g + (b * s + t)`) and does
  everything else in ONE region, a batch element per grid point, summing a slab's 4096 positions at once. The
  reference sums the positions in a first region, four quarters of 1024 accumulated in place, applies the layers and
  normalisations on the host (`(g · w + b) * s + t`), and combines in a second region. At the ideal values the two
  agree wherever the folding law — distributivity — holds: on real numbers. The inputs are finite by the
  precondition, and the scales `s` are real because the variances are non-negative (the precondition's added
  conjunct) and ε is positive; with a variance equal to `-ε` a scale is infinite and the two programs differ.

  The frames of the three programs are the generated ones; `preserves` has no entry to state. The value of each
  program is read off its generated frame run (the kernel's one region; the reference's two regions and the host
  lines between them), each as the specification's corresponding form of the inputs (Proof/Spec.lean), and the two
  forms are joined in Proof/Bridge.lean.
-/
import proofs.«121784_g2000609679484958_pallasbulk_1271_2_alg».proof.Defs
import proofs.«121784_g2000609679484958_pallasbulk_1271_2_alg».proof.Proof.Gen.Kernel.Frame
import proofs.«121784_g2000609679484958_pallasbulk_1271_2_alg».proof.Proof.Gen.KernelIdeal.Frame
import proofs.«121784_g2000609679484958_pallasbulk_1271_2_alg».proof.Proof.Gen.ReferenceIdeal.Frame
import proofs.«121784_g2000609679484958_pallasbulk_1271_2_alg».proof.Proof.Gen.Pre_finite_inputs
import proofs.«121784_g2000609679484958_pallasbulk_1271_2_alg».proof.Proof.KFinal
import proofs.«121784_g2000609679484958_pallasbulk_1271_2_alg».proof.Proof.RFinal
import proofs.«121784_g2000609679484958_pallasbulk_1271_2_alg».proof.Proof.Bridge
import proofs.«121784_g2000609679484958_pallasbulk_1271_2_alg».proof.Proof.Pre
import Idealize.ShloMosaic.Adequacy
import Idealize.ShloMosaic.Init

noncomputable section

namespace Cert.Proof

open Idealize.ShloMosaic Idealize.ShloMosaic.TcCoe Idealize.ShloMosaic.ValueIdx Idealize.SL.Sem

/-- The three frames are the generated ones. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing: there is no entry to state. -/
theorem preserves : Cert.preserves_Kernel_KernelIdeal := trivial

/-- Memories that agree on the arguments give the two programs the same branch parameters … -/
theorem brLow_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RV.brLow m' c = Cert.KernelIdeal.KV.brLow m c := by
  unfold Cert.ReferenceIdeal.RV.brLow Cert.KernelIdeal.KV.brLow
  rw [h2, h3, h4, h5, h6, h7, h8, h9, h10, h11, h12, h13]

theorem brHigh_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.RV.brHigh m' c = Cert.KernelIdeal.KV.brHigh m c := by
  unfold Cert.ReferenceIdeal.RV.brHigh Cert.KernelIdeal.KV.brHigh
  rw [h14, h15, h16, h17, h18, h19, h20, h21, h22, h23, h24, h25]

/-- … and the same flattened activations. -/
theorem lowIn_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.RV.lowIn m' c = Cert.KernelIdeal.KV.lowIn m c := by
  unfold Cert.ReferenceIdeal.RV.lowIn Cert.KernelIdeal.KV.lowIn
  rw [h0]

theorem highIn_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.RV.highIn m' c = Cert.KernelIdeal.KV.highIn m c := by
  unfold Cert.ReferenceIdeal.RV.highIn Cert.KernelIdeal.KV.highIn
  rw [h1]

/-- The kernel program ends at the folded form of the specification, the reference at the normalised-after form of
    the same arguments; under the precondition the two forms are equal. -/
theorem algebraic : Cert.algebraic_KernelIdeal_ReferenceIdeal := by
  intro m ρ m' ρ' hpre hagree
  refine ⟨fun c => Cert.Spec.unflat (Cert.Spec.GlowF (Cert.KernelIdeal.KV.brLow m c) (Cert.KernelIdeal.KV.lowIn m c)),
    fun c => Cert.Spec.unflat (Cert.Spec.GhighF (Cert.KernelIdeal.KV.brHigh m c) (Cert.KernelIdeal.KV.highIn m c)),
    Cert.KernelIdeal.KV.run m ρ, ?_⟩
  refine (θ_run Cert.ReferenceIdeal.defs _ _).mono (fun _ h c => ⟨(h c).1.trans ?_, (h c).2.1.trans ?_, (h c).2.2⟩)
    (Cert.ReferenceIdeal.RV.run m' ρ')
  · obtain ⟨hl, -, hxl, -⟩ := Cert.KernelIdeal.KV.good_of_pre m hpre c
    rw [brLow_agree m m' c (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1,
      lowIn_agree m m' c (hagree c).1, Cert.Spec.GlowR_eq_GlowF _ hl _ hxl]
  · obtain ⟨-, hh, -, hxh⟩ := Cert.KernelIdeal.KV.good_of_pre m hpre c
    rw [brHigh_agree m m' c (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2,
      highIn_agree m m' c (hagree c).2.1, Cert.Spec.GhighR_eq_GhighF _ hh _ hxh]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
